-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S256x64 : Shape := ⟨2, ![256, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128x1 .f32 := Host.absf main_arg16
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S128 .f32) (main_arg14 : FVec F S128 .f32) (main_arg15 : FVec F S128 .f32) (main_arg16 : FVec F S128x1 .f32) (main_arg17 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S64 .f32) (main_arg10 : FVec F S64 .f32) (main_arg11 : FVec F S64 .f32) (main_arg12 : FVec F S128x128 .f32) (main_arg13 : FVec F S128 .f32) (main_arg14 : FVec F S128 .f32) (main_arg15 : FVec F S128 .f32) (main_arg16 : FVec F S128x1 .f32) (main_arg17 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S64 .f32) (main_arg7 : FVec F S64 .f32) (main_arg8 : FVec F S256x64 .f32) (main_arg9 : FVec F S64 .f32) (main_arg10 : FVec F S64 .f32) (main_arg11 : FVec F S64 .f32) (main_arg12 : FVec F S128x128 .f32) (main_arg13 : FVec F S128 .f32) (main_arg14 : FVec F S128 .f32) (main_arg15 : FVec F S128 .f32) (main_arg16 : FVec F S128x1 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : IVec S2x800000 32) (main_arg3 : FVec F S50000x128 .f32) (main_arg4 : FVec F S128x64 .f32) (main_arg5 : FVec F S64 .f32) (main_arg6 : FVec F S64 .f32) (main_arg7 : FVec F S64 .f32) (main_arg8 : FVec F S256x64 .f32) (main_arg9 : FVec F S64 .f32) (main_arg10 : FVec F S64 .f32) (main_arg11 : FVec F S64 .f32) (main_arg12 : FVec F S128x128 .f32) (main_arg13 : FVec F S128 .f32) (main_arg14 : FVec F S128 .f32) (main_arg15 : FVec F S128 .f32) (main_arg16 : FVec F S128x1 .f32) (main_arg17 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S256x64 : Shape := ⟨2, ![256, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000x64 : Shape := ⟨2, ![50000, 64]⟩
abbrev S5000x128 : Shape := ⟨2, ![5000, 128]⟩
abbrev S5000x64 : Shape := ⟨2, ![5000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S5000 : Shape := ⟨1, ![5000]⟩
abbrev S5000x1 : Shape := ⟨2, ![5000, 1]⟩
abbrev S64x128 : Shape := ⟨2, ![64, 128]⟩
abbrev S2x1600000 : Shape := ⟨2, ![2, 1600000]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S1650000x128 : Shape := ⟨2, ![1650000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 207
  | .vmem => 44
  | .smem => 0
  | _ => 0

abbrev hbmTy0_0 (i : Nat) : BufTy := match i % 128 with
  | 0 => ⟨S50000x128, .f32⟩
  | 1 => ⟨S2x800000, .i32⟩
  | 2 => ⟨S2x800000, .i32⟩
  | 3 => ⟨S50000x128, .f32⟩
  | 4 => ⟨S128x64, .f32⟩
  | 5 => ⟨S64, .f32⟩
  | 6 => ⟨S64, .f32⟩
  | 7 => ⟨S64, .f32⟩
  | 8 => ⟨S256x64, .f32⟩
  | 9 => ⟨S64, .f32⟩
  | 10 => ⟨S64, .f32⟩
  | 11 => ⟨S64, .f32⟩
  | 12 => ⟨S128x128, .f32⟩
  | 13 => ⟨S128, .f32⟩
  | 14 => ⟨S128, .f32⟩
  | 15 => ⟨S128, .f32⟩
  | 16 => ⟨S128x1, .f32⟩
  | 17 => ⟨S1, .f32⟩
  | 18 => ⟨S50000x64, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x64, .f32⟩
  | 71 => ⟨S850000x1, .f32⟩
  | 72 => ⟨S850000x64, .f32⟩
  | 73 => ⟨S850000x64, .f32⟩
  | 74 => ⟨S_, .f32⟩
  | 75 => ⟨S50000x64, .f32⟩
  | 76 => ⟨S850000x1, .i32⟩
  | 77 => ⟨S50000x64, .f32⟩
  | 78 => ⟨S50000x64, .f32⟩
  | 79 => ⟨S128x64, .f32⟩
  | 80 => ⟨S128x64, .f32⟩
  | 81 => ⟨S50000x64, .f32⟩
  | 82 => ⟨S50000, .i32⟩
  | 83 => ⟨S1x800000, .i32⟩
  | 84 => ⟨S800000, .i32⟩
  | 85 => ⟨S850000, .i32⟩
  | 86 => ⟨S1x800000, .i32⟩
  | 87 => ⟨S800000, .i32⟩
  | 88 => ⟨S850000, .i32⟩
  | 89 => ⟨S_, .f32⟩
  | 90 => ⟨S850000, .f32⟩
  | 91 => ⟨S_, .f32⟩
  | 92 => ⟨S50000, .f32⟩
  | 93 => ⟨S850000x1, .i32⟩
  | 94 => ⟨S50000, .f32⟩
  | 95 => ⟨S_, .f32⟩
  | 96 => ⟨S50000, .f32⟩
  | 97 => ⟨S50000, .i1⟩
  | 98 => ⟨S_, .f32⟩
  | 99 => ⟨S50000, .f32⟩
  | 100 => ⟨S50000, .f32⟩
  | 101 => ⟨S50000, .f32⟩
  | 102 => ⟨S_, .f32⟩
  | 103 => ⟨S_, .f32⟩
  | 104 => ⟨S50000, .f32⟩
  | 105 => ⟨S50000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000, .f32⟩
  | 124 => ⟨S850000, .f32⟩
  | 125 => ⟨S_, .i32⟩
  | 126 => ⟨S850000, .i32⟩
  | 127 => ⟨S850000, .i1⟩
  | _ => ⟨S50000x128, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x64, .f32⟩
  | 6 => ⟨S850000x1, .f32⟩
  | 7 => ⟨S850000x64, .f32⟩
  | 8 => ⟨S850000x64, .f32⟩
  | 9 => ⟨S_, .f32⟩
  | 10 => ⟨S50000x64, .f32⟩
  | 11 => ⟨S850000x1, .i32⟩
  | 12 => ⟨S50000x64, .f32⟩
  | 13 => ⟨S50000x64, .f32⟩
  | 14 => ⟨S64x128, .f32⟩
  | 15 => ⟨S64x128, .f32⟩
  | 16 => ⟨S50000x128, .f32⟩
  | 17 => ⟨S2x1600000, .i32⟩
  | 18 => ⟨S50000, .i32⟩
  | 19 => ⟨S1x1600000, .i32⟩
  | 20 => ⟨S1600000, .i32⟩
  | 21 => ⟨S1650000, .i32⟩
  | 22 => ⟨S1x1600000, .i32⟩
  | 23 => ⟨S1600000, .i32⟩
  | 24 => ⟨S1650000, .i32⟩
  | 25 => ⟨S_, .f32⟩
  | 26 => ⟨S1650000, .f32⟩
  | 27 => ⟨S_, .f32⟩
  | 28 => ⟨S50000, .f32⟩
  | 29 => ⟨S1650000x1, .i32⟩
  | 30 => ⟨S50000, .f32⟩
  | 31 => ⟨S_, .f32⟩
  | 32 => ⟨S50000, .f32⟩
  | 33 => ⟨S50000, .i1⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S_, .i32⟩
  | 52 => ⟨S1650000, .i32⟩
  | 53 => ⟨S1650000, .i1⟩
  | 54 => ⟨S_, .i32⟩
  | 55 => ⟨S1650000, .i32⟩
  | 56 => ⟨S1650000, .i32⟩
  | 57 => ⟨S1650000, .i32⟩
  | 58 => ⟨S1650000x1, .i32⟩
  | 59 => ⟨S1650000, .f32⟩
  | 60 => ⟨S1650000, .f32⟩
  | 61 => ⟨S_, .i32⟩
  | 62 => ⟨S1650000, .i32⟩
  | 63 => ⟨S1650000, .i1⟩
  | 64 => ⟨S_, .i32⟩
  | 65 => ⟨S1650000, .i32⟩
  | 66 => ⟨S1650000, .i32⟩
  | 67 => ⟨S1650000, .i32⟩
  | 68 => ⟨S1650000x1, .i32⟩
  | 69 => ⟨S1650000x128, .f32⟩
  | 70 => ⟨S1650000x1, .f32⟩
  | 71 => ⟨S1650000x128, .f32⟩
  | 72 => ⟨S1650000x128, .f32⟩
  | 73 => ⟨S_, .f32⟩
  | 74 => ⟨S50000x128, .f32⟩
  | 75 => ⟨S1650000x1, .i32⟩
  | 76 => ⟨S50000x128, .f32⟩
  | 77 => ⟨S50000x1, .f32⟩
  | 78 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64, .f32⟩
  | .local _ .vmem, ⟨23, _⟩ => ⟨S64, .f32⟩
  | .local _ .vmem, ⟨24, _⟩ => ⟨S64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x128, .f32⟩
  | .local _ .vmem, ⟨30, _⟩ => ⟨S5000x64, .f32⟩
  | .local _ .vmem, ⟨31, _⟩ => ⟨S5000x64, .f32⟩
  | .local _ .vmem, ⟨32, _⟩ => ⟨S64x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128, .f32⟩
  | .local _ .vmem, ⟨38, _⟩ => ⟨S128, .f32⟩
  | .local _ .vmem, ⟨39, _⟩ => ⟨S128, .f32⟩
  | .local _ .vmem, ⟨40, _⟩ => ⟨S128x1, .f32⟩
  | .local _ .vmem, ⟨41, _⟩ => ⟨S1, .f32⟩
  | .local _ .vmem, ⟨42, _⟩ => ⟨S5000x1, .f32⟩
  | .local _ .vmem, ⟨43, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_c_8 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_14 : Ref sig .tc := ⟨.hbm, 102, rfl⟩
abbrev main_call1_v0 : Ref sig .tc := ⟨.hbm, 103, rfl⟩
abbrev main_call1_v1 : Ref sig .tc := ⟨.hbm, 104, rfl⟩
abbrev main_v66 : Ref sig .tc := ⟨.hbm, 105, rfl⟩
abbrev main_c_15 : Ref sig .tc := ⟨.hbm, 106, rfl⟩
abbrev main_v67 : Ref sig .tc := ⟨.hbm, 107, rfl⟩
abbrev main_v68 : Ref sig .tc := ⟨.hbm, 108, rfl⟩
abbrev main_c_16 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_17 : Ref sig .tc := ⟨.hbm, 115, rfl⟩
abbrev main_v74 : Ref sig .tc := ⟨.hbm, 116, rfl⟩
abbrev main_v75 : Ref sig .tc := ⟨.hbm, 117, rfl⟩
abbrev main_c_18 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_19 : Ref sig .tc := ⟨.hbm, 125, rfl⟩
abbrev main_v82 : Ref sig .tc := ⟨.hbm, 126, rfl⟩
abbrev main_v83 : Ref sig .tc := ⟨.hbm, 127, rfl⟩
abbrev main_c_20 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_21 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_22 : Ref sig .tc := ⟨.hbm, 153, rfl⟩
abbrev main_v107 : Ref sig .tc := ⟨.hbm, 154, rfl⟩
abbrev main_cst_23 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_24 : Ref sig .tc := ⟨.hbm, 159, rfl⟩
abbrev main_v111 : Ref sig .tc := ⟨.hbm, 160, rfl⟩
abbrev main_v112 : Ref sig .tc := ⟨.hbm, 161, rfl⟩
abbrev main_cst_25 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_26 : Ref sig .tc := ⟨.hbm, 166, rfl⟩
abbrev main_call2_v0 : Ref sig .tc := ⟨.hbm, 167, rfl⟩
abbrev main_call2_v1 : Ref sig .tc := ⟨.hbm, 168, rfl⟩
abbrev main_v116 : Ref sig .tc := ⟨.hbm, 169, rfl⟩
abbrev main_c_27 : Ref sig .tc := ⟨.hbm, 170, rfl⟩
abbrev main_v117 : Ref sig .tc := ⟨.hbm, 171, rfl⟩
abbrev main_v118 : Ref sig .tc := ⟨.hbm, 172, rfl⟩
abbrev main_c_28 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_c_29 : Ref sig .tc := ⟨.hbm, 179, rfl⟩
abbrev main_v124 : Ref sig .tc := ⟨.hbm, 180, rfl⟩
abbrev main_v125 : Ref sig .tc := ⟨.hbm, 181, rfl⟩
abbrev main_c_30 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_c_31 : Ref sig .tc := ⟨.hbm, 189, rfl⟩
abbrev main_v132 : Ref sig .tc := ⟨.hbm, 190, rfl⟩
abbrev main_v133 : Ref sig .tc := ⟨.hbm, 191, rfl⟩
abbrev main_c_32 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_33 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x1 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  slices_S256x64_S128x64_0_0 : S256x64.Slices ![0, 0] S128x64
  slices_S256x64_S128x64_128_0 : S256x64.Slices ![128, 0] S128x64
  shapeCasts_S128x64_S128x64 : S128x64.ShapeCasts S128x64
  slices_S128x128_S64x128_0_0 : S128x128.Slices ![0, 0] S64x128
  slices_S128x128_S64x128_64_0 : S128x128.Slices ![64, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  concatenates_S2x800000_S2x800000_S2x1600000_d1 : Shape.Concatenates [S2x800000, S2x800000] S2x1600000 1
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  broadcasts_S5000x1_S5000x128 : S5000x1.Broadcasts S5000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  dot_S5000x128_S128x64_S5000x64_1_0_0_1_n_n_wf : DotDims.WF S5000x128 S128x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x1.size a ≤ S128x1.size a
  hwx5_4 : ∀ i : grid5.Coords, EltTy.bits .f32 = 32 ∨ (Rect.block (s := S128x1) S128x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1.size a ≤ S1.size a
  hwx5_5 : ∀ i : grid5.Coords, EltTy.bits .f32 = 32 ∨ (Rect.block (s := S1) S1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x1.size a ≤ S50000x1.size a
  hwx5_6 : ∀ i : grid5.Coords, EltTy.bits .f32 = 32 ∨ (Rect.block (s := S50000x1) S5000x1.size (cc5_transform_6 i) (hinb5_6 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v94) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v46) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v97) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v98) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v144) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg15) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg16) S128x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg17) S1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v145) S5000x1.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S256x64 : Shape := ⟨2, ![256, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000x64 : Shape := ⟨2, ![50000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S50000x256 : Shape := ⟨2, ![50000, 256]⟩
abbrev S2x1600000 : Shape := ⟨2, ![2, 1600000]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S1650000x128 : Shape := ⟨2, ![1650000, 128]⟩
abbrev S1x128 : Shape := ⟨2, ![1, 128]⟩
abbrev S1x1 : Shape := ⟨2, ![1, 1]⟩

abbrev nBuf : Space → Nat
  | .hbm => 347
  | .vmem => 0
  | .smem => 0
  | _ => 0

abbrev hbmTy0_0 (i : Nat) : BufTy := match i % 128 with
  | 0 => ⟨S50000x128, .f32⟩
  | 1 => ⟨S2x800000, .i32⟩
  | 2 => ⟨S2x800000, .i32⟩
  | 3 => ⟨S50000x128, .f32⟩
  | 4 => ⟨S128x64, .f32⟩
  | 5 => ⟨S64, .f32⟩
  | 6 => ⟨S64, .f32⟩
  | 7 => ⟨S64, .f32⟩
  | 8 => ⟨S256x64, .f32⟩
  | 9 => ⟨S64, .f32⟩
  | 10 => ⟨S64, .f32⟩
  | 11 => ⟨S64, .f32⟩
  | 12 => ⟨S128x128, .f32⟩
  | 13 => ⟨S128, .f32⟩
  | 14 => ⟨S128, .f32⟩
  | 15 => ⟨S128, .f32⟩
  | 16 => ⟨S128x1, .f32⟩
  | 17 => ⟨S1, .f32⟩
  | 18 => ⟨S50000x64, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x64, .f32⟩
  | 71 => ⟨S850000x1, .f32⟩
  | 72 => ⟨S850000x64, .f32⟩
  | 73 => ⟨S850000x64, .f32⟩
  | 74 => ⟨S_, .f32⟩
  | 75 => ⟨S50000x64, .f32⟩
  | 76 => ⟨S850000x1, .i32⟩
  | 77 => ⟨S50000x64, .f32⟩
  | 78 => ⟨S1x64, .f32⟩
  | 79 => ⟨S50000x64, .f32⟩
  | 80 => ⟨S50000x64, .f32⟩
  | 81 => ⟨S_, .f32⟩
  | 82 => ⟨S50000, .f32⟩
  | 83 => ⟨S50000x1, .f32⟩
  | 84 => ⟨S_, .f32⟩
  | 85 => ⟨S50000x1, .f32⟩
  | 86 => ⟨S50000x1, .f32⟩
  | 87 => ⟨S50000x64, .f32⟩
  | 88 => ⟨S50000x64, .f32⟩
  | 89 => ⟨S50000x64, .f32⟩
  | 90 => ⟨S_, .f32⟩
  | 91 => ⟨S50000, .f32⟩
  | 92 => ⟨S50000x1, .f32⟩
  | 93 => ⟨S_, .f32⟩
  | 94 => ⟨S50000x1, .f32⟩
  | 95 => ⟨S50000x1, .f32⟩
  | 96 => ⟨S50000x64, .f32⟩
  | 97 => ⟨S50000x64, .f32⟩
  | 98 => ⟨S_, .f32⟩
  | 99 => ⟨S50000x1, .f32⟩
  | 100 => ⟨S50000x1, .f32⟩
  | 101 => ⟨S50000x1, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .i1⟩
  | 113 => ⟨S_, .f32⟩
  | 114 => ⟨S50000x64, .f32⟩
  | 115 => ⟨S50000x64, .i1⟩
  | 116 => ⟨S_, .f32⟩
  | 117 => ⟨S_, .f32⟩
  | 118 => ⟨S50000x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S50000x64, .f32⟩
  | 125 => ⟨S50000x256, .f32⟩
  | 126 => ⟨S50000x64, .f32⟩
  | 127 => ⟨S50000, .i32⟩
  | _ => ⟨S50000x128, .f32⟩

abbrev hbmTy0_1 (i : Nat) : BufTy := match i % 128 with
  | 0 => ⟨S1x800000, .i32⟩
  | 1 => ⟨S800000, .i32⟩
  | 2 => ⟨S850000, .i32⟩
  | 3 => ⟨S1x800000, .i32⟩
  | 4 => ⟨S800000, .i32⟩
  | 5 => ⟨S850000, .i32⟩
  | 6 => ⟨S_, .f32⟩
  | 7 => ⟨S850000, .f32⟩
  | 8 => ⟨S_, .f32⟩
  | 9 => ⟨S50000, .f32⟩
  | 10 => ⟨S850000x1, .i32⟩
  | 11 => ⟨S50000, .f32⟩
  | 12 => ⟨S_, .f32⟩
  | 13 => ⟨S50000, .f32⟩
  | 14 => ⟨S50000, .i1⟩
  | 15 => ⟨S_, .f32⟩
  | 16 => ⟨S50000, .f32⟩
  | 17 => ⟨S50000, .f32⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x64, .f32⟩
  | 51 => ⟨S850000x1, .f32⟩
  | 52 => ⟨S850000x64, .f32⟩
  | 53 => ⟨S850000x64, .f32⟩
  | 54 => ⟨S_, .f32⟩
  | 55 => ⟨S50000x64, .f32⟩
  | 56 => ⟨S850000x1, .i32⟩
  | 57 => ⟨S50000x64, .f32⟩
  | 58 => ⟨S1x64, .f32⟩
  | 59 => ⟨S50000x64, .f32⟩
  | 60 => ⟨S50000x64, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x64, .f32⟩
  | 68 => ⟨S50000x64, .f32⟩
  | 69 => ⟨S50000x64, .f32⟩
  | 70 => ⟨S_, .f32⟩
  | 71 => ⟨S50000, .f32⟩
  | 72 => ⟨S50000x1, .f32⟩
  | 73 => ⟨S_, .f32⟩
  | 74 => ⟨S50000x1, .f32⟩
  | 75 => ⟨S50000x1, .f32⟩
  | 76 => ⟨S50000x64, .f32⟩
  | 77 => ⟨S50000x64, .f32⟩
  | 78 => ⟨S_, .f32⟩
  | 79 => ⟨S50000x1, .f32⟩
  | 80 => ⟨S50000x1, .f32⟩
  | 81 => ⟨S50000x1, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S1x64, .f32⟩
  | 88 => ⟨S50000x64, .f32⟩
  | 89 => ⟨S50000x64, .f32⟩
  | 90 => ⟨S_, .f32⟩
  | 91 => ⟨S50000x64, .f32⟩
  | 92 => ⟨S50000x64, .i1⟩
  | 93 => ⟨S_, .f32⟩
  | 94 => ⟨S50000x64, .f32⟩
  | 95 => ⟨S50000x64, .i1⟩
  | 96 => ⟨S_, .f32⟩
  | 97 => ⟨S_, .f32⟩
  | 98 => ⟨S50000x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S50000x64, .f32⟩
  | 105 => ⟨S50000x128, .f32⟩
  | 106 => ⟨S2x1600000, .i32⟩
  | 107 => ⟨S50000x128, .f32⟩
  | 108 => ⟨S50000, .i32⟩
  | 109 => ⟨S1x1600000, .i32⟩
  | 110 => ⟨S1600000, .i32⟩
  | 111 => ⟨S1650000, .i32⟩
  | 112 => ⟨S1x1600000, .i32⟩
  | 113 => ⟨S1600000, .i32⟩
  | 114 => ⟨S1650000, .i32⟩
  | 115 => ⟨S_, .f32⟩
  | 116 => ⟨S1650000, .f32⟩
  | 117 => ⟨S_, .f32⟩
  | 118 => ⟨S50000, .f32⟩
  | 119 => ⟨S1650000x1, .i32⟩
  | 120 => ⟨S50000, .f32⟩
  | 121 => ⟨S_, .f32⟩
  | 122 => ⟨S50000, .f32⟩
  | 123 => ⟨S50000, .i1⟩
  | 124 => ⟨S_, .f32⟩
  | 125 => ⟨S50000, .f32⟩
  | 126 => ⟨S50000, .f32⟩
  | 127 => ⟨S50000, .f32⟩
  | _ => ⟨S50000x128, .f32⟩

abbrev hbmTy0_2 (i : Nat) : BufTy := match i % 128 with
  | 0 => ⟨S_, .f32⟩
  | 1 => ⟨S_, .f32⟩
  | 2 => ⟨S50000, .f32⟩
  | 3 => ⟨S50000, .f32⟩
  | 4 => ⟨S_, .i32⟩
  | 5 => ⟨S1650000, .i32⟩
  | 6 => ⟨S1650000, .i1⟩
  | 7 => ⟨S_, .i32⟩
  | 8 => ⟨S1650000, .i32⟩
  | 9 => ⟨S1650000, .i32⟩
  | 10 => ⟨S1650000, .i32⟩
  | 11 => ⟨S1650000x1, .i32⟩
  | 12 => ⟨S1650000, .f32⟩
  | 13 => ⟨S_, .i32⟩
  | 14 => ⟨S1650000, .i32⟩
  | 15 => ⟨S1650000, .i1⟩
  | 16 => ⟨S_, .i32⟩
  | 17 => ⟨S1650000, .i32⟩
  | 18 => ⟨S1650000, .i32⟩
  | 19 => ⟨S1650000, .i32⟩
  | 20 => ⟨S1650000x1, .i32⟩
  | 21 => ⟨S1650000, .f32⟩
  | 22 => ⟨S1650000, .f32⟩
  | 23 => ⟨S_, .i32⟩
  | 24 => ⟨S1650000, .i32⟩
  | 25 => ⟨S1650000, .i1⟩
  | 26 => ⟨S_, .i32⟩
  | 27 => ⟨S1650000, .i32⟩
  | 28 => ⟨S1650000, .i32⟩
  | 29 => ⟨S1650000, .i32⟩
  | 30 => ⟨S1650000x1, .i32⟩
  | 31 => ⟨S1650000x128, .f32⟩
  | 32 => ⟨S1650000x1, .f32⟩
  | 33 => ⟨S1650000x128, .f32⟩
  | 34 => ⟨S1650000x128, .f32⟩
  | 35 => ⟨S_, .f32⟩
  | 36 => ⟨S50000x128, .f32⟩
  | 37 => ⟨S1650000x1, .i32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000, .f32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S50000x128, .f32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x128, .f32⟩
  | 58 => ⟨S50000x128, .f32⟩
  | 59 => ⟨S_, .f32⟩
  | 60 => ⟨S50000x1, .f32⟩
  | 61 => ⟨S50000x1, .f32⟩
  | 62 => ⟨S50000x1, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .i1⟩
  | 74 => ⟨S_, .f32⟩
  | 75 => ⟨S50000x128, .f32⟩
  | 76 => ⟨S50000x128, .i1⟩
  | 77 => ⟨S_, .f32⟩
  | 78 => ⟨S_, .f32⟩
  | 79 => ⟨S50000x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S50000x1, .f32⟩
  | 87 => ⟨S1x1, .f32⟩
  | 88 => ⟨S50000x1, .f32⟩
  | 89 => ⟨S50000x1, .f32⟩
  | 90 => ⟨S50000, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_c_8 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_cst_13 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_call1_cst : Ref sig .tc := ⟨.hbm, 110, rfl⟩
abbrev main_call1_v0 : Ref sig .tc := ⟨.hbm, 111, rfl⟩
abbrev main_call1_v1 : Ref sig .tc := ⟨.hbm, 112, rfl⟩
abbrev main_call1_cst_0 : Ref sig .tc := ⟨.hbm, 113, rfl⟩
abbrev main_call1_v2 : Ref sig .tc := ⟨.hbm, 114, rfl⟩
abbrev main_call1_v3 : Ref sig .tc := ⟨.hbm, 115, rfl⟩
abbrev main_call1_cst_1 : Ref sig .tc := ⟨.hbm, 116, rfl⟩
abbrev main_call1_call0_v0 : Ref sig .tc := ⟨.hbm, 117, rfl⟩
abbrev main_call1_call0_v1 : Ref sig .tc := ⟨.hbm, 118, rfl⟩
abbrev main_call1_v4 : Ref sig .tc := ⟨.hbm, 119, rfl⟩
abbrev main_call1_v5 : Ref sig .tc := ⟨.hbm, 120, rfl⟩
abbrev main_call1_cst_2 : Ref sig .tc := ⟨.hbm, 121, rfl⟩
abbrev main_call1_v6 : Ref sig .tc := ⟨.hbm, 122, rfl⟩
abbrev main_call1_v7 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_15 : Ref sig .tc := ⟨.hbm, 134, rfl⟩
abbrev main_v83 : Ref sig .tc := ⟨.hbm, 135, rfl⟩
abbrev main_cst_16 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_17 : Ref sig .tc := ⟨.hbm, 140, rfl⟩
abbrev main_v87 : Ref sig .tc := ⟨.hbm, 141, rfl⟩
abbrev main_v88 : Ref sig .tc := ⟨.hbm, 142, rfl⟩
abbrev main_cst_18 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_19 : Ref sig .tc := ⟨.hbm, 147, rfl⟩
abbrev main_call2_v0 : Ref sig .tc := ⟨.hbm, 148, rfl⟩
abbrev main_call2_v1 : Ref sig .tc := ⟨.hbm, 149, rfl⟩
abbrev main_v92 : Ref sig .tc := ⟨.hbm, 150, rfl⟩
abbrev main_c_20 : Ref sig .tc := ⟨.hbm, 151, rfl⟩
abbrev main_v93 : Ref sig .tc := ⟨.hbm, 152, rfl⟩
abbrev main_v94 : Ref sig .tc := ⟨.hbm, 153, rfl⟩
abbrev main_c_21 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_c_22 : Ref sig .tc := ⟨.hbm, 160, rfl⟩
abbrev main_v100 : Ref sig .tc := ⟨.hbm, 161, rfl⟩
abbrev main_v101 : Ref sig .tc := ⟨.hbm, 162, rfl⟩
abbrev main_c_23 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_c_24 : Ref sig .tc := ⟨.hbm, 170, rfl⟩
abbrev main_v108 : Ref sig .tc := ⟨.hbm, 171, rfl⟩
abbrev main_v109 : Ref sig .tc := ⟨.hbm, 172, rfl⟩
abbrev main_c_25 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_26 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_cst_27 : Ref sig .tc := ⟨.hbm, 189, rfl⟩
abbrev main_v124 : Ref sig .tc := ⟨.hbm, 190, rfl⟩
abbrev main_v125 : Ref sig .tc := ⟨.hbm, 191, rfl⟩
abbrev main_cst_28 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_cst_29 : Ref sig .tc := ⟨.hbm, 198, rfl⟩
abbrev main_v131 : Ref sig .tc := ⟨.hbm, 199, rfl⟩
abbrev main_v132 : Ref sig .tc := ⟨.hbm, 200, rfl⟩
abbrev main_cst_30 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_cst_31 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_call3_cst : Ref sig .tc := ⟨.hbm, 218, rfl⟩
abbrev main_call3_v0 : Ref sig .tc := ⟨.hbm, 219, rfl⟩
abbrev main_call3_v1 : Ref sig .tc := ⟨.hbm, 220, rfl⟩
abbrev main_call3_cst_0 : Ref sig .tc := ⟨.hbm, 221, rfl⟩
abbrev main_call3_v2 : Ref sig .tc := ⟨.hbm, 222, rfl⟩
abbrev main_call3_v3 : Ref sig .tc := ⟨.hbm, 223, rfl⟩
abbrev main_call3_cst_1 : Ref sig .tc := ⟨.hbm, 224, rfl⟩
abbrev main_call3_call0_v0 : Ref sig .tc := ⟨.hbm, 225, rfl⟩
abbrev main_call3_call0_v1 : Ref sig .tc := ⟨.hbm, 226, rfl⟩
abbrev main_call3_v4 : Ref sig .tc := ⟨.hbm, 227, rfl⟩
abbrev main_call3_v5 : Ref sig .tc := ⟨.hbm, 228, rfl⟩
abbrev main_call3_cst_2 : Ref sig .tc := ⟨.hbm, 229, rfl⟩
abbrev main_call3_v6 : Ref sig .tc := ⟨.hbm, 230, rfl⟩
abbrev main_call3_v7 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_cst_32 : Ref sig .tc := ⟨.hbm, 243, rfl⟩
abbrev main_v159 : Ref sig .tc := ⟨.hbm, 244, rfl⟩
abbrev main_cst_33 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_cst_34 : Ref sig .tc := ⟨.hbm, 249, rfl⟩
abbrev main_v163 : Ref sig .tc := ⟨.hbm, 250, rfl⟩
abbrev main_v164 : Ref sig .tc := ⟨.hbm, 251, rfl⟩
abbrev main_cst_35 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_cst_36 : Ref sig .tc := ⟨.hbm, 256, rfl⟩
abbrev main_call4_v0 : Ref sig .tc := ⟨.hbm, 257, rfl⟩
abbrev main_call4_v1 : Ref sig .tc := ⟨.hbm, 258, rfl⟩
abbrev main_v168 : Ref sig .tc := ⟨.hbm, 259, rfl⟩
abbrev main_c_37 : Ref sig .tc := ⟨.hbm, 260, rfl⟩
abbrev main_v169 : Ref sig .tc := ⟨.hbm, 261, rfl⟩
abbrev main_v170 : Ref sig .tc := ⟨.hbm, 262, rfl⟩
abbrev main_c_38 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_c_39 : Ref sig .tc := ⟨.hbm, 269, rfl⟩
abbrev main_v176 : Ref sig .tc := ⟨.hbm, 270, rfl⟩
abbrev main_v177 : Ref sig .tc := ⟨.hbm, 271, rfl⟩
abbrev main_c_40 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_c_41 : Ref sig .tc := ⟨.hbm, 279, rfl⟩
abbrev main_v184 : Ref sig .tc := ⟨.hbm, 280, rfl⟩
abbrev main_v185 : Ref sig .tc := ⟨.hbm, 281, rfl⟩
abbrev main_c_42 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_cst_43 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_cst_44 : Ref sig .tc := ⟨.hbm, 298, rfl⟩
abbrev main_v200 : Ref sig .tc := ⟨.hbm, 299, rfl⟩
abbrev main_v201 : Ref sig .tc := ⟨.hbm, 300, rfl⟩
abbrev main_cst_45 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_cst_46 : Ref sig .tc := ⟨.hbm, 307, rfl⟩
abbrev main_v207 : Ref sig .tc := ⟨.hbm, 308, rfl⟩
abbrev main_v208 : Ref sig .tc := ⟨.hbm, 309, rfl⟩
abbrev main_cst_47 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_cst_48 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_call5_cst : Ref sig .tc := ⟨.hbm, 327, rfl⟩
abbrev main_call5_v0 : Ref sig .tc := ⟨.hbm, 328, rfl⟩
abbrev main_call5_v1 : Ref sig .tc := ⟨.hbm, 329, rfl⟩
abbrev main_call5_cst_0 : Ref sig .tc := ⟨.hbm, 330, rfl⟩
abbrev main_call5_v2 : Ref sig .tc := ⟨.hbm, 331, rfl⟩
abbrev main_call5_v3 : Ref sig .tc := ⟨.hbm, 332, rfl⟩
abbrev main_call5_cst_1 : Ref sig .tc := ⟨.hbm, 333, rfl⟩
abbrev main_call5_call0_v0 : Ref sig .tc := ⟨.hbm, 334, rfl⟩
abbrev main_call5_call0_v1 : Ref sig .tc := ⟨.hbm, 335, rfl⟩
abbrev main_call5_v4 : Ref sig .tc := ⟨.hbm, 336, rfl⟩
abbrev main_call5_v5 : Ref sig .tc := ⟨.hbm, 337, rfl⟩
abbrev main_call5_cst_2 : Ref sig .tc := ⟨.hbm, 338, rfl⟩
abbrev main_call5_v6 : Ref sig .tc := ⟨.hbm, 339, rfl⟩
abbrev main_call5_v7 : Ref sig .tc := ⟨.hbm, 340, rfl⟩
abbrev main_v224 : Ref sig .tc := ⟨.hbm, 341, rfl⟩
abbrev main_v225 : Ref sig .tc := ⟨.hbm, 342, rfl⟩
abbrev main_v226 : Ref sig .tc := ⟨.hbm, 343, rfl⟩
abbrev main_v227 : Ref sig .tc := ⟨.hbm, 344, rfl⟩
abbrev main_v228 : Ref sig .tc := ⟨.hbm, 345, rfl⟩
abbrev main_v229 : Ref sig .tc := ⟨.hbm, 346, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x128_S50000x128_S50000x256_d1 : Shape.Concatenates [S50000x128, S50000x128] S50000x256 1
  concatenates_S50000x64_S50000x64_S50000x128_d1 : Shape.Concatenates [S50000x64, S50000x64] S50000x128 1
  concatenates_S2x800000_S2x800000_S2x1600000_d1 : Shape.Concatenates [S2x800000, S2x800000] S2x1600000 1
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S50000x1_S50000x128_0_1 : S50000x1.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x256_S256x64_S50000x64_1_0_0_1_n_n_wf : DotDims.WF S50000x256 S256x64 S50000x64 [1] [0] [0] [1] [] []
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x1_S50000x1_1_0_0_1_n_n_wf : DotDims.WF S50000x128 S128x1 S50000x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.RefTerms.lean ====
/-
  The reference's host computation cut into named stretches, each a pure term of the arrays it reads, for every float
  family: the three feature products, the graph aggregation (degrees, symmetric normalisation, gather, scale,
  scatter-add) at 64 and at 128 channels, the layer normalisation followed by `elu`, and the output projection.
  `Out` composes them in the order the program runs them. The operations and their shape facts are the printed
  program's own; nothing here is specific to a float family.
-/
import proofs.«122206_j54812372631715_1_alg».proof.ReferenceIdeal

noncomputable section

namespace Cert.ReferenceIdeal.RT

open Idealize.ShloMosaic Cert.ReferenceIdeal
open Cert.ReferenceIdeal.Facts₀ Cert.ReferenceIdeal.Facts

variable {F : FTy → Type} [FloatOps F] [Cert.ReferenceIdeal.Facts]

/-- The contents of a buffer of type `T`. -/
abbrev Arr (F : FTy → Type) [FloatOps F] (T : BufTy) : Type := T.Contents (Elt F)

/-- `x @ W_corr`. -/
def dot0 (x : Arr F ⟨S50000x128, .f32⟩) (w : Arr F ⟨S128x64, .f32⟩) : Arr F ⟨S50000x64, .f32⟩ :=
  Host.dotGeneral dot_S50000x128_S128x64_S50000x64_1_0_0_1_n_n none x w

/-- `concat(x, x_lagged) @ W_vendor`. -/
def dot1 (x xl : Arr F ⟨S50000x128, .f32⟩) (w : Arr F ⟨S256x64, .f32⟩) : Arr F ⟨S50000x64, .f32⟩ :=
  Host.dotGeneral dot_S50000x256_S256x64_S50000x64_1_0_0_1_n_n none
    (concatenate S50000x256 1 [⟨S50000x128, x⟩, ⟨S50000x128, xl⟩] concatenates_S50000x128_S50000x128_S50000x256_d1) w

/-- `concat(h_corr, h_vendor) @ W_refine`. -/
def dot2 (hc hv : Arr F ⟨S50000x64, .f32⟩) (w : Arr F ⟨S128x128, .f32⟩) : Arr F ⟨S50000x128, .f32⟩ :=
  Host.dotGeneral dot_S50000x128_S128x128_S50000x128_1_0_0_1_n_n none
    (concatenate S50000x128 1 [⟨S50000x64, hc⟩, ⟨S50000x64, hv⟩] concatenates_S50000x64_S50000x64_S50000x128_d1) w

/-- The two edge lists side by side. -/
def ecat (e1 e2 : Arr F ⟨S2x800000, .i32⟩) : Arr F ⟨S2x1600000, .i32⟩ :=
  concatenate S2x1600000 1 [⟨S2x800000, e1⟩, ⟨S2x800000, e2⟩] concatenates_S2x800000_S2x800000_S2x1600000_d1

/-- Source (`row = 0`) or target (`row = 1`) node of every edge, the 800000 given edges first and then the 50000 self loops `n → n`. -/
def ends850000_0 (e : Arr F ⟨S2x800000, .i32⟩) : Arr F ⟨S850000, .i32⟩ :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0
def ends850000_1 (e : Arr F ⟨S2x800000, .i32⟩) : Arr F ⟨S850000, .i32⟩ :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- A node index made non-negative the way `x[idx]` does: `idx + 50000` where `idx < 0`. -/
def wrap850000 (i : Arr F ⟨S850000, .i32⟩) : Arr F ⟨S850000, .i32⟩ :=
  select (cmpi .slt i (broadcastInDim S850000 ![] bcast_S_S850000 (constantI S_ 32 0#32)))
    (addi i (broadcastInDim S850000 ![] bcast_S_S850000 (constantI S_ 32 50000#32))) i

/-- In-degree (self loop included) of every node: the scatter-add of ones at the edges' targets. -/
def deg850000 (e : Arr F ⟨S2x800000, .i32⟩) : Arr F ⟨S50000, .f32⟩ :=
  Host.scatterAdd scatter_S50000_S850000x1_S850000_n_0_0_1
    (broadcastInDim S50000 ![] bcast_S_S50000 (constant S_ .f32 0x00000000#32))
    (broadcastInDim S850000x1 ![0] bcast_S850000_S850000x1_0 (ends850000_1 e))
    (broadcastInDim S850000 ![] bcast_S_S850000 (constant S_ .f32 0x3F800000#32))

/-- `deg^(-1/2)` where the degree is positive, else 0. -/
def dis850000 (e : Arr F ⟨S2x800000, .i32⟩) : Arr F ⟨S50000, .f32⟩ :=
  select (cmpf .ogt (deg850000 e) (broadcastInDim S50000 ![] bcast_S_S50000 (constant S_ .f32 0x00000000#32)))
    (Host.rsqrt (maximumf (deg850000 e) (broadcastInDim S50000 ![] bcast_S_S50000 (constant S_ .f32 0x3F800000#32))))
    (broadcastInDim S50000 ![] bcast_S_S50000 (id (constant S_ .f32 0x00000000#32)))

/-- The symmetric normalisation of every edge: `dis[src] · dis[dst]`. -/
def norm850000 (e : Arr F ⟨S2x800000, .i32⟩) : Arr F ⟨S850000, .f32⟩ :=
  mulf (Host.gather gather_S50000_S850000x1_S850000_n_0_n_n_0_1_1 (dis850000 e) (broadcastInDim S850000x1 ![0] bcast_S850000_S850000x1_0 (wrap850000 (ends850000_0 e))))
    (Host.gather gather_S50000_S850000x1_S850000_n_0_n_n_0_1_1 (dis850000 e) (broadcastInDim S850000x1 ![0] bcast_S850000_S850000x1_0 (wrap850000 (ends850000_1 e))))

/-- The graph aggregation of the rows of `h`: row `h[src]` scaled by the edge's normalisation, scatter-added at `dst`. -/
def agg64 (h : Arr F ⟨S50000x64, .f32⟩) (e : Arr F ⟨S2x800000, .i32⟩) : Arr F ⟨S50000x64, .f32⟩ :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 (ends850000_1 e))
    (mulf (Host.gather gather_S50000x64_S850000x1_S850000x64_1_0_n_n_0_1_164 h (broadcastInDim S850000x1 ![0] bcast_S850000_S850000x1_0 (wrap850000 (ends850000_0 e))))
      (broadcastInDim S850000x64 ![0, 1] bcast_S850000x1_S850000x64_0_1 (broadcastInDim S850000x1 ![0] bcast_S850000_S850000x1_0 (norm850000 e))))

/-- Source (`row = 0`) or target (`row = 1`) node of every edge, the 1600000 given edges first and then the 50000 self loops `n → n`. -/
def ends1650000_0 (e : Arr F ⟨S2x1600000, .i32⟩) : Arr F ⟨S1650000, .i32⟩ :=
  concatenate S1650000 0 [⟨S1600000, shapeCast S1600000 (extractStridedSlice S1x1600000 ![0, 0] e slices_S2x1600000_S1x1600000_0_0) shapeCasts_S1x1600000_S1600000⟩, ⟨S50000, iotaInDim S50000 32 0⟩] concatenates_S1600000_S50000_S1650000_d0
def ends1650000_1 (e : Arr F ⟨S2x1600000, .i32⟩) : Arr F ⟨S1650000, .i32⟩ :=
  concatenate S1650000 0 [⟨S1600000, shapeCast S1600000 (extractStridedSlice S1x1600000 ![1, 0] e slices_S2x1600000_S1x1600000_1_0) shapeCasts_S1x1600000_S1600000⟩, ⟨S50000, iotaInDim S50000 32 0⟩] concatenates_S1600000_S50000_S1650000_d0

/-- A node index made non-negative the way `x[idx]` does: `idx + 50000` where `idx < 0`. -/
def wrap1650000 (i : Arr F ⟨S1650000, .i32⟩) : Arr F ⟨S1650000, .i32⟩ :=
  select (cmpi .slt i (broadcastInDim S1650000 ![] bcast_S_S1650000 (constantI S_ 32 0#32)))
    (addi i (broadcastInDim S1650000 ![] bcast_S_S1650000 (constantI S_ 32 50000#32))) i

/-- In-degree (self loop included) of every node: the scatter-add of ones at the edges' targets. -/
def deg1650000 (e : Arr F ⟨S2x1600000, .i32⟩) : Arr F ⟨S50000, .f32⟩ :=
  Host.scatterAdd scatter_S50000_S1650000x1_S1650000_n_0_0_1
    (broadcastInDim S50000 ![] bcast_S_S50000 (constant S_ .f32 0x00000000#32))
    (broadcastInDim S1650000x1 ![0] bcast_S1650000_S1650000x1_0 (ends1650000_1 e))
    (broadcastInDim S1650000 ![] bcast_S_S1650000 (constant S_ .f32 0x3F800000#32))

/-- `deg^(-1/2)` where the degree is positive, else 0. -/
def dis1650000 (e : Arr F ⟨S2x1600000, .i32⟩) : Arr F ⟨S50000, .f32⟩ :=
  select (cmpf .ogt (deg1650000 e) (broadcastInDim S50000 ![] bcast_S_S50000 (constant S_ .f32 0x00000000#32)))
    (Host.rsqrt (maximumf (deg1650000 e) (broadcastInDim S50000 ![] bcast_S_S50000 (constant S_ .f32 0x3F800000#32))))
    (broadcastInDim S50000 ![] bcast_S_S50000 (id (constant S_ .f32 0x00000000#32)))

/-- The symmetric normalisation of every edge: `dis[src] · dis[dst]`. -/
def norm1650000 (e : Arr F ⟨S2x1600000, .i32⟩) : Arr F ⟨S1650000, .f32⟩ :=
  mulf (Host.gather gather_S50000_S1650000x1_S1650000_n_0_n_n_0_1_1 (dis1650000 e) (broadcastInDim S1650000x1 ![0] bcast_S1650000_S1650000x1_0 (wrap1650000 (ends1650000_0 e))))
    (Host.gather gather_S50000_S1650000x1_S1650000_n_0_n_n_0_1_1 (dis1650000 e) (broadcastInDim S1650000x1 ![0] bcast_S1650000_S1650000x1_0 (wrap1650000 (ends1650000_1 e))))

/-- The graph aggregation of the rows of `h`: row `h[src]` scaled by the edge's normalisation, scatter-added at `dst`. -/
def agg128 (h : Arr F ⟨S50000x128, .f32⟩) (e : Arr F ⟨S2x1600000, .i32⟩) : Arr F ⟨S50000x128, .f32⟩ :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 (ends1650000_1 e))
    (mulf (Host.gather gather_S50000x128_S1650000x1_S1650000x128_1_0_n_n_0_1_1128 h (broadcastInDim S1650000x1 ![0] bcast_S1650000_S1650000x1_0 (wrap1650000 (ends1650000_0 e))))
      (broadcastInDim S1650000x128 ![0, 1] bcast_S1650000x1_S1650000x128_0_1 (broadcastInDim S1650000x1 ![0] bcast_S1650000_S1650000x1_0 (norm1650000 e))))

/-- Bias added, each row normalised to mean 0 and variance 1 (`ε` under the root), scaled by `g` and shifted by `b`. -/
def ln64 (a : Arr F ⟨S50000x64, .f32⟩) (bias g b : Arr F ⟨S64, .f32⟩) : Arr F ⟨S50000x64, .f32⟩ :=
  have z : Arr F ⟨S50000x64, .f32⟩ := addf a (broadcastInDim S50000x64 ![0, 1] bcast_S1x64_S50000x64_0_1 (broadcastInDim S1x64 ![1] bcast_S64_S1x64_1 bias))
  have mean : Arr F ⟨S50000x1, .f32⟩ := Host.divf (broadcastInDim S50000x1 ![0] bcast_S50000_S50000x1_0 (Host.reduceAdd z (constant S_ .f32 0x00000000#32) reducesTo_S50000x64_S50000_d1 h_S_))
    (broadcastInDim S50000x1 ![] bcast_S_S50000x1 (constant S_ .f32 0x42800000#32))
  have d : Arr F ⟨S50000x64, .f32⟩ := subf z (broadcastInDim S50000x64 ![0, 1] bcast_S50000x1_S50000x64_0_1 mean)
  have var : Arr F ⟨S50000x1, .f32⟩ := Host.divf (broadcastInDim S50000x1 ![0] bcast_S50000_S50000x1_0 (Host.reduceAdd (mulf d d) (constant S_ .f32 0x00000000#32) reducesTo_S50000x64_S50000_d1 h_S_))
    (broadcastInDim S50000x1 ![] bcast_S_S50000x1 (constant S_ .f32 0x42800000#32))
  have r : Arr F ⟨S50000x1, .f32⟩ := Host.rsqrt (addf var (broadcastInDim S50000x1 ![] bcast_S_S50000x1 (constant S_ .f32 0x3727C5AC#32)))
  addf (mulf (mulf (subf z (broadcastInDim S50000x64 ![0, 1] bcast_S50000x1_S50000x64_0_1 mean)) (broadcastInDim S50000x64 ![0, 1] bcast_S50000x1_S50000x64_0_1 r))
      (broadcastInDim S50000x64 ![0, 1] bcast_S1x64_S50000x64_0_1 (broadcastInDim S1x64 ![1] bcast_S64_S1x64_1 g)))
    (broadcastInDim S50000x64 ![0, 1] bcast_S1x64_S50000x64_0_1 (broadcastInDim S1x64 ![1] bcast_S64_S1x64_1 b))

/-- `elu`: `y` where `y > 0`, else `1 · expm1 y` (the exponential taken of 0 where `y > 0`). -/
def elu64 (y : Arr F ⟨S50000x64, .f32⟩) : Arr F ⟨S50000x64, .f32⟩ :=
  select (cmpf .ogt y (broadcastInDim S50000x64 ![] bcast_S_S50000x64 (constant S_ .f32 0x00000000#32))) y
    (mulf (broadcastInDim S50000x64 ![] bcast_S_S50000x64 (constant S_ .f32 0x3F800000#32))
      (Host.expm1 (select (cmpf .ogt y (broadcastInDim S50000x64 ![] bcast_S_S50000x64 (constant S_ .f32 0x00000000#32)))
        (broadcastInDim S50000x64 ![] bcast_S_S50000x64 (id (constant S_ .f32 0x00000000#32))) y)))

/-- One layer's normalisation and activation. -/
def lnelu64 (a : Arr F ⟨S50000x64, .f32⟩) (bias g b : Arr F ⟨S64, .f32⟩) : Arr F ⟨S50000x64, .f32⟩ := elu64 (ln64 a bias g b)

/-- Bias added, each row normalised to mean 0 and variance 1 (`ε` under the root), scaled by `g` and shifted by `b`. -/
def ln128 (a : Arr F ⟨S50000x128, .f32⟩) (bias g b : Arr F ⟨S128, .f32⟩) : Arr F ⟨S50000x128, .f32⟩ :=
  have z : Arr F ⟨S50000x128, .f32⟩ := addf a (broadcastInDim S50000x128 ![0, 1] bcast_S1x128_S50000x128_0_1 (broadcastInDim S1x128 ![1] bcast_S128_S1x128_1 bias))
  have mean : Arr F ⟨S50000x1, .f32⟩ := Host.divf (broadcastInDim S50000x1 ![0] bcast_S50000_S50000x1_0 (Host.reduceAdd z (constant S_ .f32 0x00000000#32) reducesTo_S50000x128_S50000_d1 h_S_))
    (broadcastInDim S50000x1 ![] bcast_S_S50000x1 (constant S_ .f32 0x43000000#32))
  have d : Arr F ⟨S50000x128, .f32⟩ := subf z (broadcastInDim S50000x128 ![0, 1] bcast_S50000x1_S50000x128_0_1 mean)
  have var : Arr F ⟨S50000x1, .f32⟩ := Host.divf (broadcastInDim S50000x1 ![0] bcast_S50000_S50000x1_0 (Host.reduceAdd (mulf d d) (constant S_ .f32 0x00000000#32) reducesTo_S50000x128_S50000_d1 h_S_))
    (broadcastInDim S50000x1 ![] bcast_S_S50000x1 (constant S_ .f32 0x43000000#32))
  have r : Arr F ⟨S50000x1, .f32⟩ := Host.rsqrt (addf var (broadcastInDim S50000x1 ![] bcast_S_S50000x1 (constant S_ .f32 0x3727C5AC#32)))
  addf (mulf (mulf (subf z (broadcastInDim S50000x128 ![0, 1] bcast_S50000x1_S50000x128_0_1 mean)) (broadcastInDim S50000x128 ![0, 1] bcast_S50000x1_S50000x128_0_1 r))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 b))

/-- `elu`: `y` where `y > 0`, else `1 · expm1 y` (the exponential taken of 0 where `y > 0`). -/
def elu128 (y : Arr F ⟨S50000x128, .f32⟩) : Arr F ⟨S50000x128, .f32⟩ :=
  select (cmpf .ogt y (broadcastInDim S50000x128 ![] bcast_S_S50000x128 (constant S_ .f32 0x00000000#32))) y
    (mulf (broadcastInDim S50000x128 ![] bcast_S_S50000x128 (constant S_ .f32 0x3F800000#32))
      (Host.expm1 (select (cmpf .ogt y (broadcastInDim S50000x128 ![] bcast_S_S50000x128 (constant S_ .f32 0x00000000#32)))
        (broadcastInDim S50000x128 ![] bcast_S_S50000x128 (id (constant S_ .f32 0x00000000#32))) y)))

/-- One layer's normalisation and activation. -/
def lnelu128 (a : Arr F ⟨S50000x128, .f32⟩) (bias g b : Arr F ⟨S128, .f32⟩) : Arr F ⟨S50000x128, .f32⟩ := elu128 (ln128 a bias g b)

/-- `h @ W_out + b_out`, still a column. -/
def outcol (h : Arr F ⟨S50000x128, .f32⟩) (w : Arr F ⟨S128x1, .f32⟩) (bo : Arr F ⟨S1, .f32⟩) : Arr F ⟨S50000x1, .f32⟩ :=
  addf (Host.dotGeneral dot_S50000x128_S128x1_S50000x1_1_0_0_1_n_n none h w)
    (broadcastInDim S50000x1 ![0, 1] bcast_S1x1_S50000x1_0_1 (broadcastInDim S1x1 ![1] bcast_S1_S1x1_1 bo))

/-- The column flattened to the result vector. -/
def flat (v : Arr F ⟨S50000x1, .f32⟩) : Arr F ⟨S50000, .f32⟩ := shapeCast S50000 v shapeCasts_S50000x1_S50000

/-- The whole network: two 64-channel graph layers, a 128-channel one over both edge lists, the output projection. -/
def Out (x : Arr F ⟨S50000x128, .f32⟩) (e1 e2 : Arr F ⟨S2x800000, .i32⟩) (xl : Arr F ⟨S50000x128, .f32⟩)
    (Wc : Arr F ⟨S128x64, .f32⟩) (bc gc bc' : Arr F ⟨S64, .f32⟩) (Wv : Arr F ⟨S256x64, .f32⟩) (bv gv bv' : Arr F ⟨S64, .f32⟩)
    (Wr : Arr F ⟨S128x128, .f32⟩) (br gr br' : Arr F ⟨S128, .f32⟩) (Wo : Arr F ⟨S128x1, .f32⟩) (bo : Arr F ⟨S1, .f32⟩) : Arr F ⟨S50000, .f32⟩ :=
  flat (outcol (lnelu128 (agg128 (dot2 (lnelu64 (agg64 (dot0 x Wc) e1) bc gc bc') (lnelu64 (agg64 (dot1 x xl Wv) e2) bv gv bv') Wr) (ecat e1 e2)) br gr br') Wo bo)

end Cert.ReferenceIdeal.RT

end
-- ==== Proof.KernelHost.lean ====
/-
  The host stretches of the kernel's @main between its regions, read as values: from any buffer contents `V` a stretch
  leaves its result buffer at the reference's own term of the buffers it reads (the graph aggregation at 64 and at 128
  channels, the two halves of a weight matrix, the flattening of the output column), and every buffer it does not write as
  it was. The kernel's program and the reference apply the same host operations here, so each value is the reference's
  term by unfolding; the shape facts the two programs state are propositions, equal whatever their proofs. For every
  float family.
-/
import proofs.«122206_j54812372631715_1_alg».proof.Proof.Gen.KernelIdeal.Launch
import proofs.«122206_j54812372631715_1_alg».proof.Proof.Gen.ReferenceIdeal
import proofs.«122206_j54812372631715_1_alg».proof.Proof.RefTerms
import Idealize.ShloMosaic.Lib.StableHlo.Run

noncomputable section

namespace Cert.KernelIdeal.KH

open Cert.KernelIdeal Cert.KernelIdeal.Gen
open Idealize.ShloMosaic Idealize.ShloMosaic.TcCoe Idealize.SL.Sem Idealize.ShloMosaic.StableHlo

variable {F : FTy → Type} [FloatOps F] (V : Valuation τ sig (Elt F))

/-! ## The first aggregation's three stretches -/

/-- The references those stretches write, in order. -/
abbrev writes1 : List (Ref sig .tc) :=
  [main_v1, main_v2, main_v3, main_v4, main_v5, main_v6, main_v7, main_cst, main_v8, main_cst_0, main_v9, main_v10, main_v11, main_cst_1, main_v12,
    main_v13, main_cst_2, main_v14, main_v15, main_v16, main_cst_3, main_call0_v0, main_call0_v1, main_v17, main_c, main_v18, main_v19, main_c_4,
    main_v20, main_v21, main_v22, main_v23, main_v24, main_c_5, main_v25, main_v26, main_c_6, main_v27, main_v28, main_v29, main_v30, main_v31, main_v32,
    main_c_7, main_v33, main_v34, main_c_8, main_v35, main_v36, main_v37, main_v38, main_v39, main_v40, main_v41, main_v42, main_cst_9, main_v43,
    main_v44, main_v45]

theorem hostOps1_writes : (hostOps1 : List (HloOp τ sig (Elt F))).Forall fun op => op.writes ⊆ (writes1.map (Proc.devRef (τ := τ) .tc)).toFinset := by
  simp only [hostOps1, List.Forall, nullary_writes, unary_writes, binary_writes, ternary_writes, quaternary_writes, reshape_writes,
    Finset.singleton_subset_iff, List.mem_toFinset]
  repeat' apply And.intro
  all_goals exact List.mem_map_of_mem (by decide)
theorem hostOps1_1_writes : (hostOps1_1 : List (HloOp τ sig (Elt F))).Forall fun op => op.writes ⊆ (writes1.map (Proc.devRef (τ := τ) .tc)).toFinset := by
  simp only [hostOps1_1, List.Forall, nullary_writes, unary_writes, binary_writes, ternary_writes, quaternary_writes, reshape_writes,
    Finset.singleton_subset_iff, List.mem_toFinset]
  repeat' apply And.intro
  all_goals exact List.mem_map_of_mem (by decide)
theorem hostOps1_2_writes : (hostOps1_2 : List (HloOp τ sig (Elt F))).Forall fun op => op.writes ⊆ (writes1.map (Proc.devRef (τ := τ) .tc)).toFinset := by
  simp only [hostOps1_2, List.Forall, nullary_writes, unary_writes, binary_writes, ternary_writes, quaternary_writes, reshape_writes,
    Finset.singleton_subset_iff, List.mem_toFinset]
  repeat' apply And.intro
  all_goals exact List.mem_map_of_mem (by decide)

set_option maxHeartbeats 2000000 in
/-- After them the aggregated array is the reference's `agg64` of the first product and the first edge list. -/
theorem agg1_val : after hostOps1_2 (after hostOps1_1 (after hostOps1 V)) (Proc.devRef .tc main_v45)
    = Cert.ReferenceIdeal.RT.agg64 (V (Proc.devRef .tc main_v0)) (V (Proc.devRef .tc main_arg1)) := by
  after_results_simp
  rfl
/-- A reference they do not write keeps its contents. -/
theorem agg1_keep {r : Ref sig .tc} (hr : r ∉ writes1) :
    after hostOps1_2 (after hostOps1_1 (after hostOps1 V)) (Proc.devRef .tc r) = V (Proc.devRef .tc r) :=
  (after_of_writes_sub hostOps1_2 _ hostOps1_2_writes hr).trans
    ((after_of_writes_sub hostOps1_1 _ hostOps1_1_writes hr).trans (after_of_writes_sub hostOps1 V hostOps1_writes hr))

/-! ## The two halves of `W_vendor` -/

theorem slc2_v47 : after hostOps2 V (Proc.devRef .tc main_v47)
    = extractStridedSlice S128x64 ![0, 0] (V (Proc.devRef .tc main_arg8)) slices_S256x64_S128x64_0_0 := by
  after_results
theorem slc2_v48 : after hostOps2 V (Proc.devRef .tc main_v48)
    = extractStridedSlice S128x64 ![128, 0] (V (Proc.devRef .tc main_arg8)) slices_S256x64_S128x64_128_0 := by
  after_results
theorem hostOps2_writes : (hostOps2 : List (HloOp τ sig (Elt F))).Forall fun op => op.writes ⊆ (([main_v47, main_v48] : List (Ref sig .tc)).map (Proc.devRef (τ := τ) .tc)).toFinset := by
  simp only [hostOps2, List.Forall, nullary_writes, unary_writes, binary_writes, ternary_writes, quaternary_writes, reshape_writes,
    Finset.singleton_subset_iff, List.mem_toFinset]
  repeat' apply And.intro
  all_goals exact List.mem_map_of_mem (by decide)
theorem slc2_keep {r : Ref sig .tc} (hr : r ∉ ([main_v47, main_v48] : List (Ref sig .tc))) :
    after hostOps2 V (Proc.devRef .tc r) = V (Proc.devRef .tc r) :=
  after_of_writes_sub hostOps2 V hostOps2_writes hr

/-! ## The second aggregation's three stretches -/

/-- The references those stretches write, in order. -/
abbrev writes3 : List (Ref sig .tc) :=
  [main_v50, main_v51, main_v52, main_v53, main_v54, main_v55, main_v56, main_cst_10, main_v57, main_cst_11, main_v58, main_v59, main_v60, main_cst_12,
    main_v61, main_v62, main_cst_13, main_v63, main_v64, main_v65, main_cst_14, main_call1_v0, main_call1_v1, main_v66, main_c_15, main_v67, main_v68,
    main_c_16, main_v69, main_v70, main_v71, main_v72, main_v73, main_c_17, main_v74, main_v75, main_c_18, main_v76, main_v77, main_v78, main_v79,
    main_v80, main_v81, main_c_19, main_v82, main_v83, main_c_20, main_v84, main_v85, main_v86, main_v87, main_v88, main_v89, main_v90, main_v91,
    main_cst_21, main_v92, main_v93, main_v94]

theorem hostOps3_writes : (hostOps3 : List (HloOp τ sig (Elt F))).Forall fun op => op.writes ⊆ (writes3.map (Proc.devRef (τ := τ) .tc)).toFinset := by
  simp only [hostOps3, List.Forall, nullary_writes, unary_writes, binary_writes, ternary_writes, quaternary_writes, reshape_writes,
    Finset.singleton_subset_iff, List.mem_toFinset]
  repeat' apply And.intro
  all_goals exact List.mem_map_of_mem (by decide)
theorem hostOps3_1_writes : (hostOps3_1 : List (HloOp τ sig (Elt F))).Forall fun op => op.writes ⊆ (writes3.map (Proc.devRef (τ := τ) .tc)).toFinset := by
  simp only [hostOps3_1, List.Forall, nullary_writes, unary_writes, binary_writes, ternary_writes, quaternary_writes, reshape_writes,
    Finset.singleton_subset_iff, List.mem_toFinset]
  repeat' apply And.intro
  all_goals exact List.mem_map_of_mem (by decide)
theorem hostOps3_2_writes : (hostOps3_2 : List (HloOp τ sig (Elt F))).Forall fun op => op.writes ⊆ (writes3.map (Proc.devRef (τ := τ) .tc)).toFinset := by
  simp only [hostOps3_2, List.Forall, nullary_writes, unary_writes, binary_writes, ternary_writes, quaternary_writes, reshape_writes,
    Finset.singleton_subset_iff, List.mem_toFinset]
  repeat' apply And.intro
  all_goals exact List.mem_map_of_mem (by decide)

set_option maxHeartbeats 2000000 in
/-- After them the aggregated array is the reference's `agg64` of the second product and the second edge list. -/
theorem agg3_val : after hostOps3_2 (after hostOps3_1 (after hostOps3 V)) (Proc.devRef .tc main_v94)
    = Cert.ReferenceIdeal.RT.agg64 (V (Proc.devRef .tc main_v49)) (V (Proc.devRef .tc main_arg2)) := by
  after_results_simp
  rfl
theorem agg3_keep {r : Ref sig .tc} (hr : r ∉ writes3) :
    after hostOps3_2 (after hostOps3_1 (after hostOps3 V)) (Proc.devRef .tc r) = V (Proc.devRef .tc r) :=
  (after_of_writes_sub hostOps3_2 _ hostOps3_2_writes hr).trans
    ((after_of_writes_sub hostOps3_1 _ hostOps3_1_writes hr).trans (after_of_writes_sub hostOps3 V hostOps3_writes hr))

/-! ## The two halves of `W_refine` -/

theorem slc4_v96 : after hostOps4 V (Proc.devRef .tc main_v96)
    = extractStridedSlice S64x128 ![0, 0] (V (Proc.devRef .tc main_arg12)) slices_S128x128_S64x128_0_0 := by
  after_results
theorem slc4_v97 : after hostOps4 V (Proc.devRef .tc main_v97)
    = extractStridedSlice S64x128 ![64, 0] (V (Proc.devRef .tc main_arg12)) slices_S128x128_S64x128_64_0 := by
  after_results
theorem hostOps4_writes : (hostOps4 : List (HloOp τ sig (Elt F))).Forall fun op => op.writes ⊆ (([main_v96, main_v97] : List (Ref sig .tc)).map (Proc.devRef (τ := τ) .tc)).toFinset := by
  simp only [hostOps4, List.Forall, nullary_writes, unary_writes, binary_writes, ternary_writes, quaternary_writes, reshape_writes,
    Finset.singleton_subset_iff, List.mem_toFinset]
  repeat' apply And.intro
  all_goals exact List.mem_map_of_mem (by decide)
theorem slc4_keep {r : Ref sig .tc} (hr : r ∉ ([main_v96, main_v97] : List (Ref sig .tc))) :
    after hostOps4 V (Proc.devRef .tc r) = V (Proc.devRef .tc r) :=
  after_of_writes_sub hostOps4 V hostOps4_writes hr

/-! ## The third aggregation's three stretches -/

/-- The references those stretches write, in order. -/
abbrev writes5 : List (Ref sig .tc) :=
  [main_v99, main_v100, main_v101, main_v102, main_v103, main_v104, main_v105, main_v106, main_cst_22, main_v107, main_cst_23, main_v108, main_v109,
    main_v110, main_cst_24, main_v111, main_v112, main_cst_25, main_v113, main_v114, main_v115, main_cst_26, main_call2_v0, main_call2_v1, main_v116,
    main_c_27, main_v117, main_v118, main_c_28, main_v119, main_v120, main_v121, main_v122, main_v123, main_c_29, main_v124, main_v125, main_c_30,
    main_v126, main_v127, main_v128, main_v129, main_v130, main_v131, main_c_31, main_v132, main_v133, main_c_32, main_v134, main_v135, main_v136,
    main_v137, main_v138, main_v139, main_v140, main_v141, main_cst_33, main_v142, main_v143, main_v144]

theorem hostOps5_writes : (hostOps5 : List (HloOp τ sig (Elt F))).Forall fun op => op.writes ⊆ (writes5.map (Proc.devRef (τ := τ) .tc)).toFinset := by
  simp only [hostOps5, List.Forall, nullary_writes, unary_writes, binary_writes, ternary_writes, quaternary_writes, reshape_writes,
    Finset.singleton_subset_iff, List.mem_toFinset]
  repeat' apply And.intro
  all_goals exact List.mem_map_of_mem (by decide)
theorem hostOps5_1_writes : (hostOps5_1 : List (HloOp τ sig (Elt F))).Forall fun op => op.writes ⊆ (writes5.map (Proc.devRef (τ := τ) .tc)).toFinset := by
  simp only [hostOps5_1, List.Forall, nullary_writes, unary_writes, binary_writes, ternary_writes, quaternary_writes, reshape_writes,
    Finset.singleton_subset_iff, List.mem_toFinset]
  repeat' apply And.intro
  all_goals exact List.mem_map_of_mem (by decide)
theorem hostOps5_2_writes : (hostOps5_2 : List (HloOp τ sig (Elt F))).Forall fun op => op.writes ⊆ (writes5.map (Proc.devRef (τ := τ) .tc)).toFinset := by
  simp only [hostOps5_2, List.Forall, nullary_writes, unary_writes, binary_writes, ternary_writes, quaternary_writes, reshape_writes,
    Finset.singleton_subset_iff, List.mem_toFinset]
  repeat' apply And.intro
  all_goals exact List.mem_map_of_mem (by decide)

set_option maxHeartbeats 2000000 in
/-- After them the aggregated array is the reference's `agg128` of the third product and the two edge lists side by side. -/
theorem agg5_val : after hostOps5_2 (after hostOps5_1 (after hostOps5 V)) (Proc.devRef .tc main_v144)
    = Cert.ReferenceIdeal.RT.agg128 (V (Proc.devRef .tc main_v98)) (Cert.ReferenceIdeal.RT.ecat (V (Proc.devRef .tc main_arg1)) (V (Proc.devRef .tc main_arg2))) := by
  after_results_simp
  rfl
theorem agg5_keep {r : Ref sig .tc} (hr : r ∉ writes5) :
    after hostOps5_2 (after hostOps5_1 (after hostOps5 V)) (Proc.devRef .tc r) = V (Proc.devRef .tc r) :=
  (after_of_writes_sub hostOps5_2 _ hostOps5_2_writes hr).trans
    ((after_of_writes_sub hostOps5_1 _ hostOps5_1_writes hr).trans (after_of_writes_sub hostOps5 V hostOps5_writes hr))

/-! ## The output column flattened -/

theorem flat6_val : after hostOps6 V (Proc.devRef .tc main_v146) = Cert.ReferenceIdeal.RT.flat (V (Proc.devRef .tc main_v145)) := by
  after_results
  rfl

end Cert.KernelIdeal.KH

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Final0.lean ====
/-
  Region 0 (`x @ W_corr` in ten row blocks of 5000): after the region the output array holds the reference's product of the
  whole arrays, index by index.
-/
import proofs.«122206_j54812372631715_1_alg».proof.Proof.Gen.KernelIdeal.Frame
import proofs.«122206_j54812372631715_1_alg».proof.Proof.Gen.ReferenceIdeal
import proofs.«122206_j54812372631715_1_alg».proof.Proof.RefTerms
import proofs.«122206_j54812372631715_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Final0

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-! ## The two products, entry by entry -/

/-- The block product at an entry: both operands change format, which is the identity on extended reals, and the
    product into the zero accumulator is the sum over the contracted coordinate. -/
theorem pay_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact RowDims.matmul_plain_zero_apply (M := 5000) (K := 128) (N := 64) none
    (truncf .bf16 x0 bitsLt_bf16_f32) (truncf .bf16 x1 bitsLt_bf16_f32) p q

/-- The reference's product of the whole arrays at an entry: the same sum over the contracted coordinate. -/
theorem ref_apply (x : Cert.ReferenceIdeal.RT.Arr Ideal ⟨Cert.ReferenceIdeal.S50000x128, .f32⟩)
    (w : Cert.ReferenceIdeal.RT.Arr Ideal ⟨Cert.ReferenceIdeal.S128x64, .f32⟩) (r : Fin 50000) (q : Fin 64) :
    Cert.ReferenceIdeal.RT.dot0 (F := Ideal) x w (ix2 r q) = ∑ k : Fin 128, x (ix2 r k) * w (ix2 k q) := by
  unfold Cert.ReferenceIdeal.RT.dot0
  exact RowDims.dotGeneral_plain_apply (M := 50000) (K := 128) (N := 64) none .single x w r q

/-- The block product of block `T` of the rows is the whole product's rows `T·5000 …`: entry by entry both are the sum
    of the 128 products of a row of `x` with a column of `W`, and the block holds exactly those rows. -/
theorem block_entry (X : Cert.ReferenceIdeal.RT.Arr Ideal ⟨Cert.ReferenceIdeal.S50000x128, .f32⟩)
    (W : Cert.ReferenceIdeal.RT.Arr Ideal ⟨Cert.ReferenceIdeal.S128x64, .f32⟩) (T : Nat) (hT : T < 10)
    (xb : Vec Ideal S5000x128 .f32) (wb : Vec Ideal S128x64 .f32)
    (hx : ∀ (p : Fin 5000) (k : Fin 128), xb (ix2 p k) = X (ix2 (⟨T * 5000 + p.val, by omega⟩ : Fin 50000) k))
    (hw : ∀ (k : Fin 128) (q : Fin 64), wb (ix2 k q) = W (ix2 k q)) (p : Fin 5000) (q : Fin 64) :
    k0_pay1 (F := Ideal) xb wb (ix2 p q)
      = Cert.ReferenceIdeal.RT.dot0 (F := Ideal) X W (ix2 (⟨T * 5000 + p.val, by omega⟩ : Fin 50000) q) := by
  rw [pay_apply, ref_apply]
  refine Finset.sum_congr rfl fun k _ => ?_
  rw [hx p k, hw k q]

/-! ## The windows' index maps over the grid -/

theorem hz : (![0, 0] : Fin 2 → Nat) = fun _ => 0 := funext fun a => by fin_cases a <;> rfl

/-- Decided over the ten points: the window on `x` moves down the rows with the output's window and stays at column
    block 0; the window on `W` is the whole array; the output's window stays at column block 0 and its row block is one
    of the ten. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

-- the TensorCore's buffer contents when the region is entered, at the ideal values
variable (V : (c : Dev nD) → (b : Ref sig .tc) → Buf (Elt Ideal) ((c : Thread nD τ).loc b))

/-! ## What a point writes back -/

/-- WHAT POINT `t` WRITES BACK is block `t` of the reference's product of the whole arrays as the region finds them. -/
theorem flushed_eq (c : Dev nD) (t : Fin cfg0.N) :
    (dat0 (F := Ideal) V c).flushed 2 t
      = ((cfg0.win 2).blk t).view.read (Elt Ideal) (Cert.ReferenceIdeal.RT.dot0 (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  -- entry (p, q) of the block the point writes is entry (T·5000 + p, q) of the array, T the point's row block
  have key : ∀ (p : Fin 5000) (q : Fin 64), k0_pay1 (F := Ideal) (iblk0 V c 0 t) (iblk0 V c 1 t) (ix2 p q)
      = Cert.ReferenceIdeal.RT.dot0 (V c main_arg0) (V c main_arg4) (((cfg0.win 2).blk t).view.emb (ix2 p q)) := by
    intro p q
    have hemb : ((cfg0.win 2).blk t).view.emb (ix2 p q)
        = ix2 (⟨win0_2.index t (0 : Fin 2) * 5000 + p.val, by omega⟩ : Fin 50000) q := by
      funext a; apply Fin.ext
      match a with
      | ⟨0, _⟩ => show win0_2.index t (0 : Fin 2) * 5000 + 1 * p.val = win0_2.index t (0 : Fin 2) * 5000 + p.val; omega
      | ⟨1, _⟩ => show win0_2.index t (1 : Fin 2) * 64 + 1 * q.val = q.val; omega
    rw [hemb]
    refine block_entry (V c main_arg0) (V c main_arg4) (win0_2.index t (0 : Fin 2)) (by omega) (iblk0 V c 0 t) (iblk0 V c 1 t) ?_ ?_ p q
    · -- the block of `x` holds rows T·5000 … of `x`
      intro p k
      show V c main_arg0 (((cfg0.win 0).blk t).view.emb (ix2 p k)) = _
      congr 1
      funext a; apply Fin.ext
      match a with
      | ⟨0, _⟩ => show win0_0.index t (0 : Fin 2) * 5000 + 1 * p.val = win0_2.index t (0 : Fin 2) * 5000 + p.val; omega
      | ⟨1, _⟩ => show win0_0.index t (1 : Fin 2) * 128 + 1 * k.val = k.val; omega
    · -- the block of `W` is all of `W`
      intro k q
      show V c main_arg4 (((cfg0.win 1).blk t).view.emb (ix2 k q)) = _
      congr 1
      funext a; apply Fin.ext
      match a with
      | ⟨0, _⟩ => show win0_1.index t (0 : Fin 2) * 128 + 1 * k.val = k.val; omega
      | ⟨1, _⟩ => show win0_1.index t (1 : Fin 2) * 64 + 1 * q.val = q.val; omega
  funext j
  show k0_pay1 (F := Ideal) (iblk0 V c 0 t) (iblk0 V c 1 t) j
      = Cert.ReferenceIdeal.RT.dot0 (V c main_arg0) (V c main_arg4) (((cfg0.win 2).blk t).view.emb j)
  have hj : j = ix2 (j 0) (j 1) := eq_ix2 (n0 := 5000) (n1 := 64) j
  rw [hj]
  exact key _ _

/-! ## The ten blocks tile the array -/

/-- An index of the array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- Row `r` of the array lies in the block of the point whose row block is `r / 5000`; that point writes back. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- THE ARRAY after region 0. -/
theorem final (c : Dev nD) :
    (dat0 (F := Ideal) V c).arrAt 2 cfg0.N = Cert.ReferenceIdeal.RT.dot0 (V c main_arg0) (V c main_arg4) :=
  (dat0 V c).arrAt_eq_of_cover 2 _ (fun t _ => flushed_eq V c t) cover

end Cert.KernelIdeal.Final0

end
-- ==== Proof.Final1.lean ====
/-
  Region 1 (bias, layer normalisation and `elu` of the first aggregation, in ten row blocks of 5000): after the region the
  output array holds the reference's `lnelu64` of the whole arrays, index by index.
-/
import proofs.«122206_j54812372631715_1_alg».proof.Proof.Gen.KernelIdeal.Frame
import proofs.«122206_j54812372631715_1_alg».proof.Proof.Gen.ReferenceIdeal
import proofs.«122206_j54812372631715_1_alg».proof.Proof.RefTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Final1

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered, at the ideal values
variable (V : (c : Dev nD) → (b : Ref sig .tc) → Buf (Elt Ideal) ((c : Thread nD τ).loc b))

/-! ## Layout operations read at an index: the column forms `[a] → [a, 1] → [a, b]` and the row forms `[b] → [1, b] → [a, b]` -/

variable {α : Type}

/-- A vector `[a]` cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- `broadcast_in_dim` of a vector `[b]` to the one-row matrix `[1, b]` (the vector along axis 1). -/
theorem bid_b_1b_apply {b : ℕ} (dims : Fin 1 → Fin 2) (hd : dims = ![1])
    (h : (⟨1, ![b]⟩ : Shape).BroadcastsInDim ⟨2, ![1, b]⟩ dims)
    (x : (⟨1, ![b]⟩ : Shape).Idx → α) (u : Fin 1) (q : Fin b) :
    broadcastInDim ⟨2, ![1, b]⟩ dims h x (ix2 u q) = x (ix1 q) := by
  subst hd
  refine broadcastInDim_apply _ h x (ix2 u q) (ix1 q) fun ax => ?_
  match ax with
  | ⟨0, _⟩ =>
    show q.val = if b = 1 then 0 else q.val
    split
    · have := q.isLt; omega
    · rfl

/-- `broadcast_in_dim` of the one-row matrix `[1, b]` to `[a, b]`: every row is the one row. -/
theorem bid_1b_ab_apply {a b : ℕ} (dims : Fin 2 → Fin 2) (hd : dims = ![0, 1])
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  subst hd
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- `broadcast_in_dim` of a vector `[a]` to the column `[a, 1]` (the vector along axis 0). -/
theorem bid_a_a1_apply {a : ℕ} (dims : Fin 1 → Fin 2) (hd : dims = ![0])
    (h : (⟨1, ![a]⟩ : Shape).BroadcastsInDim ⟨2, ![a, 1]⟩ dims)
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun ax => ?_
  match ax with
  | ⟨0, _⟩ =>
    show p.val = if a = 1 then 0 else p.val
    split
    · have := p.isLt; omega
    · rfl

/-- `broadcast_in_dim` of the column `[a, 1]` to `[a, b]`: row `p` is the column's entry `p` throughout. -/
theorem bid_a1_ab_apply {a b : ℕ} (dims : Fin 2 → Fin 2) (hd : dims = ![0, 1])
    (h : (⟨2, ![a, 1]⟩ : Shape).BroadcastsInDim ⟨2, ![a, b]⟩ dims)
    (x : (⟨2, ![a, 1]⟩ : Shape).Idx → α) (p : Fin a) (q : Fin b) :
    broadcastInDim ⟨2, ![a, b]⟩ dims h x (ix2 p q) = x (ix2 p (0 : Fin 1)) := by
  subst hd
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- `broadcast_in_dim` of a rank-zero tensor: its one element everywhere. -/
theorem bid_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun ax => ax.elim0

/-! ## Pointwise operations and the two row sums, read at an index -/

theorem rsqrt_apply {s : Shape} {φ : FTy} (x : FVec Ideal s φ) (i : s.Idx) : rsqrt x i = Ideal.rsqrt (x i) := rfl
theorem exp_apply {s : Shape} {φ : FTy} (x : FVec Ideal s φ) (i : s.Idx) : exp x i = Ideal.exp (x i) := rfl
theorem hostDivf_apply {s : Shape} {φ : FTy} (x y : FVec Ideal s φ) (i : s.Idx) : Host.divf x y i = Ideal.div (x i) (y i) := rfl
theorem hostRsqrt_apply {s : Shape} {φ : FTy} (x : FVec Ideal s φ) (i : s.Idx) : Host.rsqrt x i = Ideal.rsqrt (x i) := rfl
theorem hostExpm1_apply {s : Shape} {φ : FTy} (x : FVec Ideal s φ) (i : s.Idx) : Host.expm1 x i = Ideal.exp (x i) - 1 := rfl

/-- The kernel's sum of an `[a, b]` vector along axis 1: entry `p` is the sum of row `p`. -/
theorem rowSum_apply {a b : ℕ} (axes : List (Fin 2)) (hax : axes = [1]) (v : FVec Ideal (⟨2, ![a, b]⟩ : Shape) .f32)
    (h : (⟨2, ![a, b]⟩ : Shape).Reduces axes ⟨1, ![a]⟩)
    (hφ : FKind.Formats .f32) (hacc : (0x00000000#32 : BitVec 32) = 0x00000000#32) (p : Fin a) :
    multiReduction .add axes ⟨1, ![a]⟩ v 0x00000000#32 h hφ hacc (ix1 p) = ∑ k : Fin b, v (ix2 p k) := by
  subst hax
  refine (Ideal.multiReduction_add_single v _ h hφ hacc (ix1 p)).trans ?_
  refine Finset.sum_congr rfl fun k _ => congrArg v ?_
  funext c
  match c with
  | ⟨0, _⟩ => rfl
  | ⟨1, _⟩ => rfl

/-- The host's sum of an `[a, b]` array along axis 1 from the initial value `init`: entry `p` is `init` plus the sum of row `p`. -/
theorem hostRowSum_apply {a b : ℕ} (axes : List (Fin 2)) (hax : axes = [1]) (x : FVec Ideal (⟨2, ![a, b]⟩ : Shape) .f32)
    (init : (⟨0, ![]⟩ : Shape).Idx → Ideal .f32)
    (h' : (⟨2, ![a, b]⟩ : Shape).ReducesTo axes ⟨1, ![a]⟩) (hu : 0 < (⟨0, ![]⟩ : Shape).numel) (p : Fin a) :
    Host.reduceAdd (F := Ideal) x init h' hu (ix1 p) = init ix0 + ∑ k : Fin b, x (ix2 p k) := by
  subst hax
  have h : (⟨2, ![a, b]⟩ : Shape).Reduces [1] ⟨1, ![a]⟩ := ⟨h'.1, Nat.zero_lt_one, h'.2⟩
  show Ideal.hostReduceAdd h' x (init (Shape.Idx.first hu)) (ix1 p) = _
  rw [Ideal.hostReduceAdd_single h' h, eq_ix0 (Shape.Idx.first hu)]
  refine congrArg (init ix0 + ·) (Finset.sum_congr rfl fun k _ => congrArg x ?_)
  funext c
  match c with
  | ⟨0, _⟩ => rfl
  | ⟨1, _⟩ => rfl

/-! ## One row's layer normalisation and the two spellings of `elu` -/

/-- The normalisation of one row `z` (bias already added) at channel `q`: `(z q − mean) · rsqrt (var + ε) · g + b`, the mean and
    the variance over the 64 channels taken by dividing the sums by the word of `64.0`. -/
def lnRow (z : Fin 64 → EReal) (gq bq : EReal) (q : Fin 64) : EReal :=
  (z q - Ideal.div (∑ k, z k) (Ideal.ofBits .f32 0x42800000#32))
      * Ideal.rsqrt (Ideal.div (∑ k, (z k - Ideal.div (∑ k, z k) (Ideal.ofBits .f32 0x42800000#32))
                * (z k - Ideal.div (∑ k, z k) (Ideal.ofBits .f32 0x42800000#32))) (Ideal.ofBits .f32 0x42800000#32)
          + Ideal.ofBits .f32 0x3727C5AC#32)
      * gq + bq

/-- `elu` as the kernel spells it: `y` where `y > 0`, else `exp y − 1.0`. -/
def eluK (y : EReal) : EReal :=
  Scalar.select (FloatOps.cmpf (F := Ideal) (φ := .f32) .ogt y 0) y (Ideal.exp y - Ideal.ofBits .f32 0x3F800000#32)

/-- `elu` as the reference spells it: `y` where `y > 0`, else `1.0 · expm1` of `y` with `0` put where `y > 0`. -/
def eluR (y : EReal) : EReal :=
  Scalar.select (FloatOps.cmpf (F := Ideal) (φ := .f32) .ogt y 0) y
    (Ideal.ofBits .f32 0x3F800000#32 * (Ideal.exp (Scalar.select (FloatOps.cmpf (F := Ideal) (φ := .f32) .ogt y 0) 0 y) - 1))

/-- The word of `1.0` denotes `1`. -/
theorem ofBits_one : Ideal.ofBits .f32 0x3F800000#32 = 1 := by
  simp [Ideal.ofBits, Ideal.ieee, -EReal.coe_mul]; norm_num

/-- The two spellings agree: where `y > 0` both are `y`; elsewhere the inner selection is `y` and `1 · (exp y − 1) = exp y − 1`. -/
theorem eluR_eq (y : EReal) : eluR y = eluK y := by
  unfold eluR eluK
  rcases BitVec.eq_zero_or_eq_one (FloatOps.cmpf (F := Ideal) (φ := .f32) .ogt y 0) with h | h
  · rw [h, select_zero, select_zero, select_zero, ofBits_one, one_mul]
  · rw [h, select_one, select_one]

/-! ## The payload and the reference at an index -/

/-- The kernel's payload at `(p, q)` depends on row `p` of its block and on the three vectors only. -/
theorem pay_apply (x : Vec Ideal S5000x64 .f32) (bias g b : Vec Ideal S64 .f32) (p : Fin 5000) (q : Fin 64) :
    k1_pay1 x bias g b (ix2 p q) = eluK (lnRow (fun k => x (ix2 p k) + bias (ix1 k)) (g (ix1 q)) (b (ix1 q)) q) := by
  unfold k1_pay1
  simp only [select_apply, cmpf_apply, addf_apply, subf_apply, mulf_apply, divf_apply, broadcast_apply, rsqrt_apply, exp_apply,
    shapeCast_self, shapeCast_a_1a_apply, broadcastTo_1b_ab_apply, shapeCast_a_a1_apply, broadcastTo_a1_ab_apply, rowSum_apply,
    Ideal.ofBits_def, Ideal.ofBits_zero_f32]
  rfl

open Cert.ReferenceIdeal in
/-- The reference at `(r, q)` depends on row `r` of the aggregated array and on the three vectors only. -/
theorem ref_apply (X : RT.Arr Ideal ⟨Cert.ReferenceIdeal.S50000x64, .f32⟩) (bias g b : RT.Arr Ideal ⟨Cert.ReferenceIdeal.S64, .f32⟩)
    (r : Fin 50000) (q : Fin 64) :
    RT.lnelu64 X bias g b (ix2 r q) = eluR (lnRow (fun k => X (ix2 r k) + bias (ix1 k)) (g (ix1 q)) (b (ix1 q)) q) := by
  unfold RT.lnelu64 RT.elu64 RT.ln64
  simp only [select_apply, cmpf_apply, addf_apply, mulf_apply, subf_apply, hostDivf_apply, hostRsqrt_apply, hostExpm1_apply,
    constant_apply, id_eq, bid_b_1b_apply, bid_1b_ab_apply, bid_a_a1_apply, bid_a1_ab_apply, bid_scalar_apply, hostRowSum_apply,
    Ideal.ofBits_zero_f32, zero_add]
  rfl

open Cert.ReferenceIdeal in
/-- A block of 5000 rows starting at row `T · 5000`: the payload of the block is the reference of the whole array there. -/
theorem pay_eq (X : RT.Arr Ideal ⟨Cert.ReferenceIdeal.S50000x64, .f32⟩) (bias g b : RT.Arr Ideal ⟨Cert.ReferenceIdeal.S64, .f32⟩)
    (T : ℕ) (hT : T < 10) (xb : Vec Ideal S5000x64 .f32)
    (hx : ∀ (p : Fin 5000) (k : Fin 64), xb (ix2 p k) = X (ix2 (⟨T * 5000 + p.val, by omega⟩ : Fin 50000) k))
    (p : Fin 5000) (q : Fin 64) :
    k1_pay1 xb bias g b (ix2 p q) = RT.lnelu64 X bias g b (ix2 (⟨T * 5000 + p.val, by omega⟩ : Fin 50000) q) := by
  have hz : (fun k : Fin 64 => xb (ix2 p k) + bias (ix1 k))
      = (fun k : Fin 64 => X (ix2 (⟨T * 5000 + p.val, by omega⟩ : Fin 50000) k) + bias (ix1 k)) :=
    funext fun k => by rw [hx]
  rw [pay_apply, ref_apply, eluR_eq, hz]

/-! ## From the ten blocks to the array -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the input rows move with the output rows, the column block is always block 0, the three
    vectors are always their one block, and there are ten row blocks. -/
theorem idx_facts : ∀ t : Fin cfg1.N, win1_0.index t (0 : Fin 2) = win1_4.index t (0 : Fin 2)
    ∧ win1_0.index t (1 : Fin 2) = 0
    ∧ win1_4.index t (1 : Fin 2) = 0
    ∧ win1_1.index t (0 : Fin 1) = 0
    ∧ win1_2.index t (0 : Fin 1) = 0
    ∧ win1_3.index t (0 : Fin 1) = 0
    ∧ win1_4.index t (0 : Fin 2) ≤ 9 :=
  (by decide +kernel : ∀ t : Fin grid1.N, _)

/-- Every one of the ten row blocks is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- The bias vector's block at every point is the whole vector. -/
theorem blk_bias (c : Dev nD) (t : Fin cfg1.N) : iblk1 V c 1 t = V c main_arg5 := by
  obtain ⟨e0, e1, e2, e3, e4, e5, e6⟩ := idx_facts t
  funext y
  show V c main_arg5 (((cfg1.win 1).blk t).view.emb y) = V c main_arg5 y
  refine congrArg _ (funext fun a => Fin.ext ?_)
  match a with
  | ⟨0, _⟩ => show win1_1.index t (0 : Fin 1) * 64 + 1 * (y 0).val = (y 0).val; omega

/-- The gain vector's block at every point is the whole vector. -/
theorem blk_gain (c : Dev nD) (t : Fin cfg1.N) : iblk1 V c 2 t = V c main_arg6 := by
  obtain ⟨e0, e1, e2, e3, e4, e5, e6⟩ := idx_facts t
  funext y
  show V c main_arg6 (((cfg1.win 2).blk t).view.emb y) = V c main_arg6 y
  refine congrArg _ (funext fun a => Fin.ext ?_)
  match a with
  | ⟨0, _⟩ => show win1_2.index t (0 : Fin 1) * 64 + 1 * (y 0).val = (y 0).val; omega

/-- The shift vector's block at every point is the whole vector. -/
theorem blk_shift (c : Dev nD) (t : Fin cfg1.N) : iblk1 V c 3 t = V c main_arg7 := by
  obtain ⟨e0, e1, e2, e3, e4, e5, e6⟩ := idx_facts t
  funext y
  show V c main_arg7 (((cfg1.win 3).blk t).view.emb y) = V c main_arg7 y
  refine congrArg _ (funext fun a => Fin.ext ?_)
  match a with
  | ⟨0, _⟩ => show win1_3.index t (0 : Fin 1) * 64 + 1 * (y 0).val = (y 0).val; omega

/-- WHAT POINT `t` WRITES BACK is block `t` of the reference's `lnelu64` of the arrays as the region finds them. -/
theorem flushed_eq (c : Dev nD) (t : Fin cfg1.N) :
    (dat1 (F := Ideal) V c).flushed 4 t = ((cfg1.win 4).blk t).view.read (Elt Ideal)
      (Cert.ReferenceIdeal.RT.lnelu64 (V c main_v45) (V c main_arg5) (V c main_arg6) (V c main_arg7)) := by
  show (cfg1.win 4).cut (grid1.coords t) ((dat1 V c).after 4 t) = _
  rw [after1_4]
  unfold out1_4
  rw [View.canon_unit_zero hz2]
  simp only [View.ld_unit_zero (S := S5000x64) hz2, View.ld_unit_zero (S := S64) hz1]
  rw [blk_bias V c t, blk_gain V c t, blk_shift V c t]
  obtain ⟨e0, e1, e2, e3, e4, e5, e6⟩ := idx_facts t
  have hT : win1_4.index t (0 : Fin 2) < 10 := by omega
  funext j
  obtain ⟨p, q, rfl⟩ : ∃ (p : Fin 5000) (q : Fin 64), j = ix2 p q := ⟨j 0, j 1, eq_ix2 j⟩
  show k1_pay1 (iblk1 V c 0 t) (V c main_arg5) (V c main_arg6) (V c main_arg7) (ix2 p q)
    = Cert.ReferenceIdeal.RT.lnelu64 (V c main_v45) (V c main_arg5) (V c main_arg6) (V c main_arg7) (((cfg1.win 4).blk t).view.emb (ix2 p q))
  have hemb : ((cfg1.win 4).blk t).view.emb (ix2 p q)
      = ix2 (⟨win1_4.index t (0 : Fin 2) * 5000 + p.val, by omega⟩ : Fin 50000) q := by
    funext a; apply Fin.ext
    match a with
    | ⟨0, _⟩ => show win1_4.index t (0 : Fin 2) * 5000 + 1 * p.val = win1_4.index t (0 : Fin 2) * 5000 + p.val; omega
    | ⟨1, _⟩ => show win1_4.index t (1 : Fin 2) * 64 + 1 * q.val = q.val; omega
  refine (pay_eq (V c main_v45) (V c main_arg5) (V c main_arg6) (V c main_arg7) (win1_4.index t (0 : Fin 2)) hT
    (iblk1 V c 0 t) (fun p' k => ?_) p q).trans (congrArg _ hemb.symm)
  show V c main_v45 (((cfg1.win 0).blk t).view.emb (ix2 p' k)) = _
  refine congrArg _ (funext fun a => Fin.ext ?_)
  match a with
  | ⟨0, _⟩ => show win1_0.index t (0 : Fin 2) * 5000 + 1 * p'.val = win1_4.index t (0 : Fin 2) * 5000 + p'.val; omega
  | ⟨1, _⟩ => show win1_0.index t (1 : Fin 2) * 64 + 1 * k.val = k.val; omega

/-- An index of the array is in point `t`'s block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v46).slice (win1_4.rect t)).set ↔ _
  rw [View.set_slice_whole, Rect.mem_set_unit]
  exact Iff.rfl

/-- Row `r` lies in the block of the point whose row block is `r / 5000`. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE ARRAY after region 1. -/
theorem final (c : Dev nD) :
    (dat1 (F := Ideal) V c).arrAt 4 cfg1.N = Cert.ReferenceIdeal.RT.lnelu64 (V c main_v45) (V c main_arg5) (V c main_arg6) (V c main_arg7) :=
  (dat1 (F := Ideal) V c).arrAt_eq_of_cover 4 _ (fun t _ => flushed_eq V c t) (fun i => cover i)

end Cert.KernelIdeal.Final1

end
-- ==== Proof.Final2.lean ====
/-
  Region 2 (`x @ W_vendor[:128] + x_lagged @ W_vendor[128:]` in ten row blocks of 5000): after the region the output array
  holds the reference's product of the concatenated features with the whole weight matrix, index by index.
-/
import proofs.«122206_j54812372631715_1_alg».proof.Proof.Gen.KernelIdeal.Frame
import proofs.«122206_j54812372631715_1_alg».proof.Proof.Gen.ReferenceIdeal
import proofs.«122206_j54812372631715_1_alg».proof.Proof.RefTerms
import proofs.«122206_j54812372631715_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Final2

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.RowDims
open scoped BigOperators

/-! ## The two sides at an index -/

/-- The body's payload at `(p, q)`: the two 128-term row-by-column sums, added. The narrowing of the operands and the
    same-shape cast of the weights do not change an ideal value. -/
theorem pay_apply (x0 x1 : Vec Ideal S5000x128 .f32) (w0 w1 : Vec Ideal S128x64 .f32) (p : Fin 5000) (q : Fin 64) :
    k2_pay1 x0 w0 x1 w1 (ix2 p q)
      = (∑ k : Fin 128, x0 (ix2 p k) * w0 (ix2 k q)) + ∑ k : Fin 128, x1 (ix2 p k) * w1 (ix2 k q) := by
  unfold k2_pay1
  simp only [shapeCast_self]
  rw [addf_apply]
  show FloatOps.matmul (DotDims.plain 5000 128 64) none _ _ (constant ⟨2, ![5000, 64]⟩ .f32 0x00000000#32) (ix2 p q)
      + FloatOps.matmul (DotDims.plain 5000 128 64) none _ _ (constant ⟨2, ![5000, 64]⟩ .f32 0x00000000#32) (ix2 p q) = _
  rw [matmul_plain_zero_apply, matmul_plain_zero_apply]
  rfl

/-- A sum over the 256 contracted positions is the sum over the first 128 plus the sum over the last 128. -/
theorem sum_halves (f : Fin 256 → EReal) :
    ∑ k : Fin 256, f k = (∑ k : Fin 128, f ⟨k.val, by omega⟩) + ∑ k : Fin 128, f ⟨128 + k.val, by omega⟩ :=
  Fin.sum_univ_add (a := 128) (b := 128) f

/-- The reference's product at `(r, q)`: the concatenated row meets the first 128 rows of the weights through `x` and
    the last 128 through `x_lagged`. -/
theorem ref_apply (X Xl : (⟨2, ![50000, 128]⟩ : Shape).Idx → EReal) (Wv : (⟨2, ![256, 64]⟩ : Shape).Idx → EReal)
    (r : Fin 50000) (q : Fin 64) :
    Cert.ReferenceIdeal.RT.dot1 (F := Ideal) X Xl Wv (ix2 r q)
      = (∑ k : Fin 128, X (ix2 r k) * Wv (ix2 ⟨k.val, by omega⟩ q))
        + ∑ k : Fin 128, Xl (ix2 r k) * Wv (ix2 ⟨128 + k.val, by omega⟩ q) := by
  unfold Cert.ReferenceIdeal.RT.dot1
  refine (dotGeneral_plain_apply (φ₁ := .f32) (φ₂ := .f32) none .single _ Wv r q).trans ?_
  rw [sum_halves]
  congr 1
  · -- a position in the first half reads `x`
    refine Finset.sum_congr rfl fun k _ => ?_
    congr 1
    exact concatenate_pair_apply_left (t := ⟨2, ![50000, 256]⟩) (1 : Fin 2) X Xl _ (ix2 r ⟨k.val, by omega⟩) rfl (ix2 r k)
      (fun b => match b with | ⟨0, _⟩ => rfl | ⟨1, _⟩ => rfl)
  · -- a position in the second half reads `x_lagged`, 128 columns back
    refine Finset.sum_congr rfl fun k _ => ?_
    congr 1
    exact concatenate_pair_apply_right (t := ⟨2, ![50000, 256]⟩) (1 : Fin 2) X Xl _ (ix2 r ⟨128 + k.val, by omega⟩) rfl rfl (ix2 r k)
      (fun b hb => match b, hb with | ⟨0, _⟩, _ => rfl | ⟨1, _⟩, hb => absurd rfl hb)
      (show k.val + 128 = 128 + k.val by omega)

/-- Block `T` of the kernel against the reference: when the two row blocks hold rows `T·5000 …` of `x` and of
    `x_lagged`, and the two weight blocks hold rows `0 … 127` and `128 … 255` of the weights, the payload at `(p, q)`
    is the reference's product at `(T·5000 + p, q)`: the same two 128-term sums, added in the same order. -/
theorem point_eq (X Xl : (⟨2, ![50000, 128]⟩ : Shape).Idx → EReal) (Wv : (⟨2, ![256, 64]⟩ : Shape).Idx → EReal)
    (T : Nat) (hT : T < 10)
    (x0 x1 : Vec Ideal S5000x128 .f32) (w0 w1 : Vec Ideal S128x64 .f32)
    (hx0 : ∀ (p : Fin 5000) (k : Fin 128), x0 (ix2 p k) = X (ix2 ⟨T * 5000 + p.val, by omega⟩ k))
    (hw0 : ∀ (k : Fin 128) (q : Fin 64), w0 (ix2 k q) = Wv (ix2 ⟨k.val, by omega⟩ q))
    (hx1 : ∀ (p : Fin 5000) (k : Fin 128), x1 (ix2 p k) = Xl (ix2 ⟨T * 5000 + p.val, by omega⟩ k))
    (hw1 : ∀ (k : Fin 128) (q : Fin 64), w1 (ix2 k q) = Wv (ix2 ⟨128 + k.val, by omega⟩ q))
    (p : Fin 5000) (q : Fin 64) :
    k2_pay1 x0 w0 x1 w1 (ix2 p q)
      = Cert.ReferenceIdeal.RT.dot1 (F := Ideal) X Xl Wv (ix2 ⟨T * 5000 + p.val, by omega⟩ q) := by
  rw [ref_apply, pay_apply]
  simp only [hx0, hw0, hx1, hw1]

/-! ## The index maps, decided over the ten grid points -/

theorem hz : (![0, 0] : Fin 2 → Nat) = fun _ => 0 := funext fun a => by fin_cases a <;> rfl

/-- The two row-blocked inputs move with the output (block `(t, 0)`), the two weight blocks stay at `(0, 0)`, and the
    output's row-block number stays below ten. -/
theorem idx_facts : ∀ t : Fin cfg2.N,
    win2_0.index t (0 : Fin 2) = win2_4.index t (0 : Fin 2) ∧ win2_0.index t (1 : Fin 2) = 0
    ∧ win2_2.index t (0 : Fin 2) = win2_4.index t (0 : Fin 2) ∧ win2_2.index t (1 : Fin 2) = 0
    ∧ win2_1.index t (0 : Fin 2) = 0 ∧ win2_1.index t (1 : Fin 2) = 0
    ∧ win2_3.index t (0 : Fin 2) = 0 ∧ win2_3.index t (1 : Fin 2) = 0
    ∧ win2_4.index t (0 : Fin 2) < 10 ∧ win2_4.index t (1 : Fin 2) = 0 :=
  (by decide +kernel : ∀ t : Fin grid2.N, _)

/-- Every one of the ten row blocks of the output is some grid point's. -/
theorem idx_onto : ∀ q0 : Fin 10, ∃ t : Fin cfg2.N, win2_4.index t = ![q0.val, 0] :=
  (by decide +kernel : ∀ q0 : Fin 10, ∃ t : Fin grid2.N, win2_4.index t = ![q0.val, 0])

-- the TensorCore's buffer contents when the region is entered, at the ideal values
variable (V : (c : Dev nD) → (b : Ref sig .tc) → Buf (Elt Ideal) ((c : Thread nD τ).loc b))

/-! ## What a grid point writes back -/

/-- Point `t` writes back block `t` of the reference's product: its row blocks are rows `t·5000 …` of `x` and
    `x_lagged`, its weight blocks the two halves of the weights (the two slices), so `point_eq` applies entry by entry. -/
theorem flushed_eq (c : Dev nD) (Wv : Buf (Elt Ideal) ((c : Thread nD τ).loc main_arg8))
    (h47 : V c main_v47 = extractStridedSlice S128x64 ![0, 0] Wv slices_S256x64_S128x64_0_0)
    (h48 : V c main_v48 = extractStridedSlice S128x64 ![128, 0] Wv slices_S256x64_S128x64_128_0)
    (t : Fin cfg2.N) :
    (dat2 (F := Ideal) V c).flushed 4 t
      = ((cfg2.win 4).blk t).view.read (Elt Ideal)
          (Cert.ReferenceIdeal.RT.dot1 (V c main_arg0) (V c main_arg3) Wv) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x64) hz]
  obtain ⟨e00, e01, e20, e21, e10, e11, e30, e31, e4lt, e41⟩ := idx_facts t
  funext j
  -- an entry of the block by its two coordinates
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (iblk2 V c 3 t) (ix2 p q)
    = Cert.ReferenceIdeal.RT.dot1 (V c main_arg0) (V c main_arg3) Wv (((cfg2.win 4).blk t).view.emb (ix2 p q))
  refine (point_eq (V c main_arg0) (V c main_arg3) Wv (win2_4.index t (0 : Fin 2)) e4lt
    (iblk2 V c 0 t) (iblk2 V c 2 t) (iblk2 V c 1 t) (iblk2 V c 3 t) ?_ ?_ ?_ ?_ p q).trans ?_
  · -- the block of `x`: row `p` of the block is row `t·5000 + p` of the array
    intro p k
    have he : ((cfg2.win 0).blk t).view.emb (ix2 p k)
        = ix2 ⟨win2_4.index t (0 : Fin 2) * 5000 + p.val, by omega⟩ k := by
      funext a; apply Fin.ext
      match a with
      | ⟨0, _⟩ => show win2_0.index t (0 : Fin 2) * 5000 + 1 * p.val = win2_4.index t (0 : Fin 2) * 5000 + p.val; omega
      | ⟨1, _⟩ => show win2_0.index t (1 : Fin 2) * 128 + 1 * k.val = k.val; omega
    show V c main_arg0 (((cfg2.win 0).blk t).view.emb (ix2 p k)) = _
    rw [he]
  · -- the first weight block is the whole first slice: rows `0 … 127` of the weights
    intro k q
    have he : ((cfg2.win 1).blk t).view.emb (ix2 k q) = ix2 k q := by
      funext a; apply Fin.ext
      match a with
      | ⟨0, _⟩ => show win2_1.index t (0 : Fin 2) * 128 + 1 * k.val = k.val; omega
      | ⟨1, _⟩ => show win2_1.index t (1 : Fin 2) * 64 + 1 * q.val = q.val; omega
    show V c main_v47 (((cfg2.win 1).blk t).view.emb (ix2 k q)) = _
    rw [he, h47]
    exact slice2_axis0_apply 0 Wv _ k q ⟨k.val, by omega⟩ (Nat.zero_add _).symm
  · -- the block of `x_lagged`: the same rows
    intro p k
    have he : ((cfg2.win 2).blk t).view.emb (ix2 p k)
        = ix2 ⟨win2_4.index t (0 : Fin 2) * 5000 + p.val, by omega⟩ k := by
      funext a; apply Fin.ext
      match a with
      | ⟨0, _⟩ => show win2_2.index t (0 : Fin 2) * 5000 + 1 * p.val = win2_4.index t (0 : Fin 2) * 5000 + p.val; omega
      | ⟨1, _⟩ => show win2_2.index t (1 : Fin 2) * 128 + 1 * k.val = k.val; omega
    show V c main_arg3 (((cfg2.win 2).blk t).view.emb (ix2 p k)) = _
    rw [he]
  · -- the second weight block is the whole second slice: rows `128 … 255` of the weights
    intro k q
    have he : ((cfg2.win 3).blk t).view.emb (ix2 k q) = ix2 k q := by
      funext a; apply Fin.ext
      match a with
      | ⟨0, _⟩ => show win2_3.index t (0 : Fin 2) * 128 + 1 * k.val = k.val; omega
      | ⟨1, _⟩ => show win2_3.index t (1 : Fin 2) * 64 + 1 * q.val = q.val; omega
    show V c main_v48 (((cfg2.win 3).blk t).view.emb (ix2 k q)) = _
    rw [he, h48]
    exact slice2_axis0_apply 128 Wv _ k q ⟨128 + k.val, by omega⟩ rfl
  · -- the output block's entry `(p, q)` sits at row `t·5000 + p`, column `q` of the array
    refine congrArg (Cert.ReferenceIdeal.RT.dot1 (V c main_arg0) (V c main_arg3) Wv) ?_
    funext a; apply Fin.ext
    match a with
    | ⟨0, _⟩ => show win2_4.index t (0 : Fin 2) * 5000 + p.val = win2_4.index t (0 : Fin 2) * 5000 + 1 * p.val; omega
    | ⟨1, _⟩ => show q.val = win2_4.index t (1 : Fin 2) * 64 + 1 * q.val; omega

/-! ## The blocks cover the array -/

/-- An index of the array is in point `t`'s block iff each coordinate is in the block's range on its axis. -/
theorem mem_blk (t : Fin cfg2.N) (i : S50000x64.Idx) :
    i ∈ ((cfg2.win 4).blk t).view.set
      ↔ ∀ a : Fin 2, win2_4.index t a * S5000x64.size a ≤ (i a).val
          ∧ (i a).val < win2_4.index t a * S5000x64.size a + S5000x64.size a := by
  show i ∈ ((View.whole main_v49).slice (win2_4.rect t)).set ↔ _
  rw [View.set_slice_whole, Rect.mem_set_unit]
  exact Iff.rfl

/-- Row `r` lies in the block of the point whose row-block number is `r / 5000`. -/
theorem cover (i : S50000x64.Idx) :
    ∃ t : Fin cfg2.N, (cfg2.win 4).flush t = true ∧ i ∈ ((cfg2.win 4).blk t).view.set := by
  have hi0 : (i 0).val < 50000 := idx2_lt0 i
  have hi1 : (i 1).val < 64 := idx2_lt1 i
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 64 ≤ (i 1).val ∧ (i 1).val < win2_4.index t (1 : Fin 2) * 64 + 64
    omega

/-- THE ARRAY after region 2. -/
theorem final (c : Dev nD) (Wv : Buf (Elt Ideal) ((c : Thread nD τ).loc main_arg8))
    (h47 : V c main_v47 = extractStridedSlice S128x64 ![0, 0] Wv slices_S256x64_S128x64_0_0)
    (h48 : V c main_v48 = extractStridedSlice S128x64 ![128, 0] Wv slices_S256x64_S128x64_128_0) :
    (dat2 (F := Ideal) V c).arrAt 4 cfg2.N = Cert.ReferenceIdeal.RT.dot1 (V c main_arg0) (V c main_arg3) Wv :=
  (dat2 (F := Ideal) V c).arrAt_eq_of_cover 4 _ (fun t _ => flushed_eq V c Wv h47 h48 t) cover

end Cert.KernelIdeal.Final2

end
-- ==== Proof.Final3.lean ====
/-
  Region 3 (bias, layer normalisation and `elu` of the second aggregation, in ten row blocks of 5000): after the region the
  output array holds the reference's `lnelu64` of the whole arrays, index by index.
-/
import proofs.«122206_j54812372631715_1_alg».proof.Proof.Gen.KernelIdeal.Frame
import proofs.«122206_j54812372631715_1_alg».proof.Proof.Gen.ReferenceIdeal
import proofs.«122206_j54812372631715_1_alg».proof.Proof.RefTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Final3

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered, at the ideal values
variable (V : (c : Dev nD) → (b : Ref sig .tc) → Buf (Elt Ideal) ((c : Thread nD τ).loc b))

/-! ## Layout operations read at an index: the column forms `[a] → [a, 1] → [a, b]` and the row forms `[b] → [1, b] → [a, b]` -/

variable {α : Type}

/-- A vector `[a]` cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- `broadcast_in_dim` of a vector `[b]` to the one-row matrix `[1, b]` (the vector along axis 1). -/
theorem bid_b_1b_apply {b : ℕ} (dims : Fin 1 → Fin 2) (hd : dims = ![1])
    (h : (⟨1, ![b]⟩ : Shape).BroadcastsInDim ⟨2, ![1, b]⟩ dims)
    (x : (⟨1, ![b]⟩ : Shape).Idx → α) (u : Fin 1) (q : Fin b) :
    broadcastInDim ⟨2, ![1, b]⟩ dims h x (ix2 u q) = x (ix1 q) := by
  subst hd
  refine broadcastInDim_apply _ h x (ix2 u q) (ix1 q) fun ax => ?_
  match ax with
  | ⟨0, _⟩ =>
    show q.val = if b = 1 then 0 else q.val
    split
    · have := q.isLt; omega
    · rfl

/-- `broadcast_in_dim` of the one-row matrix `[1, b]` to `[a, b]`: every row is the one row. -/
theorem bid_1b_ab_apply {a b : ℕ} (dims : Fin 2 → Fin 2) (hd : dims = ![0, 1])
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  subst hd
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- `broadcast_in_dim` of a vector `[a]` to the column `[a, 1]` (the vector along axis 0). -/
theorem bid_a_a1_apply {a : ℕ} (dims : Fin 1 → Fin 2) (hd : dims = ![0])
    (h : (⟨1, ![a]⟩ : Shape).BroadcastsInDim ⟨2, ![a, 1]⟩ dims)
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun ax => ?_
  match ax with
  | ⟨0, _⟩ =>
    show p.val = if a = 1 then 0 else p.val
    split
    · have := p.isLt; omega
    · rfl

/-- `broadcast_in_dim` of the column `[a, 1]` to `[a, b]`: row `p` is the column's entry `p` throughout. -/
theorem bid_a1_ab_apply {a b : ℕ} (dims : Fin 2 → Fin 2) (hd : dims = ![0, 1])
    (h : (⟨2, ![a, 1]⟩ : Shape).BroadcastsInDim ⟨2, ![a, b]⟩ dims)
    (x : (⟨2, ![a, 1]⟩ : Shape).Idx → α) (p : Fin a) (q : Fin b) :
    broadcastInDim ⟨2, ![a, b]⟩ dims h x (ix2 p q) = x (ix2 p (0 : Fin 1)) := by
  subst hd
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- `broadcast_in_dim` of a rank-zero tensor: its one element everywhere. -/
theorem bid_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun ax => ax.elim0

/-! ## Pointwise operations and the two row sums, read at an index -/

theorem rsqrt_apply {s : Shape} {φ : FTy} (x : FVec Ideal s φ) (i : s.Idx) : rsqrt x i = Ideal.rsqrt (x i) := rfl
theorem exp_apply {s : Shape} {φ : FTy} (x : FVec Ideal s φ) (i : s.Idx) : exp x i = Ideal.exp (x i) := rfl
theorem hostDivf_apply {s : Shape} {φ : FTy} (x y : FVec Ideal s φ) (i : s.Idx) : Host.divf x y i = Ideal.div (x i) (y i) := rfl
theorem hostRsqrt_apply {s : Shape} {φ : FTy} (x : FVec Ideal s φ) (i : s.Idx) : Host.rsqrt x i = Ideal.rsqrt (x i) := rfl
theorem hostExpm1_apply {s : Shape} {φ : FTy} (x : FVec Ideal s φ) (i : s.Idx) : Host.expm1 x i = Ideal.exp (x i) - 1 := rfl

/-- The kernel's sum of an `[a, b]` vector along axis 1: entry `p` is the sum of row `p`. -/
theorem rowSum_apply {a b : ℕ} (axes : List (Fin 2)) (hax : axes = [1]) (v : FVec Ideal (⟨2, ![a, b]⟩ : Shape) .f32)
    (h : (⟨2, ![a, b]⟩ : Shape).Reduces axes ⟨1, ![a]⟩)
    (hφ : FKind.Formats .f32) (hacc : (0x00000000#32 : BitVec 32) = 0x00000000#32) (p : Fin a) :
    multiReduction .add axes ⟨1, ![a]⟩ v 0x00000000#32 h hφ hacc (ix1 p) = ∑ k : Fin b, v (ix2 p k) := by
  subst hax
  refine (Ideal.multiReduction_add_single v _ h hφ hacc (ix1 p)).trans ?_
  refine Finset.sum_congr rfl fun k _ => congrArg v ?_
  funext c
  match c with
  | ⟨0, _⟩ => rfl
  | ⟨1, _⟩ => rfl

/-- The host's sum of an `[a, b]` array along axis 1 from the initial value `init`: entry `p` is `init` plus the sum of row `p`. -/
theorem hostRowSum_apply {a b : ℕ} (axes : List (Fin 2)) (hax : axes = [1]) (x : FVec Ideal (⟨2, ![a, b]⟩ : Shape) .f32)
    (init : (⟨0, ![]⟩ : Shape).Idx → Ideal .f32)
    (h' : (⟨2, ![a, b]⟩ : Shape).ReducesTo axes ⟨1, ![a]⟩) (hu : 0 < (⟨0, ![]⟩ : Shape).numel) (p : Fin a) :
    Host.reduceAdd (F := Ideal) x init h' hu (ix1 p) = init ix0 + ∑ k : Fin b, x (ix2 p k) := by
  subst hax
  have h : (⟨2, ![a, b]⟩ : Shape).Reduces [1] ⟨1, ![a]⟩ := ⟨h'.1, Nat.zero_lt_one, h'.2⟩
  show Ideal.hostReduceAdd h' x (init (Shape.Idx.first hu)) (ix1 p) = _
  rw [Ideal.hostReduceAdd_single h' h, eq_ix0 (Shape.Idx.first hu)]
  refine congrArg (init ix0 + ·) (Finset.sum_congr rfl fun k _ => congrArg x ?_)
  funext c
  match c with
  | ⟨0, _⟩ => rfl
  | ⟨1, _⟩ => rfl

/-! ## One row's layer normalisation and the two spellings of `elu` -/

/-- The normalisation of one row `z` (bias already added) at channel `q`: `(z q − mean) · rsqrt (var + ε) · g + b`, the mean and
    the variance over the 64 channels taken by dividing the sums by the word of `64.0`. -/
def lnRow (z : Fin 64 → EReal) (gq bq : EReal) (q : Fin 64) : EReal :=
  (z q - Ideal.div (∑ k, z k) (Ideal.ofBits .f32 0x42800000#32))
      * Ideal.rsqrt (Ideal.div (∑ k, (z k - Ideal.div (∑ k, z k) (Ideal.ofBits .f32 0x42800000#32))
                * (z k - Ideal.div (∑ k, z k) (Ideal.ofBits .f32 0x42800000#32))) (Ideal.ofBits .f32 0x42800000#32)
          + Ideal.ofBits .f32 0x3727C5AC#32)
      * gq + bq

/-- `elu` as the kernel spells it: `y` where `y > 0`, else `exp y − 1.0`. -/
def eluK (y : EReal) : EReal :=
  Scalar.select (FloatOps.cmpf (F := Ideal) (φ := .f32) .ogt y 0) y (Ideal.exp y - Ideal.ofBits .f32 0x3F800000#32)

/-- `elu` as the reference spells it: `y` where `y > 0`, else `1.0 · expm1` of `y` with `0` put where `y > 0`. -/
def eluR (y : EReal) : EReal :=
  Scalar.select (FloatOps.cmpf (F := Ideal) (φ := .f32) .ogt y 0) y
    (Ideal.ofBits .f32 0x3F800000#32 * (Ideal.exp (Scalar.select (FloatOps.cmpf (F := Ideal) (φ := .f32) .ogt y 0) 0 y) - 1))

/-- The word of `1.0` denotes `1`. -/
theorem ofBits_one : Ideal.ofBits .f32 0x3F800000#32 = 1 := by
  simp [Ideal.ofBits, Ideal.ieee, -EReal.coe_mul]; norm_num

/-- The two spellings agree: where `y > 0` both are `y`; elsewhere the inner selection is `y` and `1 · (exp y − 1) = exp y − 1`. -/
theorem eluR_eq (y : EReal) : eluR y = eluK y := by
  unfold eluR eluK
  rcases BitVec.eq_zero_or_eq_one (FloatOps.cmpf (F := Ideal) (φ := .f32) .ogt y 0) with h | h
  · rw [h, select_zero, select_zero, select_zero, ofBits_one, one_mul]
  · rw [h, select_one, select_one]

/-! ## The payload and the reference at an index -/

/-- The kernel's payload at `(p, q)` depends on row `p` of its block and on the three vectors only. -/
theorem pay_apply (x : Vec Ideal S5000x64 .f32) (bias g b : Vec Ideal S64 .f32) (p : Fin 5000) (q : Fin 64) :
    k3_pay1 x bias g b (ix2 p q) = eluK (lnRow (fun k => x (ix2 p k) + bias (ix1 k)) (g (ix1 q)) (b (ix1 q)) q) := by
  unfold k3_pay1
  simp only [select_apply, cmpf_apply, addf_apply, subf_apply, mulf_apply, divf_apply, broadcast_apply, rsqrt_apply, exp_apply,
    shapeCast_self, shapeCast_a_1a_apply, broadcastTo_1b_ab_apply, shapeCast_a_a1_apply, broadcastTo_a1_ab_apply, rowSum_apply,
    Ideal.ofBits_def, Ideal.ofBits_zero_f32]
  rfl

open Cert.ReferenceIdeal in
/-- The reference at `(r, q)` depends on row `r` of the aggregated array and on the three vectors only. -/
theorem ref_apply (X : RT.Arr Ideal ⟨Cert.ReferenceIdeal.S50000x64, .f32⟩) (bias g b : RT.Arr Ideal ⟨Cert.ReferenceIdeal.S64, .f32⟩)
    (r : Fin 50000) (q : Fin 64) :
    RT.lnelu64 X bias g b (ix2 r q) = eluR (lnRow (fun k => X (ix2 r k) + bias (ix1 k)) (g (ix1 q)) (b (ix1 q)) q) := by
  unfold RT.lnelu64 RT.elu64 RT.ln64
  simp only [select_apply, cmpf_apply, addf_apply, mulf_apply, subf_apply, hostDivf_apply, hostRsqrt_apply, hostExpm1_apply,
    constant_apply, id_eq, bid_b_1b_apply, bid_1b_ab_apply, bid_a_a1_apply, bid_a1_ab_apply, bid_scalar_apply, hostRowSum_apply,
    Ideal.ofBits_zero_f32, zero_add]
  rfl

open Cert.ReferenceIdeal in
/-- A block of 5000 rows starting at row `T · 5000`: the payload of the block is the reference of the whole array there. -/
theorem pay_eq (X : RT.Arr Ideal ⟨Cert.ReferenceIdeal.S50000x64, .f32⟩) (bias g b : RT.Arr Ideal ⟨Cert.ReferenceIdeal.S64, .f32⟩)
    (T : ℕ) (hT : T < 10) (xb : Vec Ideal S5000x64 .f32)
    (hx : ∀ (p : Fin 5000) (k : Fin 64), xb (ix2 p k) = X (ix2 (⟨T * 5000 + p.val, by omega⟩ : Fin 50000) k))
    (p : Fin 5000) (q : Fin 64) :
    k3_pay1 xb bias g b (ix2 p q) = RT.lnelu64 X bias g b (ix2 (⟨T * 5000 + p.val, by omega⟩ : Fin 50000) q) := by
  have hz : (fun k : Fin 64 => xb (ix2 p k) + bias (ix1 k))
      = (fun k : Fin 64 => X (ix2 (⟨T * 5000 + p.val, by omega⟩ : Fin 50000) k) + bias (ix1 k)) :=
    funext fun k => by rw [hx]
  rw [pay_apply, ref_apply, eluR_eq, hz]

/-! ## From the ten blocks to the array -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the input rows move with the output rows, the column block is always block 0, the three
    vectors are always their one block, and there are ten row blocks. -/
theorem idx_facts : ∀ t : Fin cfg3.N, win3_0.index t (0 : Fin 2) = win3_4.index t (0 : Fin 2)
    ∧ win3_0.index t (1 : Fin 2) = 0
    ∧ win3_4.index t (1 : Fin 2) = 0
    ∧ win3_1.index t (0 : Fin 1) = 0
    ∧ win3_2.index t (0 : Fin 1) = 0
    ∧ win3_3.index t (0 : Fin 1) = 0
    ∧ win3_4.index t (0 : Fin 2) ≤ 9 :=
  (by decide +kernel : ∀ t : Fin grid3.N, _)

/-- Every one of the ten row blocks is some point's. -/
theorem idx_onto : ∀ q0 : Fin 10, ∃ t : Fin cfg3.N, win3_4.index t = ![q0.val, 0] :=
  (by decide +kernel : ∀ q0 : Fin 10, ∃ t : Fin grid3.N, win3_4.index t = ![q0.val, 0])

/-- The bias vector's block at every point is the whole vector. -/
theorem blk_bias (c : Dev nD) (t : Fin cfg3.N) : iblk3 V c 1 t = V c main_arg9 := by
  obtain ⟨e0, e1, e2, e3, e4, e5, e6⟩ := idx_facts t
  funext y
  show V c main_arg9 (((cfg3.win 1).blk t).view.emb y) = V c main_arg9 y
  refine congrArg _ (funext fun a => Fin.ext ?_)
  match a with
  | ⟨0, _⟩ => show win3_1.index t (0 : Fin 1) * 64 + 1 * (y 0).val = (y 0).val; omega

/-- The gain vector's block at every point is the whole vector. -/
theorem blk_gain (c : Dev nD) (t : Fin cfg3.N) : iblk3 V c 2 t = V c main_arg10 := by
  obtain ⟨e0, e1, e2, e3, e4, e5, e6⟩ := idx_facts t
  funext y
  show V c main_arg10 (((cfg3.win 2).blk t).view.emb y) = V c main_arg10 y
  refine congrArg _ (funext fun a => Fin.ext ?_)
  match a with
  | ⟨0, _⟩ => show win3_2.index t (0 : Fin 1) * 64 + 1 * (y 0).val = (y 0).val; omega

/-- The shift vector's block at every point is the whole vector. -/
theorem blk_shift (c : Dev nD) (t : Fin cfg3.N) : iblk3 V c 3 t = V c main_arg11 := by
  obtain ⟨e0, e1, e2, e3, e4, e5, e6⟩ := idx_facts t
  funext y
  show V c main_arg11 (((cfg3.win 3).blk t).view.emb y) = V c main_arg11 y
  refine congrArg _ (funext fun a => Fin.ext ?_)
  match a with
  | ⟨0, _⟩ => show win3_3.index t (0 : Fin 1) * 64 + 1 * (y 0).val = (y 0).val; omega

/-- WHAT POINT `t` WRITES BACK is block `t` of the reference's `lnelu64` of the arrays as the region finds them. -/
theorem flushed_eq (c : Dev nD) (t : Fin cfg3.N) :
    (dat3 (F := Ideal) V c).flushed 4 t = ((cfg3.win 4).blk t).view.read (Elt Ideal)
      (Cert.ReferenceIdeal.RT.lnelu64 (V c main_v94) (V c main_arg9) (V c main_arg10) (V c main_arg11)) := by
  show (cfg3.win 4).cut (grid3.coords t) ((dat3 V c).after 4 t) = _
  rw [after3_4]
  unfold out3_4
  rw [View.canon_unit_zero hz2]
  simp only [View.ld_unit_zero (S := S5000x64) hz2, View.ld_unit_zero (S := S64) hz1]
  rw [blk_bias V c t, blk_gain V c t, blk_shift V c t]
  obtain ⟨e0, e1, e2, e3, e4, e5, e6⟩ := idx_facts t
  have hT : win3_4.index t (0 : Fin 2) < 10 := by omega
  funext j
  obtain ⟨p, q, rfl⟩ : ∃ (p : Fin 5000) (q : Fin 64), j = ix2 p q := ⟨j 0, j 1, eq_ix2 j⟩
  show k3_pay1 (iblk3 V c 0 t) (V c main_arg9) (V c main_arg10) (V c main_arg11) (ix2 p q)
    = Cert.ReferenceIdeal.RT.lnelu64 (V c main_v94) (V c main_arg9) (V c main_arg10) (V c main_arg11) (((cfg3.win 4).blk t).view.emb (ix2 p q))
  have hemb : ((cfg3.win 4).blk t).view.emb (ix2 p q)
      = ix2 (⟨win3_4.index t (0 : Fin 2) * 5000 + p.val, by omega⟩ : Fin 50000) q := by
    funext a; apply Fin.ext
    match a with
    | ⟨0, _⟩ => show win3_4.index t (0 : Fin 2) * 5000 + 1 * p.val = win3_4.index t (0 : Fin 2) * 5000 + p.val; omega
    | ⟨1, _⟩ => show win3_4.index t (1 : Fin 2) * 64 + 1 * q.val = q.val; omega
  refine (pay_eq (V c main_v94) (V c main_arg9) (V c main_arg10) (V c main_arg11) (win3_4.index t (0 : Fin 2)) hT
    (iblk3 V c 0 t) (fun p' k => ?_) p q).trans (congrArg _ hemb.symm)
  show V c main_v94 (((cfg3.win 0).blk t).view.emb (ix2 p' k)) = _
  refine congrArg _ (funext fun a => Fin.ext ?_)
  match a with
  | ⟨0, _⟩ => show win3_0.index t (0 : Fin 2) * 5000 + 1 * p'.val = win3_4.index t (0 : Fin 2) * 5000 + p'.val; omega
  | ⟨1, _⟩ => show win3_0.index t (1 : Fin 2) * 64 + 1 * k.val = k.val; omega

/-- An index of the array is in point `t`'s block iff each coordinate is in the block's range on its axis. -/
theorem mem_blk (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v95).slice (win3_4.rect t)).set ↔ _
  rw [View.set_slice_whole, Rect.mem_set_unit]
  exact Iff.rfl

/-- Row `r` lies in the block of the point whose row block is `r / 5000`. -/
theorem cover (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- THE ARRAY after region 3. -/
theorem final (c : Dev nD) :
    (dat3 (F := Ideal) V c).arrAt 4 cfg3.N = Cert.ReferenceIdeal.RT.lnelu64 (V c main_v94) (V c main_arg9) (V c main_arg10) (V c main_arg11) :=
  (dat3 (F := Ideal) V c).arrAt_eq_of_cover 4 _ (fun t _ => flushed_eq V c t) (fun i => cover i)

end Cert.KernelIdeal.Final3

end
-- ==== Proof.Final4.lean ====
/-
  Region 4 (`h_corr @ W_refine[:64] + h_vendor @ W_refine[64:]` in ten row blocks of 5000): after the region the output array
  holds the reference's product of the concatenated hidden features with the whole weight matrix, index by index.
-/
import proofs.«122206_j54812372631715_1_alg».proof.Proof.Gen.KernelIdeal.Frame
import proofs.«122206_j54812372631715_1_alg».proof.Proof.Gen.ReferenceIdeal
import proofs.«122206_j54812372631715_1_alg».proof.Proof.RefTerms
import proofs.«122206_j54812372631715_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Final4

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.RowDims

/-! ## One block's product, entry by entry -/

/-- The block's contraction is the plain one: rows by the contracted axis, times the contracted axis by columns. -/
theorem dims_block : dot_S5000x64_S64x128_S5000x128_1_0_0_1_n_n = DotDims.plain 5000 64 128 := rfl

/-- The body's result at row `p`, column `q` of the block: the two 64-term row-by-column sums, added. The format changes
    and the same-shape casts are the identity at an index; each product into the zero accumulator is its sum. -/
theorem pay_apply (x0 : Vec Ideal S5000x64 .f32) (w0 : Vec Ideal S64x128 .f32) (x1 : Vec Ideal S5000x64 .f32)
    (w1 : Vec Ideal S64x128 .f32) (p : Fin 5000) (q : Fin 128) :
    k4_pay1 (F := Ideal) x0 w0 x1 w1 (ix2 p q)
      = (∑ k : Fin 64, x0 (ix2 p k) * w0 (ix2 k q)) + ∑ k : Fin 64, x1 (ix2 p k) * w1 (ix2 k q) := by
  unfold k4_pay1
  simp only [shapeCast_self]
  rw [addf_apply, dims_block]
  exact congrArg₂ (· + ·) (matmul_plain_zero_apply none _ _ p q) (matmul_plain_zero_apply none _ _ p q)

/-! ## The reference's product, entry by entry -/

/-- The reference's contraction is the plain one too, over all 50000 rows and the 128 concatenated columns. -/
theorem dims_whole :
    Cert.ReferenceIdeal.dot_S50000x128_S128x128_S50000x128_1_0_0_1_n_n = DotDims.plain 50000 128 128 := rfl

/-- A row of the first half of the weight matrix, as a row of the whole. -/
abbrev lo (k : Fin 64) : Fin 128 := ⟨k.val, Nat.lt_of_lt_of_le k.isLt (by decide)⟩
/-- A row of the second half of the weight matrix, as a row of the whole. -/
abbrev hi (k : Fin 64) : Fin 128 := ⟨64 + k.val, by have := k.isLt; omega⟩

/-- A sum over the 128 contracted positions is the sum over the first 64 plus the sum over the last 64. -/
theorem sum_halves (f : Fin 128 → EReal) : ∑ k : Fin 128, f k = (∑ k : Fin 64, f (lo k)) + ∑ k : Fin 64, f (hi k) :=
  Fin.sum_univ_add (M := EReal) (a := 64) (b := 64) f

/-- The concatenated features at a column of the first half read the first piece at that column. -/
theorem cat_lo (hc hv : Vec Ideal S50000x64 .f32) (h : Shape.Concatenates [S50000x64, S50000x64] S50000x128 1)
    (r : Fin 50000) (k : Fin 64) :
    concatenate S50000x128 1 [⟨S50000x64, hc⟩, ⟨S50000x64, hv⟩] h (ix2 r (lo k)) = hc (ix2 r k) := by
  refine concatenate_pair_apply_left 1 hc hv h _ rfl (ix2 r k) ?_
  intro b
  match b with
  | ⟨0, _⟩ => rfl
  | ⟨1, _⟩ => rfl

/-- The concatenated features at a column of the second half read the second piece at that column less 64. -/
theorem cat_hi (hc hv : Vec Ideal S50000x64 .f32) (h : Shape.Concatenates [S50000x64, S50000x64] S50000x128 1)
    (r : Fin 50000) (k : Fin 64) :
    concatenate S50000x128 1 [⟨S50000x64, hc⟩, ⟨S50000x64, hv⟩] h (ix2 r (hi k)) = hv (ix2 r k) := by
  refine concatenate_pair_apply_right 1 hc hv h _ rfl rfl (ix2 r k) ?_ ?_
  · intro b hb
    match b with
    | ⟨0, _⟩ => rfl
    | ⟨1, _⟩ => exact absurd rfl hb
  · show k.val + 64 = 64 + k.val
    omega

/-- The reference's entry at row `r`, column `q`: the 128-term sum over the concatenated features, cut at the seam into
    the first piece against the first 64 rows of the weights and the second piece against the last 64. -/
theorem ref_apply (hc hv : Vec Ideal S50000x64 .f32) (W : Vec Ideal S128x128 .f32) (r : Fin 50000) (q : Fin 128) :
    Cert.ReferenceIdeal.RT.dot2 (F := Ideal) hc hv W (ix2 r q)
      = (∑ k : Fin 64, hc (ix2 r k) * W (ix2 (lo k) q)) + ∑ k : Fin 64, hv (ix2 r k) * W (ix2 (hi k) q) := by
  unfold Cert.ReferenceIdeal.RT.dot2
  simp only [Host.dotGeneral]
  rw [dims_whole, dotGeneral_plain_apply, sum_halves]
  congr 1
  · exact Finset.sum_congr rfl fun k _ => by rw [cat_lo]
  · exact Finset.sum_congr rfl fun k _ => by rw [cat_hi]

/-! ## One block against the whole arrays -/

/-- The first 64 rows of the weight matrix, cut out as a slice, entry by entry. -/
theorem slice_lo (W : Vec Ideal S128x128 .f32) (h : S128x128.Slices ![0, 0] S64x128) (k : Fin 64) (q : Fin 128) :
    extractStridedSlice S64x128 ![0, 0] W h (ix2 k q) = W (ix2 (lo k) q) := by
  refine extractStridedSlice_apply _ W h _ _ ?_
  intro a
  match a with
  | ⟨0, _⟩ => show k.val = 0 + k.val; omega
  | ⟨1, _⟩ => show q.val = 0 + q.val; omega

/-- The last 64 rows of the weight matrix, cut out as a slice, entry by entry. -/
theorem slice_hi (W : Vec Ideal S128x128 .f32) (h : S128x128.Slices ![64, 0] S64x128) (k : Fin 64) (q : Fin 128) :
    extractStridedSlice S64x128 ![64, 0] W h (ix2 k q) = W (ix2 (hi k) q) := by
  refine extractStridedSlice_apply _ W h _ _ ?_
  intro a
  match a with
  | ⟨0, _⟩ => show 64 + k.val = 64 + k.val; rfl
  | ⟨1, _⟩ => show q.val = 0 + q.val; omega

/-- Row `p` of row block `T` (ten blocks of 5000 rows) as a row of the whole array. -/
abbrev rowOf (T : Nat) (hT : T ≤ 9) (p : Fin 5000) : Fin 50000 := ⟨T * 5000 + p.val, by have := p.isLt; omega⟩

/-- The body's result on block `T` IS block `T` of the reference's product: when the two feature blocks hold rows
    `5000 T …` of the two feature arrays and the two weight blocks hold the two halves of the weight matrix, entry
    `(p, q)` of the body's result is entry `(5000 T + p, q)` of the reference's. Both sides are the same two 64-term sums. -/
theorem block_entry (X0 X1 : Vec Ideal S50000x64 .f32) (W : Vec Ideal S128x128 .f32) (T : Nat) (hT : T ≤ 9)
    (xb0 : Vec Ideal S5000x64 .f32) (wb0 : Vec Ideal S64x128 .f32) (xb1 : Vec Ideal S5000x64 .f32) (wb1 : Vec Ideal S64x128 .f32)
    (hx0 : ∀ (p : Fin 5000) (k : Fin 64), xb0 (ix2 p k) = X0 (ix2 (rowOf T hT p) k))
    (hw0 : ∀ (k : Fin 64) (q : Fin 128), wb0 (ix2 k q) = W (ix2 (lo k) q))
    (hx1 : ∀ (p : Fin 5000) (k : Fin 64), xb1 (ix2 p k) = X1 (ix2 (rowOf T hT p) k))
    (hw1 : ∀ (k : Fin 64) (q : Fin 128), wb1 (ix2 k q) = W (ix2 (hi k) q))
    (p : Fin 5000) (q : Fin 128) :
    k4_pay1 (F := Ideal) xb0 wb0 xb1 wb1 (ix2 p q) = Cert.ReferenceIdeal.RT.dot2 (F := Ideal) X0 X1 W (ix2 (rowOf T hT p) q) := by
  rw [pay_apply, ref_apply]
  congr 1
  · exact Finset.sum_congr rfl fun k _ => by rw [hx0, hw0]
  · exact Finset.sum_congr rfl fun k _ => by rw [hx1, hw1]

/-! ## From the ten blocks to the array -/

-- the TensorCore's buffer contents when the region is entered, at the ideal values
variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the ten points: the two feature windows sit on the output's row block, in
    column block 0; the two weight windows stay at block (0, 0); the output's row block is one of the ten. -/
theorem idx_facts : ∀ t : Fin cfg4.N,
    win4_0.index t (0 : Fin 2) = win4_4.index t (0 : Fin 2) ∧ win4_0.index t (1 : Fin 2) = 0
    ∧ win4_2.index t (0 : Fin 2) = win4_4.index t (0 : Fin 2) ∧ win4_2.index t (1 : Fin 2) = 0
    ∧ win4_1.index t (0 : Fin 2) = 0 ∧ win4_1.index t (1 : Fin 2) = 0
    ∧ win4_3.index t (0 : Fin 2) = 0 ∧ win4_3.index t (1 : Fin 2) = 0
    ∧ win4_4.index t (0 : Fin 2) ≤ 9 ∧ win4_4.index t (1 : Fin 2) = 0 :=
  (by decide +kernel : ∀ t : Fin grid4.N, _)

/-- Every one of the ten row blocks is some point's. -/
theorem idx_onto : ∀ q0 : Fin 10, ∃ t : Fin cfg4.N, win4_4.index t = ![q0.val, 0] :=
  (by decide +kernel : ∀ q0 : Fin 10, ∃ t : Fin grid4.N, win4_4.index t = ![q0.val, 0])

/-- What point `t` writes back is its block of the reference's product of the arrays as the region finds them. -/
theorem flushed_eq (c : Dev nD) (Wr : Buf (Elt Ideal) ((c : Thread nD τ).loc main_arg12))
    (h96 : V c main_v96 = extractStridedSlice S64x128 ![0, 0] Wr slices_S128x128_S64x128_0_0)
    (h97 : V c main_v97 = extractStridedSlice S64x128 ![64, 0] Wr slices_S128x128_S64x128_64_0) (t : Fin cfg4.N) :
    (dat4 (F := Ideal) V c).flushed 4 t
      = ((cfg4.win 4).blk t).view.read (Elt Ideal) (Cert.ReferenceIdeal.RT.dot2 (V c main_v46) (V c main_v95) Wr) := by
  show (cfg4.win 4).cut (grid4.coords t) ((dat4 (F := Ideal) V c).after 4 t) = _
  rw [after4_4]
  unfold out4_4
  rw [View.canon_unit_zero origin]
  simp only [View.ld_unit_zero (S := S5000x64) origin, View.ld_unit_zero (S := S64x128) origin]
  obtain ⟨e00, e01, e20, e21, e10, e11, e30, e31, hT, e41⟩ := idx_facts t
  funext j
  obtain ⟨p, q, rfl⟩ : ∃ (p : Fin 5000) (q : Fin 128), j = ix2 p q := ⟨j 0, j 1, eq_ix2 j⟩
  -- the output entry under (p, q) of the block: row 5000 T + p, column q
  have hout : ((cfg4.win 4).blk t).view.emb (ix2 p q) = ix2 (rowOf (win4_4.index t (0 : Fin 2)) hT p) q := by
    funext a; apply Fin.ext
    match a with
    | ⟨0, _⟩ => show win4_4.index t (0 : Fin 2) * 5000 + 1 * p.val = win4_4.index t (0 : Fin 2) * 5000 + p.val; omega
    | ⟨1, _⟩ => show win4_4.index t (1 : Fin 2) * 128 + 1 * q.val = q.val; omega
  show k4_pay1 (F := Ideal) (iblk4 V c 0 t) (iblk4 V c 1 t) (iblk4 V c 2 t) (iblk4 V c 3 t) (ix2 p q)
    = Cert.ReferenceIdeal.RT.dot2 (V c main_v46) (V c main_v95) Wr (((cfg4.win 4).blk t).view.emb (ix2 p q))
  rw [hout]
  refine block_entry (V c main_v46) (V c main_v95) Wr (win4_4.index t (0 : Fin 2)) hT
    (iblk4 V c 0 t) (iblk4 V c 1 t) (iblk4 V c 2 t) (iblk4 V c 3 t) ?_ ?_ ?_ ?_ p q
  · -- the first feature block holds the output's rows of the first feature array
    intro p k
    show V c main_v46 (((cfg4.win 0).blk t).view.emb (ix2 p k)) = _
    refine congrArg _ ?_
    funext a; apply Fin.ext
    match a with
    | ⟨0, _⟩ => show win4_0.index t (0 : Fin 2) * 5000 + 1 * p.val = win4_4.index t (0 : Fin 2) * 5000 + p.val; omega
    | ⟨1, _⟩ => show win4_0.index t (1 : Fin 2) * 64 + 1 * k.val = k.val; omega
  · -- the first weight block holds the first 64 rows of the weight matrix
    intro k q
    show V c main_v96 (((cfg4.win 1).blk t).view.emb (ix2 k q)) = _
    rw [h96, ← slice_lo Wr slices_S128x128_S64x128_0_0 k q]
    refine congrArg _ ?_
    funext a; apply Fin.ext
    match a with
    | ⟨0, _⟩ => show win4_1.index t (0 : Fin 2) * 64 + 1 * k.val = k.val; omega
    | ⟨1, _⟩ => show win4_1.index t (1 : Fin 2) * 128 + 1 * q.val = q.val; omega
  · -- the second feature block holds the output's rows of the second feature array
    intro p k
    show V c main_v95 (((cfg4.win 2).blk t).view.emb (ix2 p k)) = _
    refine congrArg _ ?_
    funext a; apply Fin.ext
    match a with
    | ⟨0, _⟩ => show win4_2.index t (0 : Fin 2) * 5000 + 1 * p.val = win4_4.index t (0 : Fin 2) * 5000 + p.val; omega
    | ⟨1, _⟩ => show win4_2.index t (1 : Fin 2) * 64 + 1 * k.val = k.val; omega
  · -- the second weight block holds the last 64 rows of the weight matrix
    intro k q
    show V c main_v97 (((cfg4.win 3).blk t).view.emb (ix2 k q)) = _
    rw [h97, ← slice_hi Wr slices_S128x128_S64x128_64_0 k q]
    refine congrArg _ ?_
    funext a; apply Fin.ext
    match a with
    | ⟨0, _⟩ => show win4_3.index t (0 : Fin 2) * 64 + 1 * k.val = k.val; omega
    | ⟨1, _⟩ => show win4_3.index t (1 : Fin 2) * 128 + 1 * q.val = q.val; omega

/-- An index of the output array is in point `t`'s block iff each coordinate is in the block's range on its axis. -/
theorem mem_blk (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v98).slice (win4_4.rect t)).set ↔ _
  rw [View.set_slice_whole, Rect.mem_set_unit]
  exact Iff.rfl

/-- The ten blocks fill the array: row `r` lies in the block of the point whose row block is `r / 5000`. -/
theorem covered (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, ht⟩ := idx_onto ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [mem_blk]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 128 ≤ (i 1).val ∧ (i 1).val < win4_4.index t (1 : Fin 2) * 128 + 128
    omega

/-- THE ARRAY after region 4. -/
theorem final (c : Dev nD) (Wr : Buf (Elt Ideal) ((c : Thread nD τ).loc main_arg12))
    (h96 : V c main_v96 = extractStridedSlice S64x128 ![0, 0] Wr slices_S128x128_S64x128_0_0)
    (h97 : V c main_v97 = extractStridedSlice S64x128 ![64, 0] Wr slices_S128x128_S64x128_64_0) :
    (dat4 (F := Ideal) V c).arrAt 4 cfg4.N = Cert.ReferenceIdeal.RT.dot2 (V c main_v46) (V c main_v95) Wr :=
  (dat4 (F := Ideal) V c).arrAt_eq_of_cover 4 _ (fun t _ => flushed_eq V c Wr h96 h97 t) covered

end Cert.KernelIdeal.Final4

end
-- ==== Proof.Final5.lean ====
/-
  Region 5 (bias, layer normalisation, `elu` and the output projection of the third aggregation): after the region the
  output column holds the reference's `outcol (lnelu128 …)` of the whole arrays, index by index.
-/
import proofs.«122206_j54812372631715_1_alg».proof.Proof.Gen.KernelIdeal.Frame
import proofs.«122206_j54812372631715_1_alg».proof.Proof.Gen.ReferenceIdeal
import proofs.«122206_j54812372631715_1_alg».proof.Proof.RefTerms
import proofs.«122206_j54812372631715_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Final5

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## Layout operations of a column and of a row, read at an index -/

section Layout
variable {α : Type}

/-- A vector `[a]` cast to the column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, k)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along the row axis reads, at `(p, u)`, the vector at `p`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u) (dims 0)).val
    rw [hd]
    split
    · have := p.isLt; omega
    · rfl

/-- The host's `[a, 1] → [a, b]` along both axes reads, at `(p, k)`, the column at `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α) (p : Fin a) (k : Fin b) :
    broadcastInDim ⟨2, ![a, b]⟩ dims h v (ix2 p k) = v (ix2 p (0 : Fin 1)) := by
  refine broadcastInDim_apply dims h v (ix2 p k) (ix2 p (0 : Fin 1)) fun ax => ?_
  match ax with
  | ⟨0, _⟩ =>
    show p.val = if a = 1 then 0 else ((ix2 p k) (dims 0)).val
    rw [hd0]
    split
    · have := p.isLt; omega
    · rfl
  | ⟨1, _⟩ => rfl

/-- The host's `[b] → [1, b]` along the column axis reads, at `(u, k)`, the vector at `k`. -/
theorem broadcastInDim_b_1b_apply {b : ℕ} (dims : Fin 1 → Fin 2) (hd : dims 0 = 1)
    (h : (⟨1, ![b]⟩ : Shape).BroadcastsInDim ⟨2, ![1, b]⟩ dims) (x : (⟨1, ![b]⟩ : Shape).Idx → α) (u : Fin 1) (k : Fin b) :
    broadcastInDim ⟨2, ![1, b]⟩ dims h x (ix2 u k) = x (ix1 k) := by
  refine broadcastInDim_apply dims h x (ix2 u k) (ix1 k) fun ax => ?_
  match ax with
  | ⟨0, _⟩ =>
    show k.val = if b = 1 then 0 else ((ix2 u k) (dims 0)).val
    rw [hd]
    split
    · have := k.isLt; omega
    · rfl

/-- The host's `[1, b] → [a, b]` along both axes reads, at `(p, k)`, the one row at `k`. -/
theorem broadcastInDim_1b_ab_apply {a b : ℕ} (dims : Fin 2 → Fin 2) (hd0 : dims 0 = 0) (hd1 : dims 1 = 1)
    (h : (⟨2, ![1, b]⟩ : Shape).BroadcastsInDim ⟨2, ![a, b]⟩ dims) (v : (⟨2, ![1, b]⟩ : Shape).Idx → α) (p : Fin a) (k : Fin b) :
    broadcastInDim ⟨2, ![a, b]⟩ dims h v (ix2 p k) = v (ix2 (0 : Fin 1) k) := by
  refine broadcastInDim_apply dims h v (ix2 p k) (ix2 (0 : Fin 1) k) fun ax => ?_
  match ax with
  | ⟨0, _⟩ => rfl
  | ⟨1, _⟩ =>
    show k.val = if b = 1 then 0 else ((ix2 p k) (dims 1)).val
    rw [hd1]
    split
    · have := k.isLt; omega
    · rfl

/-- The host's broadcast of a scalar reads the scalar everywhere. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Layout

/-! ## One row of the result, as a function of that row of the input and of the parameters -/

/-- The mean of a row of 128 entries. -/
def rowMean (z : Fin 128 → EReal) : EReal := Ideal.div (∑ j, z j) (Ideal.ofBits .f32 0x43000000#32)

/-- The variance of a row: the mean of its squared deviations from the mean. -/
def rowVar (z : Fin 128 → EReal) : EReal :=
  Ideal.div (∑ j, (z j - rowMean z) * (z j - rowMean z)) (Ideal.ofBits .f32 0x43000000#32)

/-- A row normalised to mean 0 and variance 1 (`ε` under the root), scaled by `g` and shifted by `b`, at channel `k`. -/
def rowNorm (z g b : Fin 128 → EReal) (k : Fin 128) : EReal :=
  (z k - rowMean z) * Ideal.rsqrt (rowVar z + Ideal.ofBits .f32 0x3727C5AC#32) * g k + b k

/-- `elu`: `y` where `y > 0`, else `exp y − 1`. -/
def eluE (y : EReal) : EReal :=
  Scalar.select (FloatOps.cmpf (F := Ideal) (φ := .f32) .ogt y (Ideal.ofBits .f32 0x00000000#32)) y
    (Ideal.exp y - Ideal.ofBits .f32 0x3F800000#32)

/-- One entry of the output column: the row with the bias added, normalised, through `elu`, against the weight column,
    plus the output bias. -/
def outE (row bias g b w : Fin 128 → EReal) (bo : EReal) : EReal :=
  (∑ k, eluE (rowNorm (fun j => row j + bias j) g b k) * w k) + bo

/-- `outE` depends on its arguments' values only. -/
theorem outE_congr {row row' bias bias' g g' b b' w w' : Fin 128 → EReal} {bo bo' : EReal}
    (h0 : ∀ j, row j = row' j) (h1 : ∀ j, bias j = bias' j) (h2 : ∀ j, g j = g' j) (h3 : ∀ j, b j = b' j)
    (h4 : ∀ j, w j = w' j) (h5 : bo = bo') : outE row bias g b w bo = outE row' bias' g' b' w' bo' := by
  obtain rfl : row = row' := funext h0
  obtain rfl : bias = bias' := funext h1
  obtain rfl : g = g' := funext h2
  obtain rfl : b = b' := funext h3
  obtain rfl : w = w' := funext h4
  rw [h5]

/-- The word of `1.0` denotes `1`. -/
theorem ofBits_one : Ideal.ofBits .f32 0x3F800000#32 = 1 := by
  simp [Ideal.ofBits, Ideal.ieee, -EReal.coe_mul]; norm_num

/-! ## The kernel's payload at an index -/

/-- The vector unit's reciprocal square root, at an index. -/
theorem rsqrt_apply {s : Shape} {φ : FTy} (a : FVec Ideal s φ) (i : s.Idx) : rsqrt a i = Ideal.rsqrt (a i) := rfl
/-- The vector unit's exponential, at an index. -/
theorem exp_apply {s : Shape} {φ : FTy} (a : FVec Ideal s φ) (i : s.Idx) : exp a i = Ideal.exp (a i) := rfl

/-- The sum over the 128 channels of a block's row, kept as a column: at `(p, u)` the sum of row `p`. -/
theorem colsum_apply (y : FVec Ideal S5000x128 .f32) (h : S5000x128.Reduces [1] S5000)
    (hφ : FTy.f32 = FTy.f32 ∨ FTy.f32 = FTy.bf16) (hacc : (0x00000000#32 : BitVec FTy.f32.bits) = 0x00000000#32) (hsc : S5000.ShapeCasts S5000x1) (p : Fin 5000) (u : Fin 1) :
    shapeCast S5000x1 (multiReduction (F := Ideal) .add [1] S5000 y 0x00000000#32 h hφ hacc) hsc (ix2 p u)
      = ∑ j : Fin 128, y (ix2 p j) := by
  refine (shapeCast_a_a1_apply _ hsc p u).trans ?_
  refine (Ideal.multiReduction_add_single y 0x00000000#32 h hφ hacc (ix1 p)).trans ?_
  refine Finset.sum_congr rfl fun j _ => congrArg y ?_
  funext a; refine Fin.ext ?_
  match a with
  | ⟨0, _⟩ => rfl
  | ⟨1, _⟩ => rfl

/-- The payload of the block's one store, at row `p`: `outE` of row `p` of the block and of the parameter blocks. -/
theorem pay_apply (x0 : Vec Ideal S5000x128 .f32) (bias g b : Vec Ideal S128 .f32) (w : Vec Ideal S128x1 .f32) (bo : Vec Ideal S1 .f32)
    (p : Fin 5000) (q : Fin 1) :
    k5_pay1 (k5_pay2 x0 bias g b w) bo (ix2 p q)
      = outE (fun j => x0 (ix2 p j)) (fun j => bias (ix1 j)) (fun j => g (ix1 j)) (fun j => b (ix1 j))
          (fun k => w (ix2 k q)) (bo (ix1 (0 : Fin 1))) := by
  unfold k5_pay1 k5_pay2
  simp only [addf_apply]
  unfold outE
  refine congrArg₂ (· + ·) ?_ ?_
  · -- the product with the weight column: the sum over the channels
    refine (RowDims.matmul_plain_zero_apply none _ _ p q).trans ?_
    refine Finset.sum_congr rfl fun k _ => ?_
    refine congrArg₂ (· * ·) ?_ rfl
    -- every operation but the two row sums and the broadcasts is pointwise
    simp only [truncf_apply, select_apply, cmpf_apply, subf_apply, addf_apply, mulf_apply, divf_apply, broadcast_apply,
      exp_apply, rsqrt_apply, broadcastTo_a1_ab_apply, broadcastTo_1b_ab_apply, shapeCast_a_1a_apply, shapeCast_self]
    -- the sum of the squared deviations, then (inside it and beside it) the sum of the row
    rw [colsum_apply, colsum_apply]
    simp only [subf_apply, addf_apply, mulf_apply, divf_apply, broadcast_apply,
      broadcastTo_a1_ab_apply, broadcastTo_1b_ab_apply, shapeCast_a_1a_apply]
    rw [colsum_apply]
    simp only [addf_apply, broadcastTo_1b_ab_apply, shapeCast_a_1a_apply]
    rfl
  · -- the output bias, one number, on every row
    have hq : q = 0 := Subsingleton.elim _ _
    subst hq
    refine (broadcastTo_1b_ab_apply _ _ p 0).trans ?_
    exact shapeCast_a_1a_apply bo _ 0 0

/-! ## The reference's term at an index -/

section Reference
open Cert.ReferenceIdeal (RT.Arr)

/-- The host's sum over the 128 channels of a row, kept as a column: at `(r, u)` the sum of row `r`. -/
theorem hostsum_apply (y : FVec Ideal Cert.ReferenceIdeal.S50000x128 .f32)
    (h' : Cert.ReferenceIdeal.S50000x128.ReducesTo [1] Cert.ReferenceIdeal.S50000) (hu : 0 < Cert.ReferenceIdeal.S_.numel)
    (dims : Fin 1 → Fin 2) (hd : dims 0 = 0)
    (hb : Cert.ReferenceIdeal.S50000.BroadcastsInDim Cert.ReferenceIdeal.S50000x1 dims) (r : Fin 50000) (u : Fin 1) :
    broadcastInDim Cert.ReferenceIdeal.S50000x1 dims hb
        (Host.reduceAdd (F := Ideal) y (constant Cert.ReferenceIdeal.S_ .f32 0x00000000#32) h' hu) (ix2 r u)
      = ∑ j : Fin 128, y (ix2 r j) := by
  refine (broadcastInDim_a_a1_apply dims hd hb _ r u).trans ?_
  have hred : Cert.ReferenceIdeal.S50000x128.Reduces [1] Cert.ReferenceIdeal.S50000 := by decide
  show Ideal.hostReduceAdd h' y (Ideal.ofBits .f32 0x00000000#32) (ix1 r) = _
  rw [Ideal.hostReduceAdd_single h' hred y _ (ix1 r), Ideal.ofBits_zero_f32, zero_add]
  refine Finset.sum_congr rfl fun j _ => congrArg y ?_
  funext a; refine Fin.ext ?_
  match a with
  | ⟨0, _⟩ => rfl
  | ⟨1, _⟩ => rfl

/-- The reference's `elu` at an index is `eluE` of the entry: where the entry is positive both are the entry; elsewhere
    the reference's `1 · expm1 y` is `exp y − 1`. -/
theorem elu_apply (y : RT.Arr Ideal ⟨Cert.ReferenceIdeal.S50000x128, .f32⟩) (r : Fin 50000) (k : Fin 128) :
    Cert.ReferenceIdeal.RT.elu128 y (ix2 r k) = eluE (y (ix2 r k)) := by
  unfold Cert.ReferenceIdeal.RT.elu128 Host.expm1 eluE
  simp only [select_apply, cmpf_apply, mulf_apply, broadcastInDim_scalar_apply, constant_apply, id]
  by_cases hc : FloatOps.cmpf (F := Ideal) (φ := .f32) .ogt (y (ix2 r k)) (Ideal.ofBits .f32 0x00000000#32) = 1#1
  · rw [hc]; simp only [select_one]
  · rw [eq_zero_of_ne_one hc]
    simp only [select_zero, Ideal.hostUnary_expm1_def, ofBits_one, one_mul]

/-- The reference's normalisation at an index: `rowNorm` of the row with the bias added. -/
theorem ln_apply (a : RT.Arr Ideal ⟨Cert.ReferenceIdeal.S50000x128, .f32⟩) (bias g b : RT.Arr Ideal ⟨Cert.ReferenceIdeal.S128, .f32⟩)
    (r : Fin 50000) (k : Fin 128) :
    Cert.ReferenceIdeal.RT.ln128 a bias g b (ix2 r k)
      = rowNorm (fun j => a (ix2 r j) + bias (ix1 j)) (fun j => g (ix1 j)) (fun j => b (ix1 j)) k := by
  unfold Cert.ReferenceIdeal.RT.ln128 Host.divf Host.rsqrt
  simp only [addf_apply, mulf_apply, subf_apply, broadcastInDim_scalar_apply, constant_apply,
    broadcastInDim_a1_ab_apply ![0, 1] rfl rfl, broadcastInDim_1b_ab_apply ![0, 1] rfl rfl, broadcastInDim_b_1b_apply ![1] rfl,
    hostsum_apply _ _ _ ![0] rfl]
  rfl

/-- The reference's output column at an index: `outE` of that row of the input and of the parameters. -/
theorem ref_apply (a : RT.Arr Ideal ⟨Cert.ReferenceIdeal.S50000x128, .f32⟩) (bias g b : RT.Arr Ideal ⟨Cert.ReferenceIdeal.S128, .f32⟩)
    (w : RT.Arr Ideal ⟨Cert.ReferenceIdeal.S128x1, .f32⟩) (bo : RT.Arr Ideal ⟨Cert.ReferenceIdeal.S1, .f32⟩) (r : Fin 50000) (q : Fin 1) :
    Cert.ReferenceIdeal.RT.outcol (Cert.ReferenceIdeal.RT.lnelu128 a bias g b) w bo (ix2 r q)
      = outE (fun j => a (ix2 r j)) (fun j => bias (ix1 j)) (fun j => g (ix1 j)) (fun j => b (ix1 j))
          (fun k => w (ix2 k q)) (bo (ix1 (0 : Fin 1))) := by
  unfold Cert.ReferenceIdeal.RT.outcol Cert.ReferenceIdeal.RT.lnelu128
  simp only [addf_apply]
  unfold outE
  refine congrArg₂ (· + ·) ?_ ?_
  · -- the product with the weight column: the sum over the channels
    refine (RowDims.dotGeneral_plain_apply none .single _ _ r q).trans ?_
    refine Finset.sum_congr rfl fun k _ => ?_
    refine congrArg₂ (· * ·) ?_ rfl
    rw [elu_apply, ln_apply]
  · -- the output bias, one number, on every row
    have hq : q = 0 := Subsingleton.elim _ _
    subst hq
    refine (broadcastInDim_1b_ab_apply _ rfl rfl _ _ r 0).trans ?_
    exact broadcastInDim_b_1b_apply _ rfl _ bo 0 0

end Reference

/-! ## From the blocks to the array -/

-- the TensorCore's buffer contents when the region is entered, at the ideal values
variable (V : (c : Dev nD) → (b : Ref sig .tc) → Buf (Elt Ideal) ((c : Thread nD τ).loc b))

/-- The two zero offsets of a whole-block access of rank 2, and the one of rank 1. -/
theorem zero2 : (![0, 0] : Fin 2 → Nat) = fun _ => 0 := funext fun a => by fin_cases a <;> rfl
theorem zero1 : (![0] : Fin 1 → Nat) = fun _ => 0 := funext fun a => by fin_cases a <;> rfl

/-- The index maps, decided over the ten points: the input rows move with the output rows, block by block; every
    parameter is one whole block; the output's row-block index stays below ten. -/
theorem index_maps : ∀ t : Fin cfg5.N,
      win5_0.index t (0 : Fin 2) = win5_6.index t (0 : Fin 2)
    ∧ win5_0.index t (1 : Fin 2) = 0
    ∧ win5_1.index t (0 : Fin 1) = 0
    ∧ win5_2.index t (0 : Fin 1) = 0
    ∧ win5_3.index t (0 : Fin 1) = 0
    ∧ win5_4.index t (0 : Fin 2) = 0
    ∧ win5_4.index t (1 : Fin 2) = 0
    ∧ win5_5.index t (0 : Fin 1) = 0
    ∧ win5_6.index t (0 : Fin 2) ≤ 9
    ∧ win5_6.index t (1 : Fin 2) = 0 :=
  (by decide +kernel : ∀ t : Fin grid5.N, _)

/-- Every one of the ten row blocks of the output is some point's. -/
theorem row_blocks_onto : ∀ q0 : Fin 10, ∃ t : Fin cfg5.N, win5_6.index t = ![q0.val, 0] :=
  (by decide +kernel : ∀ q0 : Fin 10, ∃ t : Fin grid5.N, win5_6.index t = ![q0.val, 0])

/-- Row `p` of the input block at point `t` is row `5000 · (the output's block index) + p` of the input array. -/
theorem input_block_apply (c : Dev nD) (t : Fin cfg5.N) (p : Fin 5000) (j : Fin 128)
    (hr : win5_6.index t (0 : Fin 2) * 5000 + p.val < 50000) :
    iblk5 V c 0 t (ix2 p j) = V c main_v144 (ix2 (⟨win5_6.index t (0 : Fin 2) * 5000 + p.val, hr⟩ : Fin 50000) j) := by
  obtain ⟨e0, e1, -⟩ := index_maps t
  show V c main_v144 (((cfg5.win 0).blk t).view.emb (ix2 p j)) = _
  refine congrArg (V c main_v144) ?_
  funext a; apply Fin.ext
  match a with
  | ⟨0, _⟩ => show win5_0.index t (0 : Fin 2) * 5000 + 1 * p.val = win5_6.index t (0 : Fin 2) * 5000 + p.val; omega
  | ⟨1, _⟩ => show win5_0.index t (1 : Fin 2) * 128 + 1 * j.val = j.val; omega

/-- The bias block is the bias array. -/
theorem bias_block_apply (c : Dev nD) (t : Fin cfg5.N) (j : Fin 128) : iblk5 V c 1 t (ix1 j) = V c main_arg13 (ix1 j) := by
  obtain ⟨-, -, e2, -⟩ := index_maps t
  show V c main_arg13 (((cfg5.win 1).blk t).view.emb (ix1 j)) = _
  refine congrArg (V c main_arg13) ?_
  funext a; apply Fin.ext
  match a with
  | ⟨0, _⟩ => show win5_1.index t (0 : Fin 1) * 128 + 1 * j.val = j.val; omega

/-- The scale block is the scale array. -/
theorem scale_block_apply (c : Dev nD) (t : Fin cfg5.N) (j : Fin 128) : iblk5 V c 2 t (ix1 j) = V c main_arg14 (ix1 j) := by
  obtain ⟨-, -, -, e3, -⟩ := index_maps t
  show V c main_arg14 (((cfg5.win 2).blk t).view.emb (ix1 j)) = _
  refine congrArg (V c main_arg14) ?_
  funext a; apply Fin.ext
  match a with
  | ⟨0, _⟩ => show win5_2.index t (0 : Fin 1) * 128 + 1 * j.val = j.val; omega

/-- The shift block is the shift array. -/
theorem shift_block_apply (c : Dev nD) (t : Fin cfg5.N) (j : Fin 128) : iblk5 V c 3 t (ix1 j) = V c main_arg15 (ix1 j) := by
  obtain ⟨-, -, -, -, e4, -⟩ := index_maps t
  show V c main_arg15 (((cfg5.win 3).blk t).view.emb (ix1 j)) = _
  refine congrArg (V c main_arg15) ?_
  funext a; apply Fin.ext
  match a with
  | ⟨0, _⟩ => show win5_3.index t (0 : Fin 1) * 128 + 1 * j.val = j.val; omega

/-- The weight block is the weight column. -/
theorem weight_block_apply (c : Dev nD) (t : Fin cfg5.N) (k : Fin 128) (q : Fin 1) :
    iblk5 V c 4 t (ix2 k q) = V c main_arg16 (ix2 k q) := by
  obtain ⟨-, -, -, -, -, e5, e6, -⟩ := index_maps t
  show V c main_arg16 (((cfg5.win 4).blk t).view.emb (ix2 k q)) = _
  refine congrArg (V c main_arg16) ?_
  funext a; apply Fin.ext
  match a with
  | ⟨0, _⟩ => show win5_4.index t (0 : Fin 2) * 128 + 1 * k.val = k.val; omega
  | ⟨1, _⟩ => show win5_4.index t (1 : Fin 2) * 1 + 1 * q.val = q.val; omega

/-- The output-bias block is the output bias. -/
theorem outbias_block_apply (c : Dev nD) (t : Fin cfg5.N) (u : Fin 1) : iblk5 V c 5 t (ix1 u) = V c main_arg17 (ix1 u) := by
  obtain ⟨-, -, -, -, -, -, -, e7, -⟩ := index_maps t
  show V c main_arg17 (((cfg5.win 5).blk t).view.emb (ix1 u)) = _
  refine congrArg (V c main_arg17) ?_
  funext a; apply Fin.ext
  match a with
  | ⟨0, _⟩ => show win5_5.index t (0 : Fin 1) * 1 + 1 * u.val = u.val; omega

/-- What point `t` writes back is its block of the reference's output column of the arrays as the region finds them. -/
theorem writeback_eq (c : Dev nD) (t : Fin cfg5.N) :
    (dat5 (F := Ideal) V c).flushed 6 t = ((cfg5.win 6).blk t).view.read (Elt Ideal)
      (Cert.ReferenceIdeal.RT.outcol (Cert.ReferenceIdeal.RT.lnelu128 (V c main_v144) (V c main_arg13) (V c main_arg14) (V c main_arg15)) (V c main_arg16) (V c main_arg17)) := by
  show (cfg5.win 6).cut (grid5.coords t) ((dat5 (F := Ideal) V c).after 6 t) = _
  rw [after5_6]
  unfold out5_6
  rw [View.canon_unit_zero zero2]
  simp only [View.ld_unit_zero (S := S5000x128) zero2, View.ld_unit_zero (S := S128) zero1,
    View.ld_unit_zero (S := S128x1) zero2, View.ld_unit_zero (S := S1) zero1]
  obtain ⟨-, -, -, -, -, -, -, -, e8, e9⟩ := index_maps t
  -- entry (p, q) of the block: the payload there is `outE` of row p of the blocks, the reference's column at the
  -- block's place in the array is `outE` of that row of the arrays, and the blocks are the arrays read there
  have entry : ∀ (p : Fin 5000) (q : Fin 1),
      k5_pay1 (k5_pay2 (iblk5 V c 0 t) (iblk5 V c 1 t) (iblk5 V c 2 t) (iblk5 V c 3 t) (iblk5 V c 4 t)) (iblk5 V c 5 t) (ix2 p q)
        = Cert.ReferenceIdeal.RT.outcol (Cert.ReferenceIdeal.RT.lnelu128 (V c main_v144) (V c main_arg13) (V c main_arg14) (V c main_arg15)) (V c main_arg16) (V c main_arg17)
            (((cfg5.win 6).blk t).view.emb (ix2 p q)) := by
    intro p q
    have hr : win5_6.index t (0 : Fin 2) * 5000 + p.val < 50000 := by have := p.isLt; omega
    have he : ((cfg5.win 6).blk t).view.emb (ix2 p q)
        = (ix2 (⟨win5_6.index t (0 : Fin 2) * 5000 + p.val, hr⟩ : Fin 50000) q : S50000x1.Idx) := by
      funext a; apply Fin.ext
      match a with
      | ⟨0, _⟩ => show win5_6.index t (0 : Fin 2) * 5000 + 1 * p.val = win5_6.index t (0 : Fin 2) * 5000 + p.val; omega
      | ⟨1, _⟩ => show win5_6.index t (1 : Fin 2) * 1 + 1 * q.val = q.val; omega
    rw [he]
    refine (pay_apply (iblk5 V c 0 t) (iblk5 V c 1 t) (iblk5 V c 2 t) (iblk5 V c 3 t) (iblk5 V c 4 t) (iblk5 V c 5 t) p q).trans ?_
    refine Eq.trans ?_ (ref_apply (V c main_v144) (V c main_arg13) (V c main_arg14) (V c main_arg15) (V c main_arg16) (V c main_arg17) ⟨_, hr⟩ q).symm
    exact outE_congr (fun j => input_block_apply V c t p j hr) (fun j => bias_block_apply V c t j) (fun j => scale_block_apply V c t j)
      (fun j => shift_block_apply V c t j) (fun k => weight_block_apply V c t k q) (outbias_block_apply V c t 0)
  funext y
  obtain ⟨p, q, rfl⟩ : ∃ (p : Fin 5000) (q : Fin 1), y = ix2 p q := ⟨y 0, y 1, eq_ix2 y⟩
  exact entry p q

/-- An index of the output array is in point `t`'s block iff each coordinate is in the block's range on its axis. -/
theorem mem_row_block (t : Fin cfg5.N) (i : S50000x1.Idx) :
    i ∈ ((cfg5.win 6).blk t).view.set ↔ ∀ a : Fin 2, win5_6.index t a * S5000x1.size a ≤ (i a).val ∧ (i a).val < win5_6.index t a * S5000x1.size a + S5000x1.size a := by
  show i ∈ ((View.whole main_v145).slice (win5_6.rect t)).set ↔ _
  rw [View.set_slice_whole, Rect.mem_set_unit]
  exact Iff.rfl

/-- Row `r` of the output array lies in the block of the point whose block index is `r / 5000`. -/
theorem rows_covered (i : S50000x1.Idx) : ∃ t : Fin cfg5.N, (cfg5.win 6).flush t = true ∧ i ∈ ((cfg5.win 6).blk t).view.set := by
  have hi0 : (i 0).val < 50000 := (i 0).isLt
  have hi1 : (i 1).val < 1 := (i 1).isLt
  obtain ⟨t, ht⟩ := row_blocks_onto ⟨(i 0).val / 5000, by omega⟩
  have q0 : win5_6.index t (0 : Fin 2) = (i 0).val / 5000 := congrFun ht 0
  have q1 : win5_6.index t (1 : Fin 2) = 0 := congrFun ht 1
  refine ⟨t, flush5_6 t, ?_⟩
  rw [mem_row_block]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 1 ≤ (i 1).val ∧ (i 1).val < win5_6.index t (1 : Fin 2) * 1 + 1; omega

/-- THE ARRAY after region 5. -/
theorem final (c : Dev nD) :
    (dat5 (F := Ideal) V c).arrAt 6 cfg5.N
      = Cert.ReferenceIdeal.RT.outcol (Cert.ReferenceIdeal.RT.lnelu128 (V c main_v144) (V c main_arg13) (V c main_arg14) (V c main_arg15)) (V c main_arg16) (V c main_arg17) :=
  (dat5 (F := Ideal) V c).arrAt_eq_of_cover 6 _ (fun t _ => writeback_eq V c t) rows_covered

end Cert.KernelIdeal.Final5

end
-- ==== Proof.KernelWalk.lean ====
/-
  The kernel's result, read through @main: the buffer contents at the last segment boundary, at the result buffer, are
  the reference's `RT.Out` of the launch memory's argument arrays. The walk goes boundary by boundary: a region leaves
  its output array at the reference's term of the arrays it read (the regions' value lemmas), a host stretch leaves its
  result at the reference's term of the buffers it read (the stretches' value lemmas), and a buffer that a region or a
  stretch does not write keeps its contents, back to the launch memory.
-/
import proofs.«122206_j54812372631715_1_alg».proof.Proof.Gen.KernelIdeal.Frame
import proofs.«122206_j54812372631715_1_alg».proof.Proof.Gen.ReferenceIdeal
import proofs.«122206_j54812372631715_1_alg».proof.Proof.RefTerms
import proofs.«122206_j54812372631715_1_alg».proof.Proof.KernelHost
import proofs.«122206_j54812372631715_1_alg».proof.Proof.Final0
import proofs.«122206_j54812372631715_1_alg».proof.Proof.Final1
import proofs.«122206_j54812372631715_1_alg».proof.Proof.Final2
import proofs.«122206_j54812372631715_1_alg».proof.Proof.Final3
import proofs.«122206_j54812372631715_1_alg».proof.Proof.Final4
import proofs.«122206_j54812372631715_1_alg».proof.Proof.Final5

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Cert.ReferenceIdeal (RT.dot0 RT.dot1 RT.dot2 RT.ecat RT.agg64 RT.agg128 RT.lnelu64 RT.lnelu128 RT.outcol RT.flat RT.Out)

variable (m : (ℓ : Loc nD τ sig) → Buf (Elt Ideal) ℓ) (ρ : Dev nD → PrngReg) (c : Dev nD)

/-! ## The arrays each region's windows stand on -/

abbrev arrs0 : List (Ref sig .tc) := [main_arg0, main_arg4, main_v0]
abbrev arrs1 : List (Ref sig .tc) := [main_v45, main_arg5, main_arg6, main_arg7, main_v46]
abbrev arrs2 : List (Ref sig .tc) := [main_arg0, main_v47, main_arg3, main_v48, main_v49]
abbrev arrs3 : List (Ref sig .tc) := [main_v94, main_arg9, main_arg10, main_arg11, main_v95]
abbrev arrs4 : List (Ref sig .tc) := [main_v46, main_v96, main_v95, main_v97, main_v98]
abbrev arrs5 : List (Ref sig .tc) := [main_v144, main_arg13, main_arg14, main_arg15, main_arg16, main_arg17, main_v145]

theorem arr0_mem : ∀ w : Fin cfg0.W, Pipeline.arrRef spec0 w ∈ arrs0 := by decide
theorem arr1_mem : ∀ w : Fin cfg1.W, Pipeline.arrRef spec1 w ∈ arrs1 := by decide
theorem arr2_mem : ∀ w : Fin cfg2.W, Pipeline.arrRef spec2 w ∈ arrs2 := by decide
theorem arr3_mem : ∀ w : Fin cfg3.W, Pipeline.arrRef spec3 w ∈ arrs3 := by decide
theorem arr4_mem : ∀ w : Fin cfg4.W, Pipeline.arrRef spec4 w ∈ arrs4 := by decide
theorem arr5_mem : ∀ w : Fin cfg5.W, Pipeline.arrRef spec5 w ∈ arrs5 := by decide

/-! ## A buffer no region window stands on and no stretch writes keeps its launch contents -/

section Kept
variable {r : Ref sig .tc}

theorem kept1 (h0 : r ∉ arrs0 := by decide) : W1 m ρ c (Proc.devRef .tc r) = m ((c : Thread nD τ).loc r) :=
  W1_of_ne m ρ c r fun w e => h0 (e ▸ arr0_mem w)
theorem kept4 (h0 : r ∉ arrs0 := by decide) (h1 : r ∉ KH.writes1 := by decide) : W4 m ρ c (Proc.devRef .tc r) = m ((c : Thread nD τ).loc r) :=
  (KH.agg1_keep (W1 m ρ c) h1).trans (kept1 m ρ c h0)
theorem kept5 (h0 : r ∉ arrs0 := by decide) (h1 : r ∉ KH.writes1 := by decide) (h2 : r ∉ arrs1 := by decide) :
    W5 m ρ c (Proc.devRef .tc r) = m ((c : Thread nD τ).loc r) :=
  (W5_of_ne m ρ c r fun w e => h2 (e ▸ arr1_mem w)).trans (kept4 m ρ c h0 h1)
theorem kept6 (h0 : r ∉ arrs0 := by decide) (h1 : r ∉ KH.writes1 := by decide) (h2 : r ∉ arrs1 := by decide)
    (h3 : r ∉ ([main_v47, main_v48] : List (Ref sig .tc)) := by decide) : W6 m ρ c (Proc.devRef .tc r) = m ((c : Thread nD τ).loc r) :=
  (KH.slc2_keep (W5 m ρ c) h3).trans (kept5 m ρ c h0 h1 h2)
theorem kept7 (h0 : r ∉ arrs0 := by decide) (h1 : r ∉ KH.writes1 := by decide) (h2 : r ∉ arrs1 := by decide)
    (h3 : r ∉ ([main_v47, main_v48] : List (Ref sig .tc)) := by decide) (h4 : r ∉ arrs2 := by decide) :
    W7 m ρ c (Proc.devRef .tc r) = m ((c : Thread nD τ).loc r) :=
  (W7_of_ne m ρ c r fun w e => h4 (e ▸ arr2_mem w)).trans (kept6 m ρ c h0 h1 h2 h3)
theorem kept10 (h0 : r ∉ arrs0 := by decide) (h1 : r ∉ KH.writes1 := by decide) (h2 : r ∉ arrs1 := by decide)
    (h3 : r ∉ ([main_v47, main_v48] : List (Ref sig .tc)) := by decide) (h4 : r ∉ arrs2 := by decide)
    (h5 : r ∉ KH.writes3 := by decide) : W10 m ρ c (Proc.devRef .tc r) = m ((c : Thread nD τ).loc r) :=
  (KH.agg3_keep (W7 m ρ c) h5).trans (kept7 m ρ c h0 h1 h2 h3 h4)
theorem kept11 (h0 : r ∉ arrs0 := by decide) (h1 : r ∉ KH.writes1 := by decide) (h2 : r ∉ arrs1 := by decide)
    (h3 : r ∉ ([main_v47, main_v48] : List (Ref sig .tc)) := by decide) (h4 : r ∉ arrs2 := by decide)
    (h5 : r ∉ KH.writes3 := by decide) (h6 : r ∉ arrs3 := by decide) : W11 m ρ c (Proc.devRef .tc r) = m ((c : Thread nD τ).loc r) :=
  (W11_of_ne m ρ c r fun w e => h6 (e ▸ arr3_mem w)).trans (kept10 m ρ c h0 h1 h2 h3 h4 h5)
theorem kept12 (h0 : r ∉ arrs0 := by decide) (h1 : r ∉ KH.writes1 := by decide) (h2 : r ∉ arrs1 := by decide)
    (h3 : r ∉ ([main_v47, main_v48] : List (Ref sig .tc)) := by decide) (h4 : r ∉ arrs2 := by decide)
    (h5 : r ∉ KH.writes3 := by decide) (h6 : r ∉ arrs3 := by decide)
    (h7 : r ∉ ([main_v96, main_v97] : List (Ref sig .tc)) := by decide) : W12 m ρ c (Proc.devRef .tc r) = m ((c : Thread nD τ).loc r) :=
  (KH.slc4_keep (W11 m ρ c) h7).trans (kept11 m ρ c h0 h1 h2 h3 h4 h5 h6)
theorem kept13 (h0 : r ∉ arrs0 := by decide) (h1 : r ∉ KH.writes1 := by decide) (h2 : r ∉ arrs1 := by decide)
    (h3 : r ∉ ([main_v47, main_v48] : List (Ref sig .tc)) := by decide) (h4 : r ∉ arrs2 := by decide)
    (h5 : r ∉ KH.writes3 := by decide) (h6 : r ∉ arrs3 := by decide)
    (h7 : r ∉ ([main_v96, main_v97] : List (Ref sig .tc)) := by decide) (h8 : r ∉ arrs4 := by decide) :
    W13 m ρ c (Proc.devRef .tc r) = m ((c : Thread nD τ).loc r) :=
  (W13_of_ne m ρ c r fun w e => h8 (e ▸ arr4_mem w)).trans (kept12 m ρ c h0 h1 h2 h3 h4 h5 h6 h7)
theorem kept16 (h0 : r ∉ arrs0 := by decide) (h1 : r ∉ KH.writes1 := by decide) (h2 : r ∉ arrs1 := by decide)
    (h3 : r ∉ ([main_v47, main_v48] : List (Ref sig .tc)) := by decide) (h4 : r ∉ arrs2 := by decide)
    (h5 : r ∉ KH.writes3 := by decide) (h6 : r ∉ arrs3 := by decide)
    (h7 : r ∉ ([main_v96, main_v97] : List (Ref sig .tc)) := by decide) (h8 : r ∉ arrs4 := by decide)
    (h9 : r ∉ KH.writes5 := by decide) : W16 m ρ c (Proc.devRef .tc r) = m ((c : Thread nD τ).loc r) :=
  (KH.agg5_keep (W13 m ρ c) h9).trans (kept13 m ρ c h0 h1 h2 h3 h4 h5 h6 h7 h8)

end Kept

/-- The first feature array is region 0's input and again region 2's: region 0 leaves an input array as it found it. -/
theorem kept6_arg0 : W6 m ρ c (Proc.devRef .tc main_arg0) = m ((c : Thread nD τ).loc main_arg0) :=
  (KH.slc2_keep (W5 m ρ c) (r := main_arg0) (by decide)).trans
    ((W5_of_ne m ρ c main_arg0 fun w e => absurd (e ▸ arr1_mem w) (by decide)).trans
      ((KH.agg1_keep (W1 m ρ c) (r := main_arg0) (by decide)).trans
        ((W1_arr m ρ c 0).trans (((dat0 (V0 m ρ) c).arrAt_in 0 rfl _).trans (A_eq0 (V0 m ρ) c 0)))))

/-! ## The values, boundary by boundary -/

/-- After region 0: `x @ W_corr`. -/
theorem val_v0 : W1 m ρ c (Proc.devRef .tc main_v0) = RT.dot0 (m ((c : Thread nD τ).loc main_arg0)) (m ((c : Thread nD τ).loc main_arg4)) :=
  (W1_arr m ρ c 2).trans (Final0.final (V0 m ρ) c)

/-- After the first aggregation. -/
theorem val_v45 : W4 m ρ c (Proc.devRef .tc main_v45)
    = RT.agg64 (RT.dot0 (m ((c : Thread nD τ).loc main_arg0)) (m ((c : Thread nD τ).loc main_arg4))) (m ((c : Thread nD τ).loc main_arg1)) := by
  refine (KH.agg1_val (W1 m ρ c)).trans ?_
  rw [val_v0 m ρ c, kept1 m ρ c (r := main_arg1)]

/-- After region 1: the first hidden features. -/
theorem val_v46 : W5 m ρ c (Proc.devRef .tc main_v46)
    = RT.lnelu64 (RT.agg64 (RT.dot0 (m ((c : Thread nD τ).loc main_arg0)) (m ((c : Thread nD τ).loc main_arg4))) (m ((c : Thread nD τ).loc main_arg1)))
        (m ((c : Thread nD τ).loc main_arg5)) (m ((c : Thread nD τ).loc main_arg6)) (m ((c : Thread nD τ).loc main_arg7)) := by
  refine (W5_arr m ρ c 4).trans ((Final1.final (V4 m ρ) c).trans ?_)
  show RT.lnelu64 (W4 m ρ c (Proc.devRef .tc main_v45)) (W4 m ρ c (Proc.devRef .tc main_arg5)) (W4 m ρ c (Proc.devRef .tc main_arg6)) (W4 m ρ c (Proc.devRef .tc main_arg7)) = _
  rw [val_v45 m ρ c, kept4 m ρ c (r := main_arg5), kept4 m ρ c (r := main_arg6), kept4 m ρ c (r := main_arg7)]

/-- After region 2: `concat(x, x_lagged) @ W_vendor`. -/
theorem val_v49 : W7 m ρ c (Proc.devRef .tc main_v49)
    = RT.dot1 (m ((c : Thread nD τ).loc main_arg0)) (m ((c : Thread nD τ).loc main_arg3)) (m ((c : Thread nD τ).loc main_arg8)) := by
  refine (W7_arr m ρ c 4).trans ((Final2.final (V6 m ρ) c (m ((c : Thread nD τ).loc main_arg8)) ?_ ?_).trans ?_)
  · show W6 m ρ c (Proc.devRef .tc main_v47) = _
    refine (KH.slc2_v47 (W5 m ρ c)).trans ?_
    rw [kept5 m ρ c (r := main_arg8)]
  · show W6 m ρ c (Proc.devRef .tc main_v48) = _
    refine (KH.slc2_v48 (W5 m ρ c)).trans ?_
    rw [kept5 m ρ c (r := main_arg8)]
  · show RT.dot1 (W6 m ρ c (Proc.devRef .tc main_arg0)) (W6 m ρ c (Proc.devRef .tc main_arg3)) _ = _
    rw [kept6_arg0 m ρ c, kept6 m ρ c (r := main_arg3)]

/-- After the second aggregation. -/
theorem val_v94 : W10 m ρ c (Proc.devRef .tc main_v94)
    = RT.agg64 (RT.dot1 (m ((c : Thread nD τ).loc main_arg0)) (m ((c : Thread nD τ).loc main_arg3)) (m ((c : Thread nD τ).loc main_arg8))) (m ((c : Thread nD τ).loc main_arg2)) := by
  refine (KH.agg3_val (W7 m ρ c)).trans ?_
  rw [val_v49 m ρ c, kept7 m ρ c (r := main_arg2)]

/-- After region 3: the second hidden features. -/
theorem val_v95 : W11 m ρ c (Proc.devRef .tc main_v95)
    = RT.lnelu64 (RT.agg64 (RT.dot1 (m ((c : Thread nD τ).loc main_arg0)) (m ((c : Thread nD τ).loc main_arg3)) (m ((c : Thread nD τ).loc main_arg8))) (m ((c : Thread nD τ).loc main_arg2)))
        (m ((c : Thread nD τ).loc main_arg9)) (m ((c : Thread nD τ).loc main_arg10)) (m ((c : Thread nD τ).loc main_arg11)) := by
  refine (W11_arr m ρ c 4).trans ((Final3.final (V10 m ρ) c).trans ?_)
  show RT.lnelu64 (W10 m ρ c (Proc.devRef .tc main_v94)) (W10 m ρ c (Proc.devRef .tc main_arg9)) (W10 m ρ c (Proc.devRef .tc main_arg10)) (W10 m ρ c (Proc.devRef .tc main_arg11)) = _
  rw [val_v94 m ρ c, kept10 m ρ c (r := main_arg9), kept10 m ρ c (r := main_arg10), kept10 m ρ c (r := main_arg11)]

/-- The first hidden features are still there when region 4 reads them. -/
theorem val_v46_at12 : W12 m ρ c (Proc.devRef .tc main_v46) = W5 m ρ c (Proc.devRef .tc main_v46) :=
  (KH.slc4_keep (W11 m ρ c) (r := main_v46) (by decide)).trans
    ((W11_of_ne m ρ c main_v46 fun w e => absurd (e ▸ arr3_mem w) (by decide)).trans
      ((KH.agg3_keep (W7 m ρ c) (r := main_v46) (by decide)).trans
        ((W7_of_ne m ρ c main_v46 fun w e => absurd (e ▸ arr2_mem w) (by decide)).trans
          (KH.slc2_keep (W5 m ρ c) (r := main_v46) (by decide)))))

/-- The second hidden features are still there when region 4 reads them. -/
theorem val_v95_at12 : W12 m ρ c (Proc.devRef .tc main_v95) = W11 m ρ c (Proc.devRef .tc main_v95) :=
  KH.slc4_keep (W11 m ρ c) (r := main_v95) (by decide)

/-- The hidden features both layers feed to the third. -/
abbrev hc := RT.lnelu64 (RT.agg64 (RT.dot0 (m ((c : Thread nD τ).loc main_arg0)) (m ((c : Thread nD τ).loc main_arg4))) (m ((c : Thread nD τ).loc main_arg1)))
        (m ((c : Thread nD τ).loc main_arg5)) (m ((c : Thread nD τ).loc main_arg6)) (m ((c : Thread nD τ).loc main_arg7))
abbrev hv := RT.lnelu64 (RT.agg64 (RT.dot1 (m ((c : Thread nD τ).loc main_arg0)) (m ((c : Thread nD τ).loc main_arg3)) (m ((c : Thread nD τ).loc main_arg8))) (m ((c : Thread nD τ).loc main_arg2)))
        (m ((c : Thread nD τ).loc main_arg9)) (m ((c : Thread nD τ).loc main_arg10)) (m ((c : Thread nD τ).loc main_arg11))

/-- After region 4: `concat(h_corr, h_vendor) @ W_refine`. -/
theorem val_v98 : W13 m ρ c (Proc.devRef .tc main_v98) = RT.dot2 (hc m c) (hv m c) (m ((c : Thread nD τ).loc main_arg12)) := by
  refine (W13_arr m ρ c 4).trans ((Final4.final (V12 m ρ) c (m ((c : Thread nD τ).loc main_arg12)) ?_ ?_).trans ?_)
  · show W12 m ρ c (Proc.devRef .tc main_v96) = _
    refine (KH.slc4_v96 (W11 m ρ c)).trans ?_
    rw [kept11 m ρ c (r := main_arg12)]
  · show W12 m ρ c (Proc.devRef .tc main_v97) = _
    refine (KH.slc4_v97 (W11 m ρ c)).trans ?_
    rw [kept11 m ρ c (r := main_arg12)]
  · show RT.dot2 (W12 m ρ c (Proc.devRef .tc main_v46)) (W12 m ρ c (Proc.devRef .tc main_v95)) _ = _
    rw [val_v46_at12 m ρ c, val_v46 m ρ c, val_v95_at12 m ρ c, val_v95 m ρ c]

/-- After the third aggregation. -/
theorem val_v144 : W16 m ρ c (Proc.devRef .tc main_v144)
    = RT.agg128 (RT.dot2 (hc m c) (hv m c) (m ((c : Thread nD τ).loc main_arg12))) (RT.ecat (m ((c : Thread nD τ).loc main_arg1)) (m ((c : Thread nD τ).loc main_arg2))) := by
  refine (KH.agg5_val (W13 m ρ c)).trans ?_
  rw [val_v98 m ρ c, kept13 m ρ c (r := main_arg1), kept13 m ρ c (r := main_arg2)]

/-- After region 5: the output column. -/
theorem val_v145 : W17 m ρ c (Proc.devRef .tc main_v145)
    = RT.outcol (RT.lnelu128 (RT.agg128 (RT.dot2 (hc m c) (hv m c) (m ((c : Thread nD τ).loc main_arg12))) (RT.ecat (m ((c : Thread nD τ).loc main_arg1)) (m ((c : Thread nD τ).loc main_arg2))))
        (m ((c : Thread nD τ).loc main_arg13)) (m ((c : Thread nD τ).loc main_arg14)) (m ((c : Thread nD τ).loc main_arg15))) (m ((c : Thread nD τ).loc main_arg16)) (m ((c : Thread nD τ).loc main_arg17)) := by
  refine (W17_arr m ρ c 6).trans ((Final5.final (V16 m ρ) c).trans ?_)
  show RT.outcol (RT.lnelu128 (W16 m ρ c (Proc.devRef .tc main_v144)) (W16 m ρ c (Proc.devRef .tc main_arg13)) (W16 m ρ c (Proc.devRef .tc main_arg14)) (W16 m ρ c (Proc.devRef .tc main_arg15)))
      (W16 m ρ c (Proc.devRef .tc main_arg16)) (W16 m ρ c (Proc.devRef .tc main_arg17)) = _
  rw [val_v144 m ρ c, kept16 m ρ c (r := main_arg13), kept16 m ρ c (r := main_arg14), kept16 m ρ c (r := main_arg15),
    kept16 m ρ c (r := main_arg16), kept16 m ρ c (r := main_arg17)]

/-- THE RESULT: at the last boundary the result buffer holds the reference's network value of the launch memory's arguments. -/
theorem result : W18 m ρ c (Proc.devRef .tc main_v146)
    = RT.Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (KH.flat6_val (W17 m ρ c)).trans ?_
  rw [val_v145 m ρ c]
  rfl

end Cert.KernelIdeal.Walk

end
-- ==== Proof.RefOps.lean ====
/- @main as lists of its operations with the calls of @_where / @elu / @_where_N / @elu_2 replaced by the callee's operations over the call's
   buffer record, cut at the printed windows (every 60 statements) and at the stretches' ends (statements 1, 58, 91, 93, 150, 183, 186, 243, 276, 281). -/
import proofs.«122206_j54812372631715_1_alg».proof.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- Statements 1 … 1 of @main: 1 operations. -/
abbrev piece0 : List (HloOp τ sig (Elt F)) :=
  [ StableHlo.binary main_arg0 main_arg4 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]
/-- The references those operations write, in order. -/
abbrev writes0 : List (Ref sig .tc) :=
  [main_v0]
theorem piece0_sub : (piece0 : List (HloOp τ sig (Elt F))).Forall fun op => op.bufs ⊆ tcRefs τ sig :=
  binary_bufs_sub ..

/-- Statements 2 … 58 of @main: 59 operations. -/
abbrev piece1 : List (HloOp τ sig (Elt F)) :=
  [ StableHlo.nullary main_v1 (iotaInDim S50000 32 0),
    StableHlo.unary main_arg1 main_v2 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v2 main_v3 rfl shapeCasts_S1x800000_S800000,
    StableHlo.binary main_v3 main_v1 main_v4 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v5 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v5 main_v6 rfl shapeCasts_S1x800000_S800000,
    StableHlo.binary main_v6 main_v1 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v8 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v11 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S50000 ![] bcast_S_S50000),
    StableHlo.TRef.ternary (.of main_v13) (.of main_v16) main_call0.v1 main_call0.v2 select,
    StableHlo.nullary main_c (constantI S_ 32 0#32),
    StableHlo.unary main_c main_v18 (broadcastInDim S850000 ![] bcast_S_S850000 : (⟨S_, .i32⟩ : BufTy).Contents (Elt F) → (⟨S850000, .i32⟩ : BufTy).Contents (Elt F)),
    StableHlo.binary main_v4 main_v18 main_v19 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v20 (broadcastInDim S850000 ![] bcast_S_S850000 : (⟨S_, .i32⟩ : BufTy).Contents (Elt F) → (⟨S850000, .i32⟩ : BufTy).Contents (Elt F)),
    StableHlo.binary main_v4 main_v20 main_v21 (addi : (⟨S850000, .i32⟩ : BufTy).Contents (Elt F) → (⟨S850000, .i32⟩ : BufTy).Contents (Elt F) → (⟨S850000, .i32⟩ : BufTy).Contents (Elt F)),
    StableHlo.ternary main_v19 main_v21 main_v4 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v22 main_v23 (broadcastInDim S850000x1 ![0] bcast_S850000_S850000x1_0 : (⟨S850000, .i32⟩ : BufTy).Contents (Elt F) → (⟨S850000x1, .i32⟩ : BufTy).Contents (Elt F)),
    StableHlo.binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v25 (broadcastInDim S850000 ![] bcast_S_S850000 : (⟨S_, .i32⟩ : BufTy).Contents (Elt F) → (⟨S850000, .i32⟩ : BufTy).Contents (Elt F)),
    StableHlo.binary main_v7 main_v25 main_v26 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v27 (broadcastInDim S850000 ![] bcast_S_S850000 : (⟨S_, .i32⟩ : BufTy).Contents (Elt F) → (⟨S850000, .i32⟩ : BufTy).Contents (Elt F)),
    StableHlo.binary main_v7 main_v27 main_v28 (addi : (⟨S850000, .i32⟩ : BufTy).Contents (Elt F) → (⟨S850000, .i32⟩ : BufTy).Contents (Elt F) → (⟨S850000, .i32⟩ : BufTy).Contents (Elt F)),
    StableHlo.ternary main_v26 main_v28 main_v7 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v29 main_v30 (broadcastInDim S850000x1 ![0] bcast_S850000_S850000x1_0 : (⟨S850000, .i32⟩ : BufTy).Contents (Elt F) → (⟨S850000x1, .i32⟩ : BufTy).Contents (Elt F)),
    StableHlo.binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v24 main_v31 main_v32 (mulf : (⟨S850000, .f32⟩ : BufTy).Contents (Elt F) → (⟨S850000, .f32⟩ : BufTy).Contents (Elt F) → (⟨S850000, .f32⟩ : BufTy).Contents (Elt F)),
    StableHlo.nullary main_c_7 (constantI S_ 32 0#32),
    StableHlo.unary main_c_7 main_v33 (broadcastInDim S850000 ![] bcast_S_S850000 : (⟨S_, .i32⟩ : BufTy).Contents (Elt F) → (⟨S850000, .i32⟩ : BufTy).Contents (Elt F)),
    StableHlo.binary main_v4 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v35 (broadcastInDim S850000 ![] bcast_S_S850000 : (⟨S_, .i32⟩ : BufTy).Contents (Elt F) → (⟨S850000, .i32⟩ : BufTy).Contents (Elt F)),
    StableHlo.binary main_v4 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v4 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v0 main_v38 main_v39 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x64 ![0, 1] bcast_S850000x1_S850000x64_0_1 : (⟨S850000x1, .f32⟩ : BufTy).Contents (Elt F) → (⟨S850000x64, .f32⟩ : BufTy).Contents (Elt F)),
    StableHlo.binary main_v39 main_v41 main_v42 (mulf : (⟨S850000x64, .f32⟩ : BufTy).Contents (Elt F) → (⟨S850000x64, .f32⟩ : BufTy).Contents (Elt F) → (⟨S850000x64, .f32⟩ : BufTy).Contents (Elt F)),
    StableHlo.nullary main_cst_9 (constant S_ .f32 0x00000000#32),
    StableHlo.unary main_cst_9 main_v43 (broadcastInDim S50000x64 ![] bcast_S_S50000x64 : (⟨S_, .f32⟩ : BufTy).Contents (Elt F) → (⟨S50000x64, .f32⟩ : BufTy).Contents (Elt F)),
    StableHlo.unary main_v7 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]
/-- The references those operations write, in order. -/
abbrev writes1 : List (Ref sig .tc) :=
  [main_v1, main_v2, main_v3, main_v4, main_v5, main_v6, main_v7, main_cst, main_v8, main_cst_0, main_v9, main_v10, main_v11, main_cst_1, main_v12, main_v13, main_cst_2, main_v14, main_v15, main_v16, main_cst_3, main_call0_v0, main_call0_v1, main_v17, main_c, main_v18, main_v19, main_c_4, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_v40, main_v41, main_v42, main_cst_9, main_v43, main_v44, main_v45]
theorem piece1_sub : (piece1 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

/-- Statements 59 … 60 of @main: 2 operations. -/
abbrev piece2 : List (HloOp τ sig (Elt F)) :=
  [ StableHlo.unary main_arg5 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S50000x64 ![0, 1] bcast_S1x64_S50000x64_0_1 : (⟨S1x64, .f32⟩ : BufTy).Contents (Elt F) → (⟨S50000x64, .f32⟩ : BufTy).Contents (Elt F)) ]
/-- The references those operations write, in order. -/
abbrev writes2 : List (Ref sig .tc) :=
  [main_v46, main_v47]
theorem piece2_sub : (piece2 : List (HloOp τ sig (Elt F))).Forall fun op => op.bufs ⊆ tcRefs τ sig :=
  ⟨unary_bufs_sub .., unary_bufs_sub ..⟩

/-- Statements 61 … 91 of @main: 45 operations. -/
abbrev piece3 : List (HloOp τ sig (Elt F)) :=
  [ StableHlo.binary main_v45 main_v47 main_v48 (addf : (⟨S50000x64, .f32⟩ : BufTy).Contents (Elt F) → (⟨S50000x64, .f32⟩ : BufTy).Contents (Elt F) → (⟨S50000x64, .f32⟩ : BufTy).Contents (Elt F)),
    StableHlo.nullary main_cst_10 (constant S_ .f32 0x00000000#32),
    StableHlo.binary main_v48 main_cst_10 main_v49 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v49 main_v50 (broadcastInDim S50000x1 ![0] bcast_S50000_S50000x1_0 : (⟨S50000, .f32⟩ : BufTy).Contents (Elt F) → (⟨S50000x1, .f32⟩ : BufTy).Contents (Elt F)),
    StableHlo.nullary main_cst_11 (constant S_ .f32 0x42800000#32),
    StableHlo.unary main_cst_11 main_v51 (broadcastInDim S50000x1 ![] bcast_S_S50000x1 : (⟨S_, .f32⟩ : BufTy).Contents (Elt F) → (⟨S50000x1, .f32⟩ : BufTy).Contents (Elt F)),
    StableHlo.binary main_v50 main_v51 main_v52 (Host.divf : (⟨S50000x1, .f32⟩ : BufTy).Contents (Elt F) → (⟨S50000x1, .f32⟩ : BufTy).Contents (Elt F) → (⟨S50000x1, .f32⟩ : BufTy).Contents (Elt F)),
    StableHlo.unary main_v52 main_v53 (broadcastInDim S50000x64 ![0, 1] bcast_S50000x1_S50000x64_0_1 : (⟨S50000x1, .f32⟩ : BufTy).Contents (Elt F) → (⟨S50000x64, .f32⟩ : BufTy).Contents (Elt F)),
    StableHlo.binary main_v48 main_v53 main_v54 (subf : (⟨S50000x64, .f32⟩ : BufTy).Contents (Elt F) → (⟨S50000x64, .f32⟩ : BufTy).Contents (Elt F) → (⟨S50000x64, .f32⟩ : BufTy).Contents (Elt F)),
    StableHlo.binary main_v54 main_v54 main_v55 (mulf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x00000000#32),
    StableHlo.binary main_v55 main_cst_12 main_v56 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v56 main_v57 (broadcastInDim S50000x1 ![0] bcast_S50000_S50000x1_0 : (⟨S50000, .f32⟩ : BufTy).Contents (Elt F) → (⟨S50000x1, .f32⟩ : BufTy).Contents (Elt F)),
    StableHlo.nullary main_cst_13 (constant S_ .f32 0x42800000#32),
    StableHlo.unary main_cst_13 main_v58 (broadcastInDim S50000x1 ![] bcast_S_S50000x1 : (⟨S_, .f32⟩ : BufTy).Contents (Elt F) → (⟨S50000x1, .f32⟩ : BufTy).Contents (Elt F)),
    StableHlo.binary main_v57 main_v58 main_v59 (Host.divf : (⟨S50000x1, .f32⟩ : BufTy).Contents (Elt F) → (⟨S50000x1, .f32⟩ : BufTy).Contents (Elt F) → (⟨S50000x1, .f32⟩ : BufTy).Contents (Elt F)),
    StableHlo.unary main_v52 main_v60 (broadcastInDim S50000x64 ![0, 1] bcast_S50000x1_S50000x64_0_1 : (⟨S50000x1, .f32⟩ : BufTy).Contents (Elt F) → (⟨S50000x64, .f32⟩ : BufTy).Contents (Elt F)),
    StableHlo.binary main_v48 main_v60 main_v61 (subf : (⟨S50000x64, .f32⟩ : BufTy).Contents (Elt F) → (⟨S50000x64, .f32⟩ : BufTy).Contents (Elt F) → (⟨S50000x64, .f32⟩ : BufTy).Contents (Elt F)),
    StableHlo.nullary main_cst_14 (constant S_ .f32 0x3727C5AC#32),
    StableHlo.unary main_cst_14 main_v62 (broadcastInDim S50000x1 ![] bcast_S_S50000x1 : (⟨S_, .f32⟩ : BufTy).Contents (Elt F) → (⟨S50000x1, .f32⟩ : BufTy).Contents (Elt F)),
    StableHlo.binary main_v59 main_v62 main_v63 (addf : (⟨S50000x1, .f32⟩ : BufTy).Contents (Elt F) → (⟨S50000x1, .f32⟩ : BufTy).Contents (Elt F) → (⟨S50000x1, .f32⟩ : BufTy).Contents (Elt F)),
    StableHlo.unary main_v63 main_v64 (Host.rsqrt : (⟨S50000x1, .f32⟩ : BufTy).Contents (Elt F) → (⟨S50000x1, .f32⟩ : BufTy).Contents (Elt F)),
    StableHlo.unary main_v64 main_v65 (broadcastInDim S50000x64 ![0, 1] bcast_S50000x1_S50000x64_0_1 : (⟨S50000x1, .f32⟩ : BufTy).Contents (Elt F) → (⟨S50000x64, .f32⟩ : BufTy).Contents (Elt F)),
    StableHlo.binary main_v61 main_v65 main_v66 (mulf : (⟨S50000x64, .f32⟩ : BufTy).Contents (Elt F) → (⟨S50000x64, .f32⟩ : BufTy).Contents (Elt F) → (⟨S50000x64, .f32⟩ : BufTy).Contents (Elt F)),
    StableHlo.unary main_arg6 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S50000x64 ![0, 1] bcast_S1x64_S50000x64_0_1 : (⟨S1x64, .f32⟩ : BufTy).Contents (Elt F) → (⟨S50000x64, .f32⟩ : BufTy).Contents (Elt F)),
    StableHlo.binary main_v66 main_v68 main_v69 (mulf : (⟨S50000x64, .f32⟩ : BufTy).Contents (Elt F) → (⟨S50000x64, .f32⟩ : BufTy).Contents (Elt F) → (⟨S50000x64, .f32⟩ : BufTy).Contents (Elt F)),
    StableHlo.unary main_arg7 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S50000x64 ![0, 1] bcast_S1x64_S50000x64_0_1 : (⟨S1x64, .f32⟩ : BufTy).Contents (Elt F) → (⟨S50000x64, .f32⟩ : BufTy).Contents (Elt F)),
    StableHlo.binary main_v69 main_v71 main_v72 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v72) main_call1.v0 main_call1.v1 (cmpf .ogt),
    StableHlo.TRef.nullary main_call1.cst_0 (constant S_ .f32 0x00000000#32),
    StableHlo.TRef.unary main_call1.cst_0 main_call1.v2 (broadcastInDim S50000x64 ![] bcast_S_S50000x64),
    StableHlo.TRef.binary (.of main_v72) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x64 ![] bcast_S_S50000x64),
    StableHlo.TRef.ternary main_call1.v3 main_call1.call0.v1 (.of main_v72) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x64 ![] bcast_S_S50000x64),
    StableHlo.TRef.binary main_call1.v6 main_call1.v5 main_call1.v7 mulf,
    StableHlo.TRef.ternary main_call1.v1 (.of main_v72) main_call1.v7 main_call1.call1.v0 select ]
/-- The references those operations write, in order. -/
abbrev writes3 : List (Ref sig .tc) :=
  [main_v48, main_cst_10, main_v49, main_v50, main_cst_11, main_v51, main_v52, main_v53, main_v54, main_v55, main_cst_12, main_v56, main_v57, main_cst_13, main_v58, main_v59, main_v60, main_v61, main_cst_14, main_v62, main_v63, main_v64, main_v65, main_v66, main_v67, main_v68, main_v69, main_v70, main_v71, main_v72, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v73]
theorem piece3_sub : (piece3 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Statements 92 … 93 of @main: 2 operations. -/
abbrev piece4 : List (HloOp τ sig (Elt F)) :=
  [ StableHlo.binary main_arg0 main_arg3 main_v74 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v74 main_arg8 main_v75 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)) ]
/-- The references those operations write, in order. -/
abbrev writes4 : List (Ref sig .tc) :=
  [main_v74, main_v75]
theorem piece4_sub : (piece4 : List (HloOp τ sig (Elt F))).Forall fun op => op.bufs ⊆ tcRefs τ sig :=
  ⟨binary_bufs_sub .., binary_bufs_sub ..⟩

/-- Statements 94 … 120 of @main: 29 operations. -/
abbrev piece5 : List (HloOp τ sig (Elt F)) :=
  [ StableHlo.nullary main_v76 (iotaInDim S50000 32 0),
    StableHlo.unary main_arg2 main_v77 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v77 main_v78 rfl shapeCasts_S1x800000_S800000,
    StableHlo.binary main_v78 main_v76 main_v79 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg2 main_v80 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v80 main_v81 rfl shapeCasts_S1x800000_S800000,
    StableHlo.binary main_v81 main_v76 main_v82 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_15 (constant S_ .f32 0x3F800000#32),
    StableHlo.unary main_cst_15 main_v83 (broadcastInDim S850000 ![] bcast_S_S850000 : (⟨S_, .f32⟩ : BufTy).Contents (Elt F) → (⟨S850000, .f32⟩ : BufTy).Contents (Elt F)),
    StableHlo.nullary main_cst_16 (constant S_ .f32 0x00000000#32),
    StableHlo.unary main_cst_16 main_v84 (broadcastInDim S50000 ![] bcast_S_S50000 : (⟨S_, .f32⟩ : BufTy).Contents (Elt F) → (⟨S50000, .f32⟩ : BufTy).Contents (Elt F)),
    StableHlo.unary main_v82 main_v85 (broadcastInDim S850000x1 ![0] bcast_S850000_S850000x1_0 : (⟨S850000, .i32⟩ : BufTy).Contents (Elt F) → (⟨S850000x1, .i32⟩ : BufTy).Contents (Elt F)),
    StableHlo.ternary main_v84 main_v85 main_v83 main_v86 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_17 (constant S_ .f32 0x00000000#32),
    StableHlo.unary main_cst_17 main_v87 (broadcastInDim S50000 ![] bcast_S_S50000 : (⟨S_, .f32⟩ : BufTy).Contents (Elt F) → (⟨S50000, .f32⟩ : BufTy).Contents (Elt F)),
    StableHlo.binary main_v86 main_v87 main_v88 (cmpf .ogt : (⟨S50000, .f32⟩ : BufTy).Contents (Elt F) → (⟨S50000, .f32⟩ : BufTy).Contents (Elt F) → (⟨S50000, .i1⟩ : BufTy).Contents (Elt F)),
    StableHlo.nullary main_cst_18 (constant S_ .f32 0x3F800000#32),
    StableHlo.unary main_cst_18 main_v89 (broadcastInDim S50000 ![] bcast_S_S50000 : (⟨S_, .f32⟩ : BufTy).Contents (Elt F) → (⟨S50000, .f32⟩ : BufTy).Contents (Elt F)),
    StableHlo.binary main_v86 main_v89 main_v90 (maximumf : (⟨S50000, .f32⟩ : BufTy).Contents (Elt F) → (⟨S50000, .f32⟩ : BufTy).Contents (Elt F) → (⟨S50000, .f32⟩ : BufTy).Contents (Elt F)),
    StableHlo.unary main_v90 main_v91 (Host.rsqrt : (⟨S50000, .f32⟩ : BufTy).Contents (Elt F) → (⟨S50000, .f32⟩ : BufTy).Contents (Elt F)),
    StableHlo.nullary main_cst_19 (constant S_ .f32 0x00000000#32),
    StableHlo.TRef.unary (.of main_cst_19) main_call2.v0 id,
    StableHlo.TRef.unary main_call2.v0 main_call2.v1 (broadcastInDim S50000 ![] bcast_S_S50000),
    StableHlo.TRef.ternary (.of main_v88) (.of main_v91) main_call2.v1 main_call2.v2 select,
    StableHlo.nullary main_c_20 (constantI S_ 32 0#32),
    StableHlo.unary main_c_20 main_v93 (broadcastInDim S850000 ![] bcast_S_S850000 : (⟨S_, .i32⟩ : BufTy).Contents (Elt F) → (⟨S850000, .i32⟩ : BufTy).Contents (Elt F)),
    StableHlo.binary main_v79 main_v93 main_v94 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v95 (broadcastInDim S850000 ![] bcast_S_S850000 : (⟨S_, .i32⟩ : BufTy).Contents (Elt F) → (⟨S850000, .i32⟩ : BufTy).Contents (Elt F)) ]
/-- The references those operations write, in order. -/
abbrev writes5 : List (Ref sig .tc) :=
  [main_v76, main_v77, main_v78, main_v79, main_v80, main_v81, main_v82, main_cst_15, main_v83, main_cst_16, main_v84, main_v85, main_v86, main_cst_17, main_v87, main_v88, main_cst_18, main_v89, main_v90, main_v91, main_cst_19, main_call2_v0, main_call2_v1, main_v92, main_c_20, main_v93, main_v94, main_c_21, main_v95]
theorem piece5_sub : (piece5 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub ..⟩

/-- Statements 121 … 150 of @main: 30 operations. -/
abbrev piece6 : List (HloOp τ sig (Elt F)) :=
  [ StableHlo.binary main_v79 main_v95 main_v96 (addi : (⟨S850000, .i32⟩ : BufTy).Contents (Elt F) → (⟨S850000, .i32⟩ : BufTy).Contents (Elt F) → (⟨S850000, .i32⟩ : BufTy).Contents (Elt F)),
    StableHlo.ternary main_v94 main_v96 main_v79 main_v97 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v97 main_v98 (broadcastInDim S850000x1 ![0] bcast_S850000_S850000x1_0 : (⟨S850000, .i32⟩ : BufTy).Contents (Elt F) → (⟨S850000x1, .i32⟩ : BufTy).Contents (Elt F)),
    StableHlo.binary main_v92 main_v98 main_v99 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_22 (constantI S_ 32 0#32),
    StableHlo.unary main_c_22 main_v100 (broadcastInDim S850000 ![] bcast_S_S850000 : (⟨S_, .i32⟩ : BufTy).Contents (Elt F) → (⟨S850000, .i32⟩ : BufTy).Contents (Elt F)),
    StableHlo.binary main_v82 main_v100 main_v101 (cmpi .slt : (⟨S850000, .i32⟩ : BufTy).Contents (Elt F) → (⟨S850000, .i32⟩ : BufTy).Contents (Elt F) → (⟨S850000, .i1⟩ : BufTy).Contents (Elt F)),
    StableHlo.nullary main_c_23 (constantI S_ 32 50000#32),
    StableHlo.unary main_c_23 main_v102 (broadcastInDim S850000 ![] bcast_S_S850000 : (⟨S_, .i32⟩ : BufTy).Contents (Elt F) → (⟨S850000, .i32⟩ : BufTy).Contents (Elt F)),
    StableHlo.binary main_v82 main_v102 main_v103 (addi : (⟨S850000, .i32⟩ : BufTy).Contents (Elt F) → (⟨S850000, .i32⟩ : BufTy).Contents (Elt F) → (⟨S850000, .i32⟩ : BufTy).Contents (Elt F)),
    StableHlo.ternary main_v101 main_v103 main_v82 main_v104 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v104 main_v105 (broadcastInDim S850000x1 ![0] bcast_S850000_S850000x1_0 : (⟨S850000, .i32⟩ : BufTy).Contents (Elt F) → (⟨S850000x1, .i32⟩ : BufTy).Contents (Elt F)),
    StableHlo.binary main_v92 main_v105 main_v106 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v99 main_v106 main_v107 (mulf : (⟨S850000, .f32⟩ : BufTy).Contents (Elt F) → (⟨S850000, .f32⟩ : BufTy).Contents (Elt F) → (⟨S850000, .f32⟩ : BufTy).Contents (Elt F)),
    StableHlo.nullary main_c_24 (constantI S_ 32 0#32),
    StableHlo.unary main_c_24 main_v108 (broadcastInDim S850000 ![] bcast_S_S850000 : (⟨S_, .i32⟩ : BufTy).Contents (Elt F) → (⟨S850000, .i32⟩ : BufTy).Contents (Elt F)),
    StableHlo.binary main_v79 main_v108 main_v109 (cmpi .slt : (⟨S850000, .i32⟩ : BufTy).Contents (Elt F) → (⟨S850000, .i32⟩ : BufTy).Contents (Elt F) → (⟨S850000, .i1⟩ : BufTy).Contents (Elt F)),
    StableHlo.nullary main_c_25 (constantI S_ 32 50000#32),
    StableHlo.unary main_c_25 main_v110 (broadcastInDim S850000 ![] bcast_S_S850000 : (⟨S_, .i32⟩ : BufTy).Contents (Elt F) → (⟨S850000, .i32⟩ : BufTy).Contents (Elt F)),
    StableHlo.binary main_v79 main_v110 main_v111 (addi : (⟨S850000, .i32⟩ : BufTy).Contents (Elt F) → (⟨S850000, .i32⟩ : BufTy).Contents (Elt F) → (⟨S850000, .i32⟩ : BufTy).Contents (Elt F)),
    StableHlo.ternary main_v109 main_v111 main_v79 main_v112 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v112 main_v113 (broadcastInDim S850000x1 ![0] bcast_S850000_S850000x1_0 : (⟨S850000, .i32⟩ : BufTy).Contents (Elt F) → (⟨S850000x1, .i32⟩ : BufTy).Contents (Elt F)),
    StableHlo.binary main_v75 main_v113 main_v114 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v107 main_v115 (broadcastInDim S850000x1 ![0] bcast_S850000_S850000x1_0 : (⟨S850000, .f32⟩ : BufTy).Contents (Elt F) → (⟨S850000x1, .f32⟩ : BufTy).Contents (Elt F)),
    StableHlo.unary main_v115 main_v116 (broadcastInDim S850000x64 ![0, 1] bcast_S850000x1_S850000x64_0_1 : (⟨S850000x1, .f32⟩ : BufTy).Contents (Elt F) → (⟨S850000x64, .f32⟩ : BufTy).Contents (Elt F)),
    StableHlo.binary main_v114 main_v116 main_v117 (mulf : (⟨S850000x64, .f32⟩ : BufTy).Contents (Elt F) → (⟨S850000x64, .f32⟩ : BufTy).Contents (Elt F) → (⟨S850000x64, .f32⟩ : BufTy).Contents (Elt F)),
    StableHlo.nullary main_cst_26 (constant S_ .f32 0x00000000#32),
    StableHlo.unary main_cst_26 main_v118 (broadcastInDim S50000x64 ![] bcast_S_S50000x64 : (⟨S_, .f32⟩ : BufTy).Contents (Elt F) → (⟨S50000x64, .f32⟩ : BufTy).Contents (Elt F)),
    StableHlo.unary main_v82 main_v119 (broadcastInDim S850000x1 ![0] bcast_S850000_S850000x1_0 : (⟨S850000, .i32⟩ : BufTy).Contents (Elt F) → (⟨S850000x1, .i32⟩ : BufTy).Contents (Elt F)),
    StableHlo.ternary main_v118 main_v119 main_v117 main_v120 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]
/-- The references those operations write, in order. -/
abbrev writes6 : List (Ref sig .tc) :=
  [main_v96, main_v97, main_v98, main_v99, main_c_22, main_v100, main_v101, main_c_23, main_v102, main_v103, main_v104, main_v105, main_v106, main_v107, main_c_24, main_v108, main_v109, main_c_25, main_v110, main_v111, main_v112, main_v113, main_v114, main_v115, main_v116, main_v117, main_cst_26, main_v118, main_v119, main_v120]
theorem piece6_sub : (piece6 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

/-- Statements 151 … 180 of @main: 30 operations. -/
abbrev piece7 : List (HloOp τ sig (Elt F)) :=
  [ StableHlo.unary main_arg9 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S50000x64 ![0, 1] bcast_S1x64_S50000x64_0_1 : (⟨S1x64, .f32⟩ : BufTy).Contents (Elt F) → (⟨S50000x64, .f32⟩ : BufTy).Contents (Elt F)),
    StableHlo.binary main_v120 main_v122 main_v123 (addf : (⟨S50000x64, .f32⟩ : BufTy).Contents (Elt F) → (⟨S50000x64, .f32⟩ : BufTy).Contents (Elt F) → (⟨S50000x64, .f32⟩ : BufTy).Contents (Elt F)),
    StableHlo.nullary main_cst_27 (constant S_ .f32 0x00000000#32),
    StableHlo.binary main_v123 main_cst_27 main_v124 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v124 main_v125 (broadcastInDim S50000x1 ![0] bcast_S50000_S50000x1_0 : (⟨S50000, .f32⟩ : BufTy).Contents (Elt F) → (⟨S50000x1, .f32⟩ : BufTy).Contents (Elt F)),
    StableHlo.nullary main_cst_28 (constant S_ .f32 0x42800000#32),
    StableHlo.unary main_cst_28 main_v126 (broadcastInDim S50000x1 ![] bcast_S_S50000x1 : (⟨S_, .f32⟩ : BufTy).Contents (Elt F) → (⟨S50000x1, .f32⟩ : BufTy).Contents (Elt F)),
    StableHlo.binary main_v125 main_v126 main_v127 (Host.divf : (⟨S50000x1, .f32⟩ : BufTy).Contents (Elt F) → (⟨S50000x1, .f32⟩ : BufTy).Contents (Elt F) → (⟨S50000x1, .f32⟩ : BufTy).Contents (Elt F)),
    StableHlo.unary main_v127 main_v128 (broadcastInDim S50000x64 ![0, 1] bcast_S50000x1_S50000x64_0_1 : (⟨S50000x1, .f32⟩ : BufTy).Contents (Elt F) → (⟨S50000x64, .f32⟩ : BufTy).Contents (Elt F)),
    StableHlo.binary main_v123 main_v128 main_v129 (subf : (⟨S50000x64, .f32⟩ : BufTy).Contents (Elt F) → (⟨S50000x64, .f32⟩ : BufTy).Contents (Elt F) → (⟨S50000x64, .f32⟩ : BufTy).Contents (Elt F)),
    StableHlo.binary main_v129 main_v129 main_v130 (mulf : (⟨S50000x64, .f32⟩ : BufTy).Contents (Elt F) → (⟨S50000x64, .f32⟩ : BufTy).Contents (Elt F) → (⟨S50000x64, .f32⟩ : BufTy).Contents (Elt F)),
    StableHlo.nullary main_cst_29 (constant S_ .f32 0x00000000#32),
    StableHlo.binary main_v130 main_cst_29 main_v131 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v131 main_v132 (broadcastInDim S50000x1 ![0] bcast_S50000_S50000x1_0 : (⟨S50000, .f32⟩ : BufTy).Contents (Elt F) → (⟨S50000x1, .f32⟩ : BufTy).Contents (Elt F)),
    StableHlo.nullary main_cst_30 (constant S_ .f32 0x42800000#32),
    StableHlo.unary main_cst_30 main_v133 (broadcastInDim S50000x1 ![] bcast_S_S50000x1 : (⟨S_, .f32⟩ : BufTy).Contents (Elt F) → (⟨S50000x1, .f32⟩ : BufTy).Contents (Elt F)),
    StableHlo.binary main_v132 main_v133 main_v134 (Host.divf : (⟨S50000x1, .f32⟩ : BufTy).Contents (Elt F) → (⟨S50000x1, .f32⟩ : BufTy).Contents (Elt F) → (⟨S50000x1, .f32⟩ : BufTy).Contents (Elt F)),
    StableHlo.unary main_v127 main_v135 (broadcastInDim S50000x64 ![0, 1] bcast_S50000x1_S50000x64_0_1 : (⟨S50000x1, .f32⟩ : BufTy).Contents (Elt F) → (⟨S50000x64, .f32⟩ : BufTy).Contents (Elt F)),
    StableHlo.binary main_v123 main_v135 main_v136 (subf : (⟨S50000x64, .f32⟩ : BufTy).Contents (Elt F) → (⟨S50000x64, .f32⟩ : BufTy).Contents (Elt F) → (⟨S50000x64, .f32⟩ : BufTy).Contents (Elt F)),
    StableHlo.nullary main_cst_31 (constant S_ .f32 0x3727C5AC#32),
    StableHlo.unary main_cst_31 main_v137 (broadcastInDim S50000x1 ![] bcast_S_S50000x1 : (⟨S_, .f32⟩ : BufTy).Contents (Elt F) → (⟨S50000x1, .f32⟩ : BufTy).Contents (Elt F)),
    StableHlo.binary main_v134 main_v137 main_v138 (addf : (⟨S50000x1, .f32⟩ : BufTy).Contents (Elt F) → (⟨S50000x1, .f32⟩ : BufTy).Contents (Elt F) → (⟨S50000x1, .f32⟩ : BufTy).Contents (Elt F)),
    StableHlo.unary main_v138 main_v139 (Host.rsqrt : (⟨S50000x1, .f32⟩ : BufTy).Contents (Elt F) → (⟨S50000x1, .f32⟩ : BufTy).Contents (Elt F)),
    StableHlo.unary main_v139 main_v140 (broadcastInDim S50000x64 ![0, 1] bcast_S50000x1_S50000x64_0_1 : (⟨S50000x1, .f32⟩ : BufTy).Contents (Elt F) → (⟨S50000x64, .f32⟩ : BufTy).Contents (Elt F)),
    StableHlo.binary main_v136 main_v140 main_v141 (mulf : (⟨S50000x64, .f32⟩ : BufTy).Contents (Elt F) → (⟨S50000x64, .f32⟩ : BufTy).Contents (Elt F) → (⟨S50000x64, .f32⟩ : BufTy).Contents (Elt F)),
    StableHlo.unary main_arg10 main_v142 (broadcastInDim S1x64 ![1] bcast_S64_S1x64_1 : (⟨S64, .f32⟩ : BufTy).Contents (Elt F) → (⟨S1x64, .f32⟩ : BufTy).Contents (Elt F)),
    StableHlo.unary main_v142 main_v143 (broadcastInDim S50000x64 ![0, 1] bcast_S1x64_S50000x64_0_1 : (⟨S1x64, .f32⟩ : BufTy).Contents (Elt F) → (⟨S50000x64, .f32⟩ : BufTy).Contents (Elt F)),
    StableHlo.binary main_v141 main_v143 main_v144 (mulf : (⟨S50000x64, .f32⟩ : BufTy).Contents (Elt F) → (⟨S50000x64, .f32⟩ : BufTy).Contents (Elt F) → (⟨S50000x64, .f32⟩ : BufTy).Contents (Elt F)),
    StableHlo.unary main_arg11 main_v145 (broadcastInDim S1x64 ![1] bcast_S64_S1x64_1 : (⟨S64, .f32⟩ : BufTy).Contents (Elt F) → (⟨S1x64, .f32⟩ : BufTy).Contents (Elt F)) ]
/-- The references those operations write, in order. -/
abbrev writes7 : List (Ref sig .tc) :=
  [main_v121, main_v122, main_v123, main_cst_27, main_v124, main_v125, main_cst_28, main_v126, main_v127, main_v128, main_v129, main_v130, main_cst_29, main_v131, main_v132, main_cst_30, main_v133, main_v134, main_v135, main_v136, main_cst_31, main_v137, main_v138, main_v139, main_v140, main_v141, main_v142, main_v143, main_v144, main_v145]
theorem piece7_sub : (piece7 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub ..⟩

/-- Statements 181 … 183 of @main: 17 operations. -/
abbrev piece8 : List (HloOp τ sig (Elt F)) :=
  [ StableHlo.unary main_v145 main_v146 (broadcastInDim S50000x64 ![0, 1] bcast_S1x64_S50000x64_0_1 : (⟨S1x64, .f32⟩ : BufTy).Contents (Elt F) → (⟨S50000x64, .f32⟩ : BufTy).Contents (Elt F)),
    StableHlo.binary main_v144 main_v146 main_v147 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v147) main_call3.v0 main_call3.v1 (cmpf .ogt),
    StableHlo.TRef.nullary main_call3.cst_0 (constant S_ .f32 0x00000000#32),
    StableHlo.TRef.unary main_call3.cst_0 main_call3.v2 (broadcastInDim S50000x64 ![] bcast_S_S50000x64),
    StableHlo.TRef.binary (.of main_v147) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x64 ![] bcast_S_S50000x64),
    StableHlo.TRef.ternary main_call3.v3 main_call3.call0.v1 (.of main_v147) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x64 ![] bcast_S_S50000x64),
    StableHlo.TRef.binary main_call3.v6 main_call3.v5 main_call3.v7 mulf,
    StableHlo.TRef.ternary main_call3.v1 (.of main_v147) main_call3.v7 main_call3.call1.v0 select ]
/-- The references those operations write, in order. -/
abbrev writes8 : List (Ref sig .tc) :=
  [main_v146, main_v147, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v148]
theorem piece8_sub : (piece8 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Statements 184 … 186 of @main: 3 operations. -/
abbrev piece9 : List (HloOp τ sig (Elt F)) :=
  [ StableHlo.binary main_v73 main_v148 main_v149 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    StableHlo.binary main_arg1 main_arg2 main_v150 ((fun a b => concatenate S2x1600000 1 [⟨S2x800000, a⟩, ⟨S2x800000, b⟩] concatenates_S2x800000_S2x800000_S2x1600000_d1) : (⟨S2x800000, .i32⟩ : BufTy).Contents (Elt F) → (⟨S2x800000, .i32⟩ : BufTy).Contents (Elt F) → (⟨S2x1600000, .i32⟩ : BufTy).Contents (Elt F)),
    StableHlo.binary main_v149 main_arg12 main_v151 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
/-- The references those operations write, in order. -/
abbrev writes9 : List (Ref sig .tc) :=
  [main_v149, main_v150, main_v151]
theorem piece9_sub : (piece9 : List (HloOp τ sig (Elt F))).Forall fun op => op.bufs ⊆ tcRefs τ sig :=
  ⟨binary_bufs_sub .., binary_bufs_sub .., binary_bufs_sub ..⟩

/-- Statements 187 … 240 of @main: 56 operations. -/
abbrev piece10 : List (HloOp τ sig (Elt F)) :=
  [ StableHlo.nullary main_v152 (iotaInDim S50000 32 0),
    StableHlo.unary main_v150 main_v153 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v153 main_v154 rfl shapeCasts_S1x1600000_S1600000,
    StableHlo.binary main_v154 main_v152 main_v155 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_v150 main_v156 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v156 main_v157 rfl shapeCasts_S1x1600000_S1600000,
    StableHlo.binary main_v157 main_v152 main_v158 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.nullary main_cst_32 (constant S_ .f32 0x3F800000#32),
    StableHlo.unary main_cst_32 main_v159 (broadcastInDim S1650000 ![] bcast_S_S1650000 : (⟨S_, .f32⟩ : BufTy).Contents (Elt F) → (⟨S1650000, .f32⟩ : BufTy).Contents (Elt F)),
    StableHlo.nullary main_cst_33 (constant S_ .f32 0x00000000#32),
    StableHlo.unary main_cst_33 main_v160 (broadcastInDim S50000 ![] bcast_S_S50000 : (⟨S_, .f32⟩ : BufTy).Contents (Elt F) → (⟨S50000, .f32⟩ : BufTy).Contents (Elt F)),
    StableHlo.unary main_v158 main_v161 (broadcastInDim S1650000x1 ![0] bcast_S1650000_S1650000x1_0 : (⟨S1650000, .i32⟩ : BufTy).Contents (Elt F) → (⟨S1650000x1, .i32⟩ : BufTy).Contents (Elt F)),
    StableHlo.ternary main_v160 main_v161 main_v159 main_v162 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_34 (constant S_ .f32 0x00000000#32),
    StableHlo.unary main_cst_34 main_v163 (broadcastInDim S50000 ![] bcast_S_S50000 : (⟨S_, .f32⟩ : BufTy).Contents (Elt F) → (⟨S50000, .f32⟩ : BufTy).Contents (Elt F)),
    StableHlo.binary main_v162 main_v163 main_v164 (cmpf .ogt : (⟨S50000, .f32⟩ : BufTy).Contents (Elt F) → (⟨S50000, .f32⟩ : BufTy).Contents (Elt F) → (⟨S50000, .i1⟩ : BufTy).Contents (Elt F)),
    StableHlo.nullary main_cst_35 (constant S_ .f32 0x3F800000#32),
    StableHlo.unary main_cst_35 main_v165 (broadcastInDim S50000 ![] bcast_S_S50000 : (⟨S_, .f32⟩ : BufTy).Contents (Elt F) → (⟨S50000, .f32⟩ : BufTy).Contents (Elt F)),
    StableHlo.binary main_v162 main_v165 main_v166 (maximumf : (⟨S50000, .f32⟩ : BufTy).Contents (Elt F) → (⟨S50000, .f32⟩ : BufTy).Contents (Elt F) → (⟨S50000, .f32⟩ : BufTy).Contents (Elt F)),
    StableHlo.unary main_v166 main_v167 (Host.rsqrt : (⟨S50000, .f32⟩ : BufTy).Contents (Elt F) → (⟨S50000, .f32⟩ : BufTy).Contents (Elt F)),
    StableHlo.nullary main_cst_36 (constant S_ .f32 0x00000000#32),
    StableHlo.TRef.unary (.of main_cst_36) main_call4.v0 id,
    StableHlo.TRef.unary main_call4.v0 main_call4.v1 (broadcastInDim S50000 ![] bcast_S_S50000),
    StableHlo.TRef.ternary (.of main_v164) (.of main_v167) main_call4.v1 main_call4.v2 select,
    StableHlo.nullary main_c_37 (constantI S_ 32 0#32),
    StableHlo.unary main_c_37 main_v169 (broadcastInDim S1650000 ![] bcast_S_S1650000 : (⟨S_, .i32⟩ : BufTy).Contents (Elt F) → (⟨S1650000, .i32⟩ : BufTy).Contents (Elt F)),
    StableHlo.binary main_v155 main_v169 main_v170 (cmpi .slt : (⟨S1650000, .i32⟩ : BufTy).Contents (Elt F) → (⟨S1650000, .i32⟩ : BufTy).Contents (Elt F) → (⟨S1650000, .i1⟩ : BufTy).Contents (Elt F)),
    StableHlo.nullary main_c_38 (constantI S_ 32 50000#32),
    StableHlo.unary main_c_38 main_v171 (broadcastInDim S1650000 ![] bcast_S_S1650000 : (⟨S_, .i32⟩ : BufTy).Contents (Elt F) → (⟨S1650000, .i32⟩ : BufTy).Contents (Elt F)),
    StableHlo.binary main_v155 main_v171 main_v172 (addi : (⟨S1650000, .i32⟩ : BufTy).Contents (Elt F) → (⟨S1650000, .i32⟩ : BufTy).Contents (Elt F) → (⟨S1650000, .i32⟩ : BufTy).Contents (Elt F)),
    StableHlo.ternary main_v170 main_v172 main_v155 main_v173 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v173 main_v174 (broadcastInDim S1650000x1 ![0] bcast_S1650000_S1650000x1_0 : (⟨S1650000, .i32⟩ : BufTy).Contents (Elt F) → (⟨S1650000x1, .i32⟩ : BufTy).Contents (Elt F)),
    StableHlo.binary main_v168 main_v174 main_v175 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.nullary main_c_39 (constantI S_ 32 0#32),
    StableHlo.unary main_c_39 main_v176 (broadcastInDim S1650000 ![] bcast_S_S1650000 : (⟨S_, .i32⟩ : BufTy).Contents (Elt F) → (⟨S1650000, .i32⟩ : BufTy).Contents (Elt F)),
    StableHlo.binary main_v158 main_v176 main_v177 (cmpi .slt : (⟨S1650000, .i32⟩ : BufTy).Contents (Elt F) → (⟨S1650000, .i32⟩ : BufTy).Contents (Elt F) → (⟨S1650000, .i1⟩ : BufTy).Contents (Elt F)),
    StableHlo.nullary main_c_40 (constantI S_ 32 50000#32),
    StableHlo.unary main_c_40 main_v178 (broadcastInDim S1650000 ![] bcast_S_S1650000 : (⟨S_, .i32⟩ : BufTy).Contents (Elt F) → (⟨S1650000, .i32⟩ : BufTy).Contents (Elt F)),
    StableHlo.binary main_v158 main_v178 main_v179 (addi : (⟨S1650000, .i32⟩ : BufTy).Contents (Elt F) → (⟨S1650000, .i32⟩ : BufTy).Contents (Elt F) → (⟨S1650000, .i32⟩ : BufTy).Contents (Elt F)),
    StableHlo.ternary main_v177 main_v179 main_v158 main_v180 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v180 main_v181 (broadcastInDim S1650000x1 ![0] bcast_S1650000_S1650000x1_0 : (⟨S1650000, .i32⟩ : BufTy).Contents (Elt F) → (⟨S1650000x1, .i32⟩ : BufTy).Contents (Elt F)),
    StableHlo.binary main_v168 main_v181 main_v182 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v175 main_v182 main_v183 (mulf : (⟨S1650000, .f32⟩ : BufTy).Contents (Elt F) → (⟨S1650000, .f32⟩ : BufTy).Contents (Elt F) → (⟨S1650000, .f32⟩ : BufTy).Contents (Elt F)),
    StableHlo.nullary main_c_41 (constantI S_ 32 0#32),
    StableHlo.unary main_c_41 main_v184 (broadcastInDim S1650000 ![] bcast_S_S1650000 : (⟨S_, .i32⟩ : BufTy).Contents (Elt F) → (⟨S1650000, .i32⟩ : BufTy).Contents (Elt F)),
    StableHlo.binary main_v155 main_v184 main_v185 (cmpi .slt : (⟨S1650000, .i32⟩ : BufTy).Contents (Elt F) → (⟨S1650000, .i32⟩ : BufTy).Contents (Elt F) → (⟨S1650000, .i1⟩ : BufTy).Contents (Elt F)),
    StableHlo.nullary main_c_42 (constantI S_ 32 50000#32),
    StableHlo.unary main_c_42 main_v186 (broadcastInDim S1650000 ![] bcast_S_S1650000 : (⟨S_, .i32⟩ : BufTy).Contents (Elt F) → (⟨S1650000, .i32⟩ : BufTy).Contents (Elt F)),
    StableHlo.binary main_v155 main_v186 main_v187 (addi : (⟨S1650000, .i32⟩ : BufTy).Contents (Elt F) → (⟨S1650000, .i32⟩ : BufTy).Contents (Elt F) → (⟨S1650000, .i32⟩ : BufTy).Contents (Elt F)),
    StableHlo.ternary main_v185 main_v187 main_v155 main_v188 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v188 main_v189 (broadcastInDim S1650000x1 ![0] bcast_S1650000_S1650000x1_0 : (⟨S1650000, .i32⟩ : BufTy).Contents (Elt F) → (⟨S1650000x1, .i32⟩ : BufTy).Contents (Elt F)),
    StableHlo.binary main_v151 main_v189 main_v190 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v183 main_v191 (broadcastInDim S1650000x1 ![0] bcast_S1650000_S1650000x1_0 : (⟨S1650000, .f32⟩ : BufTy).Contents (Elt F) → (⟨S1650000x1, .f32⟩ : BufTy).Contents (Elt F)),
    StableHlo.unary main_v191 main_v192 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v190 main_v192 main_v193 (mulf : (⟨S1650000x128, .f32⟩ : BufTy).Contents (Elt F) → (⟨S1650000x128, .f32⟩ : BufTy).Contents (Elt F) → (⟨S1650000x128, .f32⟩ : BufTy).Contents (Elt F)),
    StableHlo.nullary main_cst_43 (constant S_ .f32 0x00000000#32) ]
/-- The references those operations write, in order. -/
abbrev writes10 : List (Ref sig .tc) :=
  [main_v152, main_v153, main_v154, main_v155, main_v156, main_v157, main_v158, main_cst_32, main_v159, main_cst_33, main_v160, main_v161, main_v162, main_cst_34, main_v163, main_v164, main_cst_35, main_v165, main_v166, main_v167, main_cst_36, main_call4_v0, main_call4_v1, main_v168, main_c_37, main_v169, main_v170, main_c_38, main_v171, main_v172, main_v173, main_v174, main_v175, main_c_39, main_v176, main_v177, main_c_40, main_v178, main_v179, main_v180, main_v181, main_v182, main_v183, main_c_41, main_v184, main_v185, main_c_42, main_v186, main_v187, main_v188, main_v189, main_v190, main_v191, main_v192, main_v193, main_cst_43]
theorem piece10_sub : (piece10 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub ..⟩

/-- Statements 241 … 243 of @main: 3 operations. -/
abbrev piece11 : List (HloOp τ sig (Elt F)) :=
  [ StableHlo.unary main_cst_43 main_v194 (broadcastInDim S50000x128 ![] bcast_S_S50000x128 : (⟨S_, .f32⟩ : BufTy).Contents (Elt F) → (⟨S50000x128, .f32⟩ : BufTy).Contents (Elt F)),
    StableHlo.unary main_v158 main_v195 (broadcastInDim S1650000x1 ![0] bcast_S1650000_S1650000x1_0 : (⟨S1650000, .i32⟩ : BufTy).Contents (Elt F) → (⟨S1650000x1, .i32⟩ : BufTy).Contents (Elt F)),
    StableHlo.ternary main_v194 main_v195 main_v193 main_v196 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]
/-- The references those operations write, in order. -/
abbrev writes11 : List (Ref sig .tc) :=
  [main_v194, main_v195, main_v196]
theorem piece11_sub : (piece11 : List (HloOp τ sig (Elt F))).Forall fun op => op.bufs ⊆ tcRefs τ sig :=
  ⟨unary_bufs_sub .., unary_bufs_sub .., ternary_bufs_sub ..⟩

/-- Statements 244 … 276 of @main: 47 operations. -/
abbrev piece12 : List (HloOp τ sig (Elt F)) :=
  [ StableHlo.unary main_arg13 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S50000x128 ![0, 1] bcast_S1x128_S50000x128_0_1 : (⟨S1x128, .f32⟩ : BufTy).Contents (Elt F) → (⟨S50000x128, .f32⟩ : BufTy).Contents (Elt F)),
    StableHlo.binary main_v196 main_v198 main_v199 (addf : (⟨S50000x128, .f32⟩ : BufTy).Contents (Elt F) → (⟨S50000x128, .f32⟩ : BufTy).Contents (Elt F) → (⟨S50000x128, .f32⟩ : BufTy).Contents (Elt F)),
    StableHlo.nullary main_cst_44 (constant S_ .f32 0x00000000#32),
    StableHlo.binary main_v199 main_cst_44 main_v200 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v200 main_v201 (broadcastInDim S50000x1 ![0] bcast_S50000_S50000x1_0 : (⟨S50000, .f32⟩ : BufTy).Contents (Elt F) → (⟨S50000x1, .f32⟩ : BufTy).Contents (Elt F)),
    StableHlo.nullary main_cst_45 (constant S_ .f32 0x43000000#32),
    StableHlo.unary main_cst_45 main_v202 (broadcastInDim S50000x1 ![] bcast_S_S50000x1 : (⟨S_, .f32⟩ : BufTy).Contents (Elt F) → (⟨S50000x1, .f32⟩ : BufTy).Contents (Elt F)),
    StableHlo.binary main_v201 main_v202 main_v203 (Host.divf : (⟨S50000x1, .f32⟩ : BufTy).Contents (Elt F) → (⟨S50000x1, .f32⟩ : BufTy).Contents (Elt F) → (⟨S50000x1, .f32⟩ : BufTy).Contents (Elt F)),
    StableHlo.unary main_v203 main_v204 (broadcastInDim S50000x128 ![0, 1] bcast_S50000x1_S50000x128_0_1 : (⟨S50000x1, .f32⟩ : BufTy).Contents (Elt F) → (⟨S50000x128, .f32⟩ : BufTy).Contents (Elt F)),
    StableHlo.binary main_v199 main_v204 main_v205 (subf : (⟨S50000x128, .f32⟩ : BufTy).Contents (Elt F) → (⟨S50000x128, .f32⟩ : BufTy).Contents (Elt F) → (⟨S50000x128, .f32⟩ : BufTy).Contents (Elt F)),
    StableHlo.binary main_v205 main_v205 main_v206 (mulf : (⟨S50000x128, .f32⟩ : BufTy).Contents (Elt F) → (⟨S50000x128, .f32⟩ : BufTy).Contents (Elt F) → (⟨S50000x128, .f32⟩ : BufTy).Contents (Elt F)),
    StableHlo.nullary main_cst_46 (constant S_ .f32 0x00000000#32),
    StableHlo.binary main_v206 main_cst_46 main_v207 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v207 main_v208 (broadcastInDim S50000x1 ![0] bcast_S50000_S50000x1_0 : (⟨S50000, .f32⟩ : BufTy).Contents (Elt F) → (⟨S50000x1, .f32⟩ : BufTy).Contents (Elt F)),
    StableHlo.nullary main_cst_47 (constant S_ .f32 0x43000000#32),
    StableHlo.unary main_cst_47 main_v209 (broadcastInDim S50000x1 ![] bcast_S_S50000x1 : (⟨S_, .f32⟩ : BufTy).Contents (Elt F) → (⟨S50000x1, .f32⟩ : BufTy).Contents (Elt F)),
    StableHlo.binary main_v208 main_v209 main_v210 (Host.divf : (⟨S50000x1, .f32⟩ : BufTy).Contents (Elt F) → (⟨S50000x1, .f32⟩ : BufTy).Contents (Elt F) → (⟨S50000x1, .f32⟩ : BufTy).Contents (Elt F)),
    StableHlo.unary main_v203 main_v211 (broadcastInDim S50000x128 ![0, 1] bcast_S50000x1_S50000x128_0_1 : (⟨S50000x1, .f32⟩ : BufTy).Contents (Elt F) → (⟨S50000x128, .f32⟩ : BufTy).Contents (Elt F)),
    StableHlo.binary main_v199 main_v211 main_v212 (subf : (⟨S50000x128, .f32⟩ : BufTy).Contents (Elt F) → (⟨S50000x128, .f32⟩ : BufTy).Contents (Elt F) → (⟨S50000x128, .f32⟩ : BufTy).Contents (Elt F)),
    StableHlo.nullary main_cst_48 (constant S_ .f32 0x3727C5AC#32),
    StableHlo.unary main_cst_48 main_v213 (broadcastInDim S50000x1 ![] bcast_S_S50000x1 : (⟨S_, .f32⟩ : BufTy).Contents (Elt F) → (⟨S50000x1, .f32⟩ : BufTy).Contents (Elt F)),
    StableHlo.binary main_v210 main_v213 main_v214 (addf : (⟨S50000x1, .f32⟩ : BufTy).Contents (Elt F) → (⟨S50000x1, .f32⟩ : BufTy).Contents (Elt F) → (⟨S50000x1, .f32⟩ : BufTy).Contents (Elt F)),
    StableHlo.unary main_v214 main_v215 (Host.rsqrt : (⟨S50000x1, .f32⟩ : BufTy).Contents (Elt F) → (⟨S50000x1, .f32⟩ : BufTy).Contents (Elt F)),
    StableHlo.unary main_v215 main_v216 (broadcastInDim S50000x128 ![0, 1] bcast_S50000x1_S50000x128_0_1 : (⟨S50000x1, .f32⟩ : BufTy).Contents (Elt F) → (⟨S50000x128, .f32⟩ : BufTy).Contents (Elt F)),
    StableHlo.binary main_v212 main_v216 main_v217 (mulf : (⟨S50000x128, .f32⟩ : BufTy).Contents (Elt F) → (⟨S50000x128, .f32⟩ : BufTy).Contents (Elt F) → (⟨S50000x128, .f32⟩ : BufTy).Contents (Elt F)),
    StableHlo.unary main_arg14 main_v218 (broadcastInDim S1x128 ![1] bcast_S128_S1x128_1 : (⟨S128, .f32⟩ : BufTy).Contents (Elt F) → (⟨S1x128, .f32⟩ : BufTy).Contents (Elt F)),
    StableHlo.unary main_v218 main_v219 (broadcastInDim S50000x128 ![0, 1] bcast_S1x128_S50000x128_0_1 : (⟨S1x128, .f32⟩ : BufTy).Contents (Elt F) → (⟨S50000x128, .f32⟩ : BufTy).Contents (Elt F)),
    StableHlo.binary main_v217 main_v219 main_v220 (mulf : (⟨S50000x128, .f32⟩ : BufTy).Contents (Elt F) → (⟨S50000x128, .f32⟩ : BufTy).Contents (Elt F) → (⟨S50000x128, .f32⟩ : BufTy).Contents (Elt F)),
    StableHlo.unary main_arg15 main_v221 (broadcastInDim S1x128 ![1] bcast_S128_S1x128_1 : (⟨S128, .f32⟩ : BufTy).Contents (Elt F) → (⟨S1x128, .f32⟩ : BufTy).Contents (Elt F)),
    StableHlo.unary main_v221 main_v222 (broadcastInDim S50000x128 ![0, 1] bcast_S1x128_S50000x128_0_1 : (⟨S1x128, .f32⟩ : BufTy).Contents (Elt F) → (⟨S50000x128, .f32⟩ : BufTy).Contents (Elt F)),
    StableHlo.binary main_v220 main_v222 main_v223 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v223) main_call5.v0 main_call5.v1 (cmpf .ogt),
    StableHlo.TRef.nullary main_call5.cst_0 (constant S_ .f32 0x00000000#32),
    StableHlo.TRef.unary main_call5.cst_0 main_call5.v2 (broadcastInDim S50000x128 ![] bcast_S_S50000x128),
    StableHlo.TRef.binary (.of main_v223) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S50000x128 ![] bcast_S_S50000x128),
    StableHlo.TRef.ternary main_call5.v3 main_call5.call0.v1 (.of main_v223) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S50000x128 ![] bcast_S_S50000x128),
    StableHlo.TRef.binary main_call5.v6 main_call5.v5 main_call5.v7 mulf,
    StableHlo.TRef.ternary main_call5.v1 (.of main_v223) main_call5.v7 main_call5.call1.v0 select ]
/-- The references those operations write, in order. -/
abbrev writes12 : List (Ref sig .tc) :=
  [main_v197, main_v198, main_v199, main_cst_44, main_v200, main_v201, main_cst_45, main_v202, main_v203, main_v204, main_v205, main_v206, main_cst_46, main_v207, main_v208, main_cst_47, main_v209, main_v210, main_v211, main_v212, main_cst_48, main_v213, main_v214, main_v215, main_v216, main_v217, main_v218, main_v219, main_v220, main_v221, main_v222, main_v223, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v224]
theorem piece12_sub : (piece12 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Statements 277 … 281 of @main: 5 operations. -/
abbrev piece13 : List (HloOp τ sig (Elt F)) :=
  [ StableHlo.binary main_v224 main_arg16 main_v225 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg17 main_v226 (broadcastInDim S1x1 ![1] bcast_S1_S1x1_1 : (⟨S1, .f32⟩ : BufTy).Contents (Elt F) → (⟨S1x1, .f32⟩ : BufTy).Contents (Elt F)),
    StableHlo.unary main_v226 main_v227 (broadcastInDim S50000x1 ![0, 1] bcast_S1x1_S50000x1_0_1 : (⟨S1x1, .f32⟩ : BufTy).Contents (Elt F) → (⟨S50000x1, .f32⟩ : BufTy).Contents (Elt F)),
    StableHlo.binary main_v225 main_v227 main_v228 (addf : (⟨S50000x1, .f32⟩ : BufTy).Contents (Elt F) → (⟨S50000x1, .f32⟩ : BufTy).Contents (Elt F) → (⟨S50000x1, .f32⟩ : BufTy).Contents (Elt F)),
    StableHlo.reshape main_v228 main_v229 rfl shapeCasts_S50000x1_S50000 ]
/-- The references those operations write, in order. -/
abbrev writes13 : List (Ref sig .tc) :=
  [main_v225, main_v226, main_v227, main_v228, main_v229]
theorem piece13_sub : (piece13 : List (HloOp τ sig (Elt F))).Forall fun op => op.bufs ⊆ tcRefs τ sig :=
  ⟨binary_bufs_sub .., unary_bufs_sub .., unary_bufs_sub .., binary_bufs_sub .., reshape_bufs_sub ..⟩

/-- @main's operations, all of them, in order. -/
abbrev allOps : List (HloOp τ sig (Elt F)) :=
  piece0 ++ piece1 ++ piece2 ++ piece3 ++ piece4 ++ piece5 ++ piece6 ++ piece7 ++ piece8 ++ piece9 ++ piece10 ++ piece11 ++ piece12 ++ piece13

end Cert.ReferenceIdeal.Ops

end
-- ==== Proof.RefRun.lean ====
/-
  The reference's run: @main IS the straight line of its operations (the calls of the outlined functions replaced by
  their bodies), so every weakly fair execution terminates with every buffer at the fold of the operations' results over
  the launch contents. For every float family.
-/
import proofs.«122206_j54812372631715_1_alg».proof.Proof.Gen.ReferenceIdeal
import proofs.«122206_j54812372631715_1_alg».proof.Proof.RefOps
import Idealize.ShloMosaic.Lib.StableHlo.Run

noncomputable section

namespace Cert.ReferenceIdeal.Run

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-! ## Each printed window is the line of its operations

A window is a chain of `hlo` steps, the calls among them chains of their own. With the callees' definitions unfolded at
their calls and sequencing re-associated (`bind_assoc`, `pure_bind`) both sides are the same chain of steps, read off
by computation. The window without a call is that chain as printed. -/

set_option maxRecDepth 8192 in
/-- Statements 1 … 60: one call of @_where. -/
theorem part0_eq (c : Dev nD) : main_part0 (F := F) c = seq (piece0 ++ piece1 ++ piece2) := by
  simp only [main_part0, fn_where.body, seq, List.cons_append, List.nil_append, bind_assoc, pure_bind]
  rfl

set_option maxRecDepth 8192 in
/-- Statements 61 … 120: a call of @elu (itself calling @_where_0 and @_where_1) and a call of @_where. -/
theorem part1_eq (c : Dev nD) : main_part1 (F := F) c = seq (piece3 ++ piece4 ++ piece5) := by
  simp only [main_part1, fn_where.body, fn_elu.body, fn_where_0.body, fn_where_1.body, seq, List.cons_append,
    List.nil_append, bind_assoc, pure_bind]
  rfl

set_option maxRecDepth 8192 in
/-- Statements 121 … 180: no call. -/
theorem part2_eq (c : Dev nD) : main_part2 (F := F) c = seq (piece6 ++ piece7) := rfl

set_option maxRecDepth 8192 in
/-- Statements 181 … 240: a call of @elu and a call of @_where. -/
theorem part3_eq (c : Dev nD) : main_part3 (F := F) c = seq (piece8 ++ piece9 ++ piece10) := by
  simp only [main_part3, fn_where.body, fn_elu.body, fn_where_0.body, fn_where_1.body, seq, List.cons_append,
    List.nil_append, bind_assoc, pure_bind]
  rfl

set_option maxRecDepth 8192 in
/-- Statements 241 … 282: a call of @elu_2 (itself calling @_where_3 and @_where_4), then the return. -/
theorem part4_eq (c : Dev nD) : main_part4 (F := F) c = seq (piece11 ++ piece12 ++ piece13) := by
  simp only [main_part4, fn_elu_2.body, fn_where_3.body, fn_where_4.body, seq, List.cons_append,
    List.nil_append, bind_assoc, pure_bind]

/-- The five windows' lists, one after the other, are the whole list: concatenation is associative. -/
theorem allOps_windows :
    (allOps : List (HloOp τ sig (Elt F)))
      = (piece0 ++ piece1 ++ piece2) ++ ((piece3 ++ piece4 ++ piece5) ++ ((piece6 ++ piece7)
          ++ ((piece8 ++ piece9 ++ piece10) ++ (piece11 ++ piece12 ++ piece13)))) := by
  simp only [allOps, List.append_assoc]

/-- @main is the sequence of its operations. -/
theorem main_eq (c : Dev nD) : main (F := F) c = seq (allOps (F := F)) := by
  rw [allOps_windows, seq_append (piece0 ++ piece1 ++ piece2), seq_append (piece3 ++ piece4 ++ piece5),
    seq_append (piece6 ++ piece7), seq_append (piece8 ++ piece9 ++ piece10),
    ← part0_eq c, ← part1_eq c, ← part2_eq c, ← part3_eq c, ← part4_eq c]
  rfl

/-- Every operation touches TensorCore references only. -/
theorem allOps_sub : (allOps : List (HloOp τ sig (Elt F))).Forall fun op => op.bufs ⊆ tcRefs τ sig := by
  unfold allOps
  exact List.forall_append.2 ⟨List.forall_append.2 ⟨List.forall_append.2 ⟨List.forall_append.2 ⟨List.forall_append.2
    ⟨List.forall_append.2 ⟨List.forall_append.2 ⟨List.forall_append.2 ⟨List.forall_append.2 ⟨List.forall_append.2
    ⟨List.forall_append.2 ⟨List.forall_append.2 ⟨List.forall_append.2 ⟨piece0_sub, piece1_sub⟩, piece2_sub⟩, piece3_sub⟩,
    piece4_sub⟩, piece5_sub⟩, piece6_sub⟩, piece7_sub⟩, piece8_sub⟩, piece9_sub⟩, piece10_sub⟩, piece11_sub⟩, piece12_sub⟩,
    piece13_sub⟩

/-! ## No operation allocates: each determines its results -/

theorem piece0_fresh : (piece0 : List (HloOp τ sig (Elt F))).Forall fun op => op.fresh = ∅ := by
  simp only [List.Forall]; repeat' constructor
theorem piece1_fresh : (piece1 : List (HloOp τ sig (Elt F))).Forall fun op => op.fresh = ∅ := by
  simp only [List.Forall]; repeat' constructor
theorem piece2_fresh : (piece2 : List (HloOp τ sig (Elt F))).Forall fun op => op.fresh = ∅ := by
  simp only [List.Forall]; repeat' constructor
theorem piece3_fresh : (piece3 : List (HloOp τ sig (Elt F))).Forall fun op => op.fresh = ∅ := by
  simp only [List.Forall]; repeat' constructor
theorem piece4_fresh : (piece4 : List (HloOp τ sig (Elt F))).Forall fun op => op.fresh = ∅ := by
  simp only [List.Forall]; repeat' constructor
theorem piece5_fresh : (piece5 : List (HloOp τ sig (Elt F))).Forall fun op => op.fresh = ∅ := by
  simp only [List.Forall]; repeat' constructor
theorem piece6_fresh : (piece6 : List (HloOp τ sig (Elt F))).Forall fun op => op.fresh = ∅ := by
  simp only [List.Forall]; repeat' constructor
theorem piece7_fresh : (piece7 : List (HloOp τ sig (Elt F))).Forall fun op => op.fresh = ∅ := by
  simp only [List.Forall]; repeat' constructor
theorem piece8_fresh : (piece8 : List (HloOp τ sig (Elt F))).Forall fun op => op.fresh = ∅ := by
  simp only [List.Forall]; repeat' constructor
theorem piece9_fresh : (piece9 : List (HloOp τ sig (Elt F))).Forall fun op => op.fresh = ∅ := by
  simp only [List.Forall]; repeat' constructor
theorem piece10_fresh : (piece10 : List (HloOp τ sig (Elt F))).Forall fun op => op.fresh = ∅ := by
  simp only [List.Forall]; repeat' constructor
theorem piece11_fresh : (piece11 : List (HloOp τ sig (Elt F))).Forall fun op => op.fresh = ∅ := by
  simp only [List.Forall]; repeat' constructor
theorem piece12_fresh : (piece12 : List (HloOp τ sig (Elt F))).Forall fun op => op.fresh = ∅ := by
  simp only [List.Forall]; repeat' constructor
theorem piece13_fresh : (piece13 : List (HloOp τ sig (Elt F))).Forall fun op => op.fresh = ∅ := by
  simp only [List.Forall]; repeat' constructor

/-- No operation of @main allocates a buffer. -/
theorem allOps_fresh : ∀ op ∈ (allOps : List (HloOp τ sig (Elt F))), op.fresh = ∅ := by
  intro op h
  simp only [allOps, List.mem_append] at h
  rcases h with (((((((((((((h | h) | h) | h) | h) | h) | h) | h) | h) | h) | h) | h) | h) | h)
  · exact List.forall_iff_forall_mem.1 piece0_fresh op h
  · exact List.forall_iff_forall_mem.1 piece1_fresh op h
  · exact List.forall_iff_forall_mem.1 piece2_fresh op h
  · exact List.forall_iff_forall_mem.1 piece3_fresh op h
  · exact List.forall_iff_forall_mem.1 piece4_fresh op h
  · exact List.forall_iff_forall_mem.1 piece5_fresh op h
  · exact List.forall_iff_forall_mem.1 piece6_fresh op h
  · exact List.forall_iff_forall_mem.1 piece7_fresh op h
  · exact List.forall_iff_forall_mem.1 piece8_fresh op h
  · exact List.forall_iff_forall_mem.1 piece9_fresh op h
  · exact List.forall_iff_forall_mem.1 piece10_fresh op h
  · exact List.forall_iff_forall_mem.1 piece11_fresh op h
  · exact List.forall_iff_forall_mem.1 piece12_fresh op h
  · exact List.forall_iff_forall_mem.1 piece13_fresh op h

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (allOps (F := F)) (launchContents m c) (Proc.devRef .tc b) :=
  run_seq scopedRefs_eq scopedSems_eq defs main (fun _ => allOps) main_eq (fun _ => allOps_sub) m ρ (fun _ => allOps_fresh)

end Cert.ReferenceIdeal.Run

end
-- ==== Proof.RefVal.lean ====
/-
  The reference's operations read as values: from any buffer contents `V`, after all of @main's operations the result
  buffer holds `RT.Out` of the argument buffers' contents, and no operation writes an argument. Stretch by stretch: each
  stretch leaves its result at the named term of what it reads, and keeps what it does not write. For every float family.
-/
import proofs.«122206_j54812372631715_1_alg».proof.Proof.Gen.ReferenceIdeal
import proofs.«122206_j54812372631715_1_alg».proof.Proof.RefTerms
import proofs.«122206_j54812372631715_1_alg».proof.Proof.RefOps
import Idealize.ShloMosaic.Lib.StableHlo.Run
import Idealize.ShloMosaic.Lib.Pipeline.Frame

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F] (V : Valuation τ sig (Elt F))

/-! ## What each stretch computes

For an arbitrary valuation `W` of the buffers: running a stretch from `W` leaves at the stretch's result buffer the
stretch's named term of what `W` holds at the buffers the stretch reads. Each is the fold of the stretch's operations,
every operation's result read at its own buffer and every other buffer passed through. -/

/-- `x @ W_corr`. -/
theorem v0_val (W : Valuation τ sig (Elt F)) : after (piece0 (F := F)) W (Proc.devRef .tc main_v0)
    = RT.dot0 (W (Proc.devRef .tc main_arg0)) (W (Proc.devRef .tc main_arg4)) := by
  after_results_simp
  rfl

set_option maxHeartbeats 2000000 in
/-- The 64-channel aggregation over the first edge list. -/
theorem v45_val (W : Valuation τ sig (Elt F)) : after (piece1 (F := F)) W (Proc.devRef .tc main_v45)
    = RT.agg64 (W (Proc.devRef .tc main_v0)) (W (Proc.devRef .tc main_arg1)) := by
  after_results_simp
  rfl

set_option maxHeartbeats 2000000 in
/-- The first layer's normalisation and `elu`. -/
theorem v73_val (W : Valuation τ sig (Elt F)) : after (piece3 (F := F)) (after piece2 W) (Proc.devRef .tc main_v73)
    = RT.lnelu64 (W (Proc.devRef .tc main_v45)) (W (Proc.devRef .tc main_arg5)) (W (Proc.devRef .tc main_arg6)) (W (Proc.devRef .tc main_arg7)) := by
  after_results_simp
  rfl

/-- `concat(x, x_lagged) @ W_vendor`. -/
theorem v75_val (W : Valuation τ sig (Elt F)) : after (piece4 (F := F)) W (Proc.devRef .tc main_v75)
    = RT.dot1 (W (Proc.devRef .tc main_arg0)) (W (Proc.devRef .tc main_arg3)) (W (Proc.devRef .tc main_arg8)) := by
  after_results_simp
  rfl

set_option maxHeartbeats 2000000 in
/-- The 64-channel aggregation over the second edge list. -/
theorem v120_val (W : Valuation τ sig (Elt F)) : after (piece6 (F := F)) (after piece5 W) (Proc.devRef .tc main_v120)
    = RT.agg64 (W (Proc.devRef .tc main_v75)) (W (Proc.devRef .tc main_arg2)) := by
  after_results_simp
  rfl

set_option maxHeartbeats 2000000 in
/-- The second layer's normalisation and `elu`. -/
theorem v148_val (W : Valuation τ sig (Elt F)) : after (piece8 (F := F)) (after piece7 W) (Proc.devRef .tc main_v148)
    = RT.lnelu64 (W (Proc.devRef .tc main_v120)) (W (Proc.devRef .tc main_arg9)) (W (Proc.devRef .tc main_arg10)) (W (Proc.devRef .tc main_arg11)) := by
  after_results_simp
  rfl

/-- `concat(h_corr, h_vendor) @ W_refine`. -/
theorem v151_val (W : Valuation τ sig (Elt F)) : after (piece9 (F := F)) W (Proc.devRef .tc main_v151)
    = RT.dot2 (W (Proc.devRef .tc main_v73)) (W (Proc.devRef .tc main_v148)) (W (Proc.devRef .tc main_arg12)) := by
  after_results_simp
  rfl

/-- The two edge lists side by side. -/
theorem v150_val (W : Valuation τ sig (Elt F)) : after (piece9 (F := F)) W (Proc.devRef .tc main_v150)
    = RT.ecat (W (Proc.devRef .tc main_arg1)) (W (Proc.devRef .tc main_arg2)) := by
  after_results_simp
  rfl

set_option maxHeartbeats 2000000 in
/-- The 128-channel aggregation over both edge lists. -/
theorem v196_val (W : Valuation τ sig (Elt F)) : after (piece11 (F := F)) (after piece10 W) (Proc.devRef .tc main_v196)
    = RT.agg128 (W (Proc.devRef .tc main_v151)) (W (Proc.devRef .tc main_v150)) := by
  after_results_simp
  rfl

set_option maxHeartbeats 2000000 in
/-- The third layer's normalisation and `elu`. -/
theorem v224_val (W : Valuation τ sig (Elt F)) : after (piece12 (F := F)) W (Proc.devRef .tc main_v224)
    = RT.lnelu128 (W (Proc.devRef .tc main_v196)) (W (Proc.devRef .tc main_arg13)) (W (Proc.devRef .tc main_arg14)) (W (Proc.devRef .tc main_arg15)) := by
  after_results_simp
  rfl

/-- The output projection, flattened. -/
theorem v229_val (W : Valuation τ sig (Elt F)) : after (piece13 (F := F)) W (Proc.devRef .tc main_v229)
    = RT.flat (RT.outcol (W (Proc.devRef .tc main_v224)) (W (Proc.devRef .tc main_arg16)) (W (Proc.devRef .tc main_arg17))) := by
  after_results_simp
  rfl

/-! ## What a piece does not write, it keeps

Every operation of a piece writes exactly one buffer, and that buffer's reference is in the piece's list of written
references; so a reference outside the list holds after the piece what it held before. -/

/-- An operation whose one written buffer is that of a listed reference writes within the list. -/
theorem sub_of_mem {op : HloOp τ sig (Elt F)} {y : Ref sig .tc} {L : List (Ref sig .tc)}
    (h : op.writes = {Proc.devRef .tc y}) (hy : y ∈ L) :
    op.writes ⊆ (L.map (Proc.devRef (τ := τ) .tc)).toFinset := by
  rw [h, Finset.singleton_subset_iff, List.mem_toFinset]
  exact List.mem_map_of_mem hy

theorem writes0_sub : (piece0 (F := F)).Forall fun op => op.writes ⊆ (writes0.map (Proc.devRef (τ := τ) .tc)).toFinset := by
  exact sub_of_mem rfl (by decide)

/-- Piece 0 keeps every reference it does not write. -/
theorem keep0 (W : Valuation τ sig (Elt F)) {r : Ref sig .tc} (hr : r ∉ writes0) :
    after (piece0 (F := F)) W (Proc.devRef .tc r) = W (Proc.devRef .tc r) :=
  after_of_writes_sub _ W writes0_sub hr

theorem writes1_sub : (piece1 (F := F)).Forall fun op => op.writes ⊆ (writes1.map (Proc.devRef (τ := τ) .tc)).toFinset := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact sub_of_mem rfl (by decide)

/-- Piece 1 keeps every reference it does not write. -/
theorem keep1 (W : Valuation τ sig (Elt F)) {r : Ref sig .tc} (hr : r ∉ writes1) :
    after (piece1 (F := F)) W (Proc.devRef .tc r) = W (Proc.devRef .tc r) :=
  after_of_writes_sub _ W writes1_sub hr

theorem writes2_sub : (piece2 (F := F)).Forall fun op => op.writes ⊆ (writes2.map (Proc.devRef (τ := τ) .tc)).toFinset := by
  refine ⟨?_, ?_⟩ <;> exact sub_of_mem rfl (by decide)

/-- Piece 2 keeps every reference it does not write. -/
theorem keep2 (W : Valuation τ sig (Elt F)) {r : Ref sig .tc} (hr : r ∉ writes2) :
    after (piece2 (F := F)) W (Proc.devRef .tc r) = W (Proc.devRef .tc r) :=
  after_of_writes_sub _ W writes2_sub hr

theorem writes3_sub : (piece3 (F := F)).Forall fun op => op.writes ⊆ (writes3.map (Proc.devRef (τ := τ) .tc)).toFinset := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact sub_of_mem rfl (by decide)

/-- Piece 3 keeps every reference it does not write. -/
theorem keep3 (W : Valuation τ sig (Elt F)) {r : Ref sig .tc} (hr : r ∉ writes3) :
    after (piece3 (F := F)) W (Proc.devRef .tc r) = W (Proc.devRef .tc r) :=
  after_of_writes_sub _ W writes3_sub hr

theorem writes4_sub : (piece4 (F := F)).Forall fun op => op.writes ⊆ (writes4.map (Proc.devRef (τ := τ) .tc)).toFinset := by
  refine ⟨?_, ?_⟩ <;> exact sub_of_mem rfl (by decide)

/-- Piece 4 keeps every reference it does not write. -/
theorem keep4 (W : Valuation τ sig (Elt F)) {r : Ref sig .tc} (hr : r ∉ writes4) :
    after (piece4 (F := F)) W (Proc.devRef .tc r) = W (Proc.devRef .tc r) :=
  after_of_writes_sub _ W writes4_sub hr

theorem writes5_sub : (piece5 (F := F)).Forall fun op => op.writes ⊆ (writes5.map (Proc.devRef (τ := τ) .tc)).toFinset := by
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> exact sub_of_mem rfl (by decide)

/-- Piece 5 keeps every reference it does not write. -/
theorem keep5 (W : Valuation τ sig (Elt F)) {r : Ref sig .tc} (hr : r ∉ writes5) :
    after (piece5 (F := F)) W (Proc.devRef .tc r) = W (Proc.devRef .tc r) :=
  after_of_writes_sub _ W writes5_sub hr

theorem writes6_sub : (piece6 (F := F)).Forall fun op => op.writes ⊆ (writes6.map (Proc.devRef (τ := τ) .tc)).toFinset := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact sub_of_mem rfl (by decide)

/-- Piece 6 keeps every reference it does not write. -/
theorem keep6 (W : Valuation τ sig (Elt F)) {r : Ref sig .tc} (hr : r ∉ writes6) :
    after (piece6 (F := F)) W (Proc.devRef .tc r) = W (Proc.devRef .tc r) :=
  after_of_writes_sub _ W writes6_sub hr

theorem writes7_sub : (piece7 (F := F)).Forall fun op => op.writes ⊆ (writes7.map (Proc.devRef (τ := τ) .tc)).toFinset := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact sub_of_mem rfl (by decide)

/-- Piece 7 keeps every reference it does not write. -/
theorem keep7 (W : Valuation τ sig (Elt F)) {r : Ref sig .tc} (hr : r ∉ writes7) :
    after (piece7 (F := F)) W (Proc.devRef .tc r) = W (Proc.devRef .tc r) :=
  after_of_writes_sub _ W writes7_sub hr

theorem writes8_sub : (piece8 (F := F)).Forall fun op => op.writes ⊆ (writes8.map (Proc.devRef (τ := τ) .tc)).toFinset := by
  refine ⟨?_, ?_, ?_, ?_, ?_, ?_, ?_, ?_, ?_, ?_, ?_, ?_, ?_, ?_, ?_, ?_, ?_⟩ <;> exact sub_of_mem rfl (by decide)

/-- Piece 8 keeps every reference it does not write. -/
theorem keep8 (W : Valuation τ sig (Elt F)) {r : Ref sig .tc} (hr : r ∉ writes8) :
    after (piece8 (F := F)) W (Proc.devRef .tc r) = W (Proc.devRef .tc r) :=
  after_of_writes_sub _ W writes8_sub hr

theorem writes9_sub : (piece9 (F := F)).Forall fun op => op.writes ⊆ (writes9.map (Proc.devRef (τ := τ) .tc)).toFinset := by
  refine ⟨?_, ?_, ?_⟩ <;> exact sub_of_mem rfl (by decide)

/-- Piece 9 keeps every reference it does not write. -/
theorem keep9 (W : Valuation τ sig (Elt F)) {r : Ref sig .tc} (hr : r ∉ writes9) :
    after (piece9 (F := F)) W (Proc.devRef .tc r) = W (Proc.devRef .tc r) :=
  after_of_writes_sub _ W writes9_sub hr

theorem writes10_sub : (piece10 (F := F)).Forall fun op => op.writes ⊆ (writes10.map (Proc.devRef (τ := τ) .tc)).toFinset := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact sub_of_mem rfl (by decide)

/-- Piece 10 keeps every reference it does not write. -/
theorem keep10 (W : Valuation τ sig (Elt F)) {r : Ref sig .tc} (hr : r ∉ writes10) :
    after (piece10 (F := F)) W (Proc.devRef .tc r) = W (Proc.devRef .tc r) :=
  after_of_writes_sub _ W writes10_sub hr

theorem writes11_sub : (piece11 (F := F)).Forall fun op => op.writes ⊆ (writes11.map (Proc.devRef (τ := τ) .tc)).toFinset := by
  refine ⟨?_, ?_, ?_⟩ <;> exact sub_of_mem rfl (by decide)

/-- Piece 11 keeps every reference it does not write. -/
theorem keep11 (W : Valuation τ sig (Elt F)) {r : Ref sig .tc} (hr : r ∉ writes11) :
    after (piece11 (F := F)) W (Proc.devRef .tc r) = W (Proc.devRef .tc r) :=
  after_of_writes_sub _ W writes11_sub hr

theorem writes12_sub : (piece12 (F := F)).Forall fun op => op.writes ⊆ (writes12.map (Proc.devRef (τ := τ) .tc)).toFinset := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact sub_of_mem rfl (by decide)

/-- Piece 12 keeps every reference it does not write. -/
theorem keep12 (W : Valuation τ sig (Elt F)) {r : Ref sig .tc} (hr : r ∉ writes12) :
    after (piece12 (F := F)) W (Proc.devRef .tc r) = W (Proc.devRef .tc r) :=
  after_of_writes_sub _ W writes12_sub hr

theorem writes13_sub : (piece13 (F := F)).Forall fun op => op.writes ⊆ (writes13.map (Proc.devRef (τ := τ) .tc)).toFinset := by
  refine ⟨?_, ?_, ?_, ?_, ?_⟩ <;> exact sub_of_mem rfl (by decide)

/-- Piece 13 keeps every reference it does not write. -/
theorem keep13 (W : Valuation τ sig (Elt F)) {r : Ref sig .tc} (hr : r ∉ writes13) :
    after (piece13 (F := F)) W (Proc.devRef .tc r) = W (Proc.devRef .tc r) :=
  after_of_writes_sub _ W writes13_sub hr

/-- The argument buffers' references. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17]
theorem arg_nw0 : ∀ r ∈ argRefs, r ∉ writes0 := by decide
theorem arg_nw1 : ∀ r ∈ argRefs, r ∉ writes1 := by decide
theorem arg_nw2 : ∀ r ∈ argRefs, r ∉ writes2 := by decide
theorem arg_nw3 : ∀ r ∈ argRefs, r ∉ writes3 := by decide
theorem arg_nw4 : ∀ r ∈ argRefs, r ∉ writes4 := by decide
theorem arg_nw5 : ∀ r ∈ argRefs, r ∉ writes5 := by decide
theorem arg_nw6 : ∀ r ∈ argRefs, r ∉ writes6 := by decide
theorem arg_nw7 : ∀ r ∈ argRefs, r ∉ writes7 := by decide
theorem arg_nw8 : ∀ r ∈ argRefs, r ∉ writes8 := by decide
theorem arg_nw9 : ∀ r ∈ argRefs, r ∉ writes9 := by decide
theorem arg_nw10 : ∀ r ∈ argRefs, r ∉ writes10 := by decide
theorem arg_nw11 : ∀ r ∈ argRefs, r ∉ writes11 := by decide
theorem arg_nw12 : ∀ r ∈ argRefs, r ∉ writes12 := by decide
theorem arg_nw13 : ∀ r ∈ argRefs, r ∉ writes13 := by decide

/-! ## The run, stretch after stretch -/

section Chain

local notation "A0" => after (piece0 (F := F)) V
local notation "A1" => after (piece1 (F := F)) A0
local notation "A2" => after (piece2 (F := F)) A1
local notation "A3" => after (piece3 (F := F)) A2
local notation "A4" => after (piece4 (F := F)) A3
local notation "A5" => after (piece5 (F := F)) A4
local notation "A6" => after (piece6 (F := F)) A5
local notation "A7" => after (piece7 (F := F)) A6
local notation "A8" => after (piece8 (F := F)) A7
local notation "A9" => after (piece9 (F := F)) A8
local notation "A10" => after (piece10 (F := F)) A9
local notation "A11" => after (piece11 (F := F)) A10
local notation "A12" => after (piece12 (F := F)) A11
local notation "A13" => after (piece13 (F := F)) A12

/-- All the operations are the fourteen pieces run one after the other. -/
theorem after_allOps : after (allOps (F := F)) V = A13 := by
  show after (piece0 ++ piece1 ++ piece2 ++ piece3 ++ piece4 ++ piece5 ++ piece6 ++ piece7 ++ piece8 ++ piece9 ++ piece10 ++ piece11 ++ piece12 ++ piece13) V = _
  simp only [StableHlo.after_append]

/-! No piece writes an argument buffer: after any number of pieces an argument buffer holds what it held at the start. -/
theorem args0 (r : Ref sig .tc) (hr : r ∈ argRefs) : A0 (Proc.devRef .tc r) = V (Proc.devRef .tc r) :=
  keep0 _ (arg_nw0 r hr)
theorem args1 (r : Ref sig .tc) (hr : r ∈ argRefs) : A1 (Proc.devRef .tc r) = V (Proc.devRef .tc r) :=
  (keep1 _ (arg_nw1 r hr)).trans (args0 V r hr)
theorem args2 (r : Ref sig .tc) (hr : r ∈ argRefs) : A2 (Proc.devRef .tc r) = V (Proc.devRef .tc r) :=
  (keep2 _ (arg_nw2 r hr)).trans (args1 V r hr)
theorem args3 (r : Ref sig .tc) (hr : r ∈ argRefs) : A3 (Proc.devRef .tc r) = V (Proc.devRef .tc r) :=
  (keep3 _ (arg_nw3 r hr)).trans (args2 V r hr)
theorem args4 (r : Ref sig .tc) (hr : r ∈ argRefs) : A4 (Proc.devRef .tc r) = V (Proc.devRef .tc r) :=
  (keep4 _ (arg_nw4 r hr)).trans (args3 V r hr)
theorem args5 (r : Ref sig .tc) (hr : r ∈ argRefs) : A5 (Proc.devRef .tc r) = V (Proc.devRef .tc r) :=
  (keep5 _ (arg_nw5 r hr)).trans (args4 V r hr)
theorem args6 (r : Ref sig .tc) (hr : r ∈ argRefs) : A6 (Proc.devRef .tc r) = V (Proc.devRef .tc r) :=
  (keep6 _ (arg_nw6 r hr)).trans (args5 V r hr)
theorem args7 (r : Ref sig .tc) (hr : r ∈ argRefs) : A7 (Proc.devRef .tc r) = V (Proc.devRef .tc r) :=
  (keep7 _ (arg_nw7 r hr)).trans (args6 V r hr)
theorem args8 (r : Ref sig .tc) (hr : r ∈ argRefs) : A8 (Proc.devRef .tc r) = V (Proc.devRef .tc r) :=
  (keep8 _ (arg_nw8 r hr)).trans (args7 V r hr)
theorem args9 (r : Ref sig .tc) (hr : r ∈ argRefs) : A9 (Proc.devRef .tc r) = V (Proc.devRef .tc r) :=
  (keep9 _ (arg_nw9 r hr)).trans (args8 V r hr)
theorem args10 (r : Ref sig .tc) (hr : r ∈ argRefs) : A10 (Proc.devRef .tc r) = V (Proc.devRef .tc r) :=
  (keep10 _ (arg_nw10 r hr)).trans (args9 V r hr)
theorem args11 (r : Ref sig .tc) (hr : r ∈ argRefs) : A11 (Proc.devRef .tc r) = V (Proc.devRef .tc r) :=
  (keep11 _ (arg_nw11 r hr)).trans (args10 V r hr)
theorem args12 (r : Ref sig .tc) (hr : r ∈ argRefs) : A12 (Proc.devRef .tc r) = V (Proc.devRef .tc r) :=
  (keep12 _ (arg_nw12 r hr)).trans (args11 V r hr)
theorem args13 (r : Ref sig .tc) (hr : r ∈ argRefs) : A13 (Proc.devRef .tc r) = V (Proc.devRef .tc r) :=
  (keep13 _ (arg_nw13 r hr)).trans (args12 V r hr)

/-! The stretches' results in the order the program computes them, each a term of the arguments' contents. -/

local notation "T0" => RT.dot0 (V (Proc.devRef Proc.tc main_arg0)) (V (Proc.devRef Proc.tc main_arg4))
local notation "T1" => RT.agg64 T0 (V (Proc.devRef Proc.tc main_arg1))
local notation "T2" => RT.lnelu64 T1 (V (Proc.devRef Proc.tc main_arg5)) (V (Proc.devRef Proc.tc main_arg6)) (V (Proc.devRef Proc.tc main_arg7))
local notation "T3" => RT.dot1 (V (Proc.devRef Proc.tc main_arg0)) (V (Proc.devRef Proc.tc main_arg3)) (V (Proc.devRef Proc.tc main_arg8))
local notation "T4" => RT.agg64 T3 (V (Proc.devRef Proc.tc main_arg2))
local notation "T5" => RT.lnelu64 T4 (V (Proc.devRef Proc.tc main_arg9)) (V (Proc.devRef Proc.tc main_arg10)) (V (Proc.devRef Proc.tc main_arg11))
local notation "T6" => RT.dot2 T2 T5 (V (Proc.devRef Proc.tc main_arg12))
local notation "E6" => RT.ecat (V (Proc.devRef Proc.tc main_arg1)) (V (Proc.devRef Proc.tc main_arg2))
local notation "T7" => RT.agg128 T6 E6
local notation "T8" => RT.lnelu128 T7 (V (Proc.devRef Proc.tc main_arg13)) (V (Proc.devRef Proc.tc main_arg14)) (V (Proc.devRef Proc.tc main_arg15))
local notation "T9" => RT.flat (RT.outcol T8 (V (Proc.devRef Proc.tc main_arg16)) (V (Proc.devRef Proc.tc main_arg17)))

theorem at0 : A0 (Proc.devRef .tc main_v0) = T0 := v0_val V

theorem at1 : A1 (Proc.devRef .tc main_v45) = T1 := by
  rw [v45_val, at0, args0 V main_arg1 (by decide)]

theorem at3 : A3 (Proc.devRef .tc main_v73) = T2 := by
  rw [v73_val, at1, args1 V main_arg5 (by decide), args1 V main_arg6 (by decide), args1 V main_arg7 (by decide)]

theorem at4 : A4 (Proc.devRef .tc main_v75) = T3 := by
  rw [v75_val, args3 V main_arg0 (by decide), args3 V main_arg3 (by decide), args3 V main_arg8 (by decide)]

theorem at6 : A6 (Proc.devRef .tc main_v120) = T4 := by
  rw [v120_val, at4, args4 V main_arg2 (by decide)]

theorem at8 : A8 (Proc.devRef .tc main_v148) = T5 := by
  rw [v148_val, at6, args6 V main_arg9 (by decide), args6 V main_arg10 (by decide), args6 V main_arg11 (by decide)]

/-- The first layer's result is written in piece 3 and read in piece 9: pieces 4 to 8 keep it. -/
theorem at8' : A8 (Proc.devRef .tc main_v73) = T2 := by
  rw [keep8 (r := main_v73) _ (by decide), keep7 (r := main_v73) _ (by decide), keep6 (r := main_v73) _ (by decide),
    keep5 (r := main_v73) _ (by decide), keep4 (r := main_v73) _ (by decide), at3]

theorem at9 : A9 (Proc.devRef .tc main_v151) = T6 := by
  rw [v151_val, at8', at8, args8 V main_arg12 (by decide)]

theorem at9e : A9 (Proc.devRef .tc main_v150) = E6 := by
  rw [v150_val, args8 V main_arg1 (by decide), args8 V main_arg2 (by decide)]

theorem at11 : A11 (Proc.devRef .tc main_v196) = T7 := by
  rw [v196_val, at9, at9e]

theorem at12 : A12 (Proc.devRef .tc main_v224) = T8 := by
  rw [v224_val, at11, args11 V main_arg13 (by decide), args11 V main_arg14 (by decide), args11 V main_arg15 (by decide)]

theorem at13 : A13 (Proc.devRef .tc main_v229) = T9 := by
  rw [v229_val, at12, args12 V main_arg16 (by decide), args12 V main_arg17 (by decide)]

end Chain

/-- After @main's operations the result buffer holds the network's value at the arguments' contents. -/
theorem out_eq : after (allOps (F := F)) V (Proc.devRef .tc main_v229)
    = RT.Out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_allOps]
  exact at13 V

/-- No operation of @main writes an argument buffer. -/
theorem arg_eq : after (allOps (F := F)) V (Proc.devRef .tc main_arg0) = V (Proc.devRef .tc main_arg0)
    ∧ after (allOps (F := F)) V (Proc.devRef .tc main_arg1) = V (Proc.devRef .tc main_arg1)
    ∧ after (allOps (F := F)) V (Proc.devRef .tc main_arg2) = V (Proc.devRef .tc main_arg2)
    ∧ after (allOps (F := F)) V (Proc.devRef .tc main_arg3) = V (Proc.devRef .tc main_arg3)
    ∧ after (allOps (F := F)) V (Proc.devRef .tc main_arg4) = V (Proc.devRef .tc main_arg4)
    ∧ after (allOps (F := F)) V (Proc.devRef .tc main_arg5) = V (Proc.devRef .tc main_arg5)
    ∧ after (allOps (F := F)) V (Proc.devRef .tc main_arg6) = V (Proc.devRef .tc main_arg6)
    ∧ after (allOps (F := F)) V (Proc.devRef .tc main_arg7) = V (Proc.devRef .tc main_arg7)
    ∧ after (allOps (F := F)) V (Proc.devRef .tc main_arg8) = V (Proc.devRef .tc main_arg8)
    ∧ after (allOps (F := F)) V (Proc.devRef .tc main_arg9) = V (Proc.devRef .tc main_arg9)
    ∧ after (allOps (F := F)) V (Proc.devRef .tc main_arg10) = V (Proc.devRef .tc main_arg10)
    ∧ after (allOps (F := F)) V (Proc.devRef .tc main_arg11) = V (Proc.devRef .tc main_arg11)
    ∧ after (allOps (F := F)) V (Proc.devRef .tc main_arg12) = V (Proc.devRef .tc main_arg12)
    ∧ after (allOps (F := F)) V (Proc.devRef .tc main_arg13) = V (Proc.devRef .tc main_arg13)
    ∧ after (allOps (F := F)) V (Proc.devRef .tc main_arg14) = V (Proc.devRef .tc main_arg14)
    ∧ after (allOps (F := F)) V (Proc.devRef .tc main_arg15) = V (Proc.devRef .tc main_arg15)
    ∧ after (allOps (F := F)) V (Proc.devRef .tc main_arg16) = V (Proc.devRef .tc main_arg16)
    ∧ after (allOps (F := F)) V (Proc.devRef .tc main_arg17) = V (Proc.devRef .tc main_arg17) := by
  rw [after_allOps]
  exact ⟨args13 V main_arg0 (by decide), args13 V main_arg1 (by decide), args13 V main_arg2 (by decide), args13 V main_arg3 (by decide), args13 V main_arg4 (by decide), args13 V main_arg5 (by decide), args13 V main_arg6 (by decide), args13 V main_arg7 (by decide), args13 V main_arg8 (by decide), args13 V main_arg9 (by decide), args13 V main_arg10 (by decide), args13 V main_arg11 (by decide), args13 V main_arg12 (by decide), args13 V main_arg13 (by decide), args13 V main_arg14 (by decide), args13 V main_arg15 (by decide), args13 V main_arg16 (by decide), args13 V main_arg17 (by decide)⟩

end Cert.ReferenceIdeal.Val

end
-- ==== Proof.RefResult.lean ====
/-
  The reference's run, read: every weakly fair execution of the reference terminates with the result buffer at the
  network's value `RT.Out` of the launch memory's argument arrays, and the arguments unchanged — the run of the
  straight line of operations joined to the operations' value. For every float family.
-/
import proofs.«122206_j54812372631715_1_alg».proof.Proof.RefRun
import proofs.«122206_j54812372631715_1_alg».proof.Proof.RefVal

noncomputable section

namespace Cert.ReferenceIdeal.Result

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v229)
          = RT.Out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => by
    obtain ⟨e0, e1, e2, e3, e4, e5, e6, e7, e8, e9, e10, e11, e12, e13, e14, e15, e16, e17⟩ := Val.arg_eq (F := F) (launchContents m c)
    exact ⟨(h c main_v229).trans (Val.out_eq (launchContents m c)),
      (h c main_arg0).trans e0,
      (h c main_arg1).trans e1,
      (h c main_arg2).trans e2,
      (h c main_arg3).trans e3,
      (h c main_arg4).trans e4,
      (h c main_arg5).trans e5,
      (h c main_arg6).trans e6,
      (h c main_arg7).trans e7,
      (h c main_arg8).trans e8,
      (h c main_arg9).trans e9,
      (h c main_arg10).trans e10,
      (h c main_arg11).trans e11,
      (h c main_arg12).trans e12,
      (h c main_arg13).trans e13,
      (h c main_arg14).trans e14,
      (h c main_arg15).trans e15,
      (h c main_arg16).trans e16,
      (h c main_arg17).trans e17⟩)
    (Run.run_all m ρ)

end Cert.ReferenceIdeal.Result

end
-- ==== Proof.lean ====
/-
  The certificate of a three-layer graph network: two 64-channel graph convolutions (a feature product, a symmetric-
  normalised scatter-add over the edges with self loops, bias, layer normalisation, `elu`) feed a 128-channel one over both
  edge lists, and a linear output. The kernel runs the dense parts as six row-blocked regions (ten blocks of 5000 rows)
  and the scatter-adds on the host; the reference runs everything on the host.

  Over the extended reals the two compute one function. A region's block of a product is the rows' sums of products, the
  same sums the reference's whole product takes (a product against a weight matrix given in two halves is the product
  with the concatenated features: a sum over the joined index splits in two); normalisation and activation act row by
  row, so a block's rows see what the whole array's rows see, and `exp y − 1` is the reference's `expm1 y` where
  the activation's branch takes it; the host stretches between the regions are the reference's own operations. So at the
  last boundary of the kernel's @main the result buffer holds `RT.Out` of the argument arrays (Proof/KernelWalk.lean, over
  Proof/Final0 … Final5 for the regions and Proof/KernelHost.lean for the stretches), which is what the reference's run
  leaves (Proof/RefResult.lean). No finiteness of the inputs is used: the laws are those of a commutative monoid.
  The frames are the generated ones; the reference's frame is its run with the result dropped.
-/
import proofs.«122206_j54812372631715_1_alg».proof.Defs
import proofs.«122206_j54812372631715_1_alg».proof.Proof.Gen.Kernel
import proofs.«122206_j54812372631715_1_alg».proof.Proof.Gen.Kernel.Frame
import proofs.«122206_j54812372631715_1_alg».proof.Proof.Gen.KernelIdeal
import proofs.«122206_j54812372631715_1_alg».proof.Proof.Gen.KernelIdeal.Frame
import proofs.«122206_j54812372631715_1_alg».proof.Proof.Gen.ReferenceIdeal
import proofs.«122206_j54812372631715_1_alg».proof.Proof.Gen.Pre_finite_inputs
import proofs.«122206_j54812372631715_1_alg».proof.Proof.KernelRun
import proofs.«122206_j54812372631715_1_alg».proof.Proof.KernelWalk
import proofs.«122206_j54812372631715_1_alg».proof.Proof.RefResult
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.Result.run (F := Ideal) m ρ)

/-- Both programs end with the result buffer at the network's value of the (agreeing) argument arrays. -/
theorem algebraic : Cert.algebraic_KernelIdeal_ReferenceIdeal := by
  intro m ρ m' ρ' _ hagree
  refine ⟨fun c => Cert.ReferenceIdeal.RT.Out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono (fun r h c => ⟨(h c).1.trans (Cert.KernelIdeal.Walk.result m ρ c), (h c).2⟩)
      (Cert.KernelIdeal.KRun.run (F := Ideal) m ρ)
  · refine (θ_run Cert.ReferenceIdeal.defs _ _).mono (fun r h c => ⟨?_, (h c).2⟩)
      (Cert.ReferenceIdeal.Result.run (F := Ideal) m' ρ')
    obtain ⟨a0, a1, a2, a3, a4, a5, a6, a7, a8, a9, a10, a11, a12, a13, a14, a15, a16, a17⟩ := hagree c
    rw [(h c).1, a0, a1, a2, a3, a4, a5, a6, a7, a8, a9, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
